-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x10000x10000 : Shape := ⟨3, ![2, 10000, 10000]⟩
abbrev S10000x64 : Shape := ⟨2, ![10000, 64]⟩
abbrev S64x64 : Shape := ⟨2, ![64, 64]⟩
abbrev S64 : Shape := ⟨1, ![64]⟩
abbrev S_ : Shape := ⟨0, ![]⟩

class Facts : Prop where
  bcast_S_S2x10000x10000 : S_.BroadcastsInDim S2x10000x10000 (![] : Fin 0 → Fin S2x10000x10000.rank)
  reducesTo_S2x10000x10000_S_d0_1_2 : S2x10000x10000.ReducesTo [0, 1, 2] S_
  h_S_ : 0 < S_.numel
  bcast_S_S10000x64 : S_.BroadcastsInDim S10000x64 (![] : Fin 0 → Fin S10000x64.rank)
  reducesTo_S10000x64_S_d0_1 : S10000x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64x64 .f32) (main_arg5 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S2x10000x10000 .f32) (main_arg1 : FVec F S10000x64 .f32) (main_arg2 : FVec F S64x64 .f32) (main_arg3 : FVec F S64 .f32) (main_arg4 : FVec F S64x64 .f32) (main_arg5 : FVec F S64 .f32) : IVec S_ 1 :=
  let main_v0 : FVec F S2x10000x10000 .f32 := Host.absf main_arg0
  let main_cst : FVec F S_ .f32 := constant S_ .f32 0x7F800000#32
  let main_v1 : FVec F S2x10000x10000 .f32 := broadcastInDim S2x10000x10000 ![] bcast_S_S2x10000x10000 main_cst
  let main_v2 : IVec S2x10000x10000 1 := cmpf .olt main_v0 main_v1
  let main_c : IVec S_ 1 := constantI S_ 1 1#1
  let main_v3 : IVec S_ 1 := (fun x v => Host.reduce IntOp.andi x v reducesTo_S2x10000x10000_S_d0_1_2 h_S_) main_v2 main_c
  let main_v4 : FVec F S10000x64 .f32 := Host.absf main_arg1
  let main_cst_0 : FVec F S_ .f32 := constant S_ .f32 0x7F800000#32
  let main_v5 : FVec F S10000x64 .f32 := broadcastInDim S10000x64 ![] bcast_S_S10000x64 main_cst_0
  let main_v6 : IVec S10000x64 1 := cmpf .olt main_v4 main_v5
  let main_c_1 : IVec S_ 1 := constantI S_ 1 1#1
  let main_v7 : IVec S_ 1 := (fun x v => Host.reduce IntOp.andi x v reducesTo_S10000x64_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_v13 main_v16
-- ==== Kernel.lean ====
abbrev S2x10000x10000 : Shape := ⟨3, ![2, 10000, 10000]⟩
abbrev S10000x64 : Shape := ⟨2, ![10000, 64]⟩
abbrev S64x64 : Shape := ⟨2, ![64, 64]⟩
abbrev S64 : Shape := ⟨1, ![64]⟩
abbrev S1x64 : Shape := ⟨2, ![1, 64]⟩
abbrev S2x10000x64 : Shape := ⟨3, ![2, 10000, 64]⟩
abbrev S1x400x10000 : Shape := ⟨3, ![1, 400, 10000]⟩
abbrev S1x400x64 : Shape := ⟨3, ![1, 400, 64]⟩
abbrev S400x10000 : Shape := ⟨2, ![400, 10000]⟩
abbrev S400x64 : Shape := ⟨2, ![400, 64]⟩
abbrev S1x10000x64 : Shape := ⟨3, ![1, 10000, 64]⟩

abbrev nBuf : Space → Nat
  | .hbm => 10
  | .vmem => 17
  | .smem => 0
  | _ => 0

abbrev bufTy : (tb : Table) → Fin (tcTables nBuf tb) → BufTy
  | .hbm, ⟨0, _⟩ => ⟨S2x10000x10000, .f32⟩
  | .hbm, ⟨1, _⟩ => ⟨S10000x64, .f32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S1x64, .f32⟩
  | .hbm, ⟨7, _⟩ => ⟨S1x64, .f32⟩
  | .hbm, ⟨8, _⟩ => ⟨S2x10000x64, .f32⟩
  | .hbm, ⟨9, _⟩ => ⟨S2x10000x64, .f32⟩
  | .local _ .vmem, ⟨0, _⟩ => ⟨S1x400x10000, .f32⟩
  | .local _ .vmem, ⟨1, _⟩ => ⟨S1x400x10000, .f32⟩
  | .local _ .vmem, ⟨2, _⟩ => ⟨S10000x64, .f32⟩
  | .local _ .vmem, ⟨3, _⟩ => ⟨S64x64, .f32⟩
  | .local _ .vmem, ⟨4, _⟩ => ⟨S1x64, .f32⟩
  | .local _ .vmem, ⟨5, _⟩ => ⟨S1x400x64, .f32⟩
  | .local _ .vmem, ⟨6, _⟩ => ⟨S1x400x64, .f32⟩
  | .local _ .vmem, ⟨7, _⟩ => ⟨S10000x64, .f32⟩
  | .local _ .vmem, ⟨8, _⟩ => ⟨S1x400x10000, .f32⟩
  | .local _ .vmem, ⟨9, _⟩ => ⟨S1x400x10000, .f32⟩
  | .local _ .vmem, ⟨10, _⟩ => ⟨S1x10000x64, .f32⟩
  | .local _ .vmem, ⟨11, _⟩ => ⟨S1x10000x64, .f32⟩
  | .local _ .vmem, ⟨12, _⟩ => ⟨S64x64, .f32⟩
  | .local _ .vmem, ⟨13, _⟩ => ⟨S1x64, .f32⟩
  | .local _ .vmem, ⟨14, _⟩ => ⟨S1x400x64, .f32⟩
  | .local _ .vmem, ⟨15, _⟩ => ⟨S1x400x64, .f32⟩
  | .local _ .vmem, ⟨16, _⟩ => ⟨S10000x64, .f32⟩
  | _, _ => ⟨S2x10000x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc1_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14

abbrev nD : Nat := 1
abbrev τ : Topo := Topo.v7x

variable {F : FTy → Type} [FloatOps F]

abbrev grid0 : Pipeline.Grid := ⟨2, ![2, 25], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S10000x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x400x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![2, 25], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1x400x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

class Facts₀ : Prop where
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  inb_S64x64_S64x64_0_0 : ∀ a, (![0, 0] : Fin 2 → Nat) a + S64x64.size a ≤ S64x64.size a
  h_S64x64 : 0 < S64x64.numel
  shapeCasts_S10000x64_S10000x64 : S10000x64.ShapeCasts S10000x64
  inb_S1x400x10000_S1x400x10000_0_0_0 : ∀ a, (![0, 0, 0] : Fin 3 → Nat) a + S1x400x10000.size a ≤ S1x400x10000.size a
  h_S1x400x10000 : 0 < S1x400x10000.numel
  shapeCasts_S1x400x10000_S400x10000 : S1x400x10000.ShapeCasts S400x10000
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S400x64 : S1x64.Broadcasts S400x64
  inb_S1x400x64_S1x400x64_0_0_0 : ∀ a, (![0, 0, 0] : Fin 3 → Nat) a + S1x400x64.size a ≤ S1x400x64.size a
  h_S1x400x64 : 0 < S1x400x64.numel
  shapeCasts_S1x400x64_S400x64 : S1x400x64.ShapeCasts S400x64
  shapeCasts_S400x64_S1x400x64 : S400x64.ShapeCasts S1x400x64
  inb_S1x10000x64_S1x10000x64_0_0_0 : ∀ a, (![0, 0, 0] : Fin 3 → Nat) a + S1x10000x64.size a ≤ S1x10000x64.size a
  h_S1x10000x64 : 0 < S1x10000x64.numel
  shapeCasts_S1x10000x64_S10000x64 : S1x10000x64.ShapeCasts S10000x64
  dot_S10000x64_S64x64_S10000x64_1_0_0_1_n_n_wf : DotDims.WF S10000x64 S64x64 S10000x64 [1] [0] [0] [1] [] []
  dot_S400x10000_S10000x64_S400x64_1_0_0_1_n_n_wf : DotDims.WF S400x10000 S10000x64 S400x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x400x10000.size a ≤ S2x10000x10000.size a
  hwx0_0 : ∀ i : grid0.Coords, EltTy.bits .f32 = 32 ∨ (Rect.block (s := S2x10000x10000) S1x400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S10000x64.size a
  hwx0_1 : ∀ i : grid0.Coords, EltTy.bits .f32 = 32 ∨ (Rect.block (s := S10000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x400x64.size a ≤ S2x10000x64.size a
  hwx0_4 : ∀ i : grid0.Coords, EltTy.bits .f32 = 32 ∨ (Rect.block (s := S2x10000x64) S1x400x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x400x10000.size a ≤ S2x10000x10000.size a
  hwx1_0 : ∀ i : grid1.Coords, EltTy.bits .f32 = 32 ∨ (Rect.block (s := S2x10000x10000) S1x400x10000.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x10000x64.size a ≤ S2x10000x64.size a
  hwx1_1 : ∀ i : grid1.Coords, EltTy.bits .f32 = 32 ∨ (Rect.block (s := S2x10000x64) S1x10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x400x64.size a ≤ S2x10000x64.size a
  hwx1_4 : ∀ i : grid1.Coords, EltTy.bits .f32 = 32 ∨ (Rect.block (s := S2x10000x64) S1x400x64.size (cc1_transform_4 i) (hinb1_4 i)).WholeWords (EltTy.packing .f32)

variable [Facts₀]

def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S400x10000_S10000x64_S400x64_1_0_0_1_n_n : DotDims S400x10000 S10000x64 S400x64 where
  lhsContracting := [1]
  rhsContracting := [0]
  lhsNonContracting := [0]
  rhsNonContracting := [1]
  lhsBatch := []
  rhsBatch := []
  wf := dot_S400x10000_S10000x64_S400x64_1_0_0_1_n_n_wf

abbrev win0_0 : Pipeline.Window sig grid0 :=
  Pipeline.Window.ofSpec (Memref.whole main_arg0) S1x400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S10000x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v0) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v2) S1x400x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S1x400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v2) S1x10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_call0_v1) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v0) S1x400x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S2x10000x10000 : Shape := ⟨3, ![2, 10000, 10000]⟩
abbrev S10000x64 : Shape := ⟨2, ![10000, 64]⟩
abbrev S64x64 : Shape := ⟨2, ![64, 64]⟩
abbrev S64 : Shape := ⟨1, ![64]⟩
abbrev S1x10000x10000 : Shape := ⟨3, ![1, 10000, 10000]⟩
abbrev S10000x10000 : Shape := ⟨2, ![10000, 10000]⟩
abbrev S1x64 : Shape := ⟨2, ![1, 64]⟩
abbrev S_ : Shape := ⟨0, ![]⟩
abbrev S1x10000x64 : Shape := ⟨3, ![1, 10000, 64]⟩
abbrev S2x10000x64 : Shape := ⟨3, ![2, 10000, 64]⟩

abbrev nBuf : Space → Nat
  | .hbm => 47
  | .vmem => 0
  | .smem => 0
  | _ => 0

abbrev bufTy : (tb : Table) → Fin (tcTables nBuf tb) → BufTy
  | .hbm, ⟨0, _⟩ => ⟨S2x10000x10000, .f32⟩
  | .hbm, ⟨1, _⟩ => ⟨S10000x64, .f32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S1x10000x10000, .f32⟩
  | .hbm, ⟨7, _⟩ => ⟨S10000x10000, .f32⟩
  | .hbm, ⟨8, _⟩ => ⟨S10000x64, .f32⟩
  | .hbm, ⟨9, _⟩ => ⟨S10000x64, .f32⟩
  | .hbm, ⟨10, _⟩ => ⟨S1x64, .f32⟩
  | .hbm, ⟨11, _⟩ => ⟨S10000x64, .f32⟩
  | .hbm, ⟨12, _⟩ => ⟨S10000x64, .f32⟩
  | .hbm, ⟨13, _⟩ => ⟨S_, .f32⟩
  | .hbm, ⟨14, _⟩ => ⟨S10000x64, .f32⟩
  | .hbm, ⟨15, _⟩ => ⟨S10000x64, .i1⟩
  | .hbm, ⟨16, _⟩ => ⟨S_, .f32⟩
  | .hbm, ⟨17, _⟩ => ⟨S10000x64, .f32⟩
  | .hbm, ⟨18, _⟩ => ⟨S10000x64, .f32⟩
  | .hbm, ⟨19, _⟩ => ⟨S10000x64, .f32⟩
  | .hbm, ⟨20, _⟩ => ⟨S10000x64, .f32⟩
  | .hbm, ⟨21, _⟩ => ⟨S10000x64, .f32⟩
  | .hbm, ⟨22, _⟩ => ⟨S1x64, .f32⟩
  | .hbm, ⟨23, _⟩ => ⟨S10000x64, .f32⟩
  | .hbm, ⟨24, _⟩ => ⟨S10000x64, .f32⟩
  | .hbm, ⟨25, _⟩ => ⟨S1x10000x10000, .f32⟩
  | .hbm, ⟨26, _⟩ => ⟨S10000x10000, .f32⟩
  | .hbm, ⟨27, _⟩ => ⟨S10000x64, .f32⟩
  | .hbm, ⟨28, _⟩ => ⟨S10000x64, .f32⟩
  | .hbm, ⟨29, _⟩ => ⟨S1x64, .f32⟩
  | .hbm, ⟨30, _⟩ => ⟨S10000x64, .f32⟩
  | .hbm, ⟨31, _⟩ => ⟨S10000x64, .f32⟩
  | .hbm, ⟨32, _⟩ => ⟨S_, .f32⟩
  | .hbm, ⟨33, _⟩ => ⟨S10000x64, .f32⟩
  | .hbm, ⟨34, _⟩ => ⟨S10000x64, .i1⟩
  | .hbm, ⟨35, _⟩ => ⟨S_, .f32⟩
  | .hbm, ⟨36, _⟩ => ⟨S10000x64, .f32⟩
  | .hbm, ⟨37, _⟩ => ⟨S10000x64, .f32⟩
  | .hbm, ⟨38, _⟩ => ⟨S10000x64, .f32⟩
  | .hbm, ⟨39, _⟩ => ⟨S10000x64, .f32⟩
  | .hbm, ⟨40, _⟩ => ⟨S10000x64, .f32⟩
  | .hbm, ⟨41, _⟩ => ⟨S1x64, .f32⟩
  | .hbm, ⟨42, _⟩ => ⟨S10000x64, .f32⟩
  | .hbm, ⟨43, _⟩ => ⟨S10000x64, .f32⟩
  | .hbm, ⟨44, _⟩ => ⟨S1x10000x64, .f32⟩
  | .hbm, ⟨45, _⟩ => ⟨S1x10000x64, .f32⟩
  | .hbm, ⟨46, _⟩ => ⟨S2x10000x64, .f32⟩
  | _, _ => ⟨S2x10000x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_1 : Ref sig .tc := ⟨.hbm, 32, rfl⟩
abbrev main_v24 : Ref sig .tc := ⟨.hbm, 33, rfl⟩
abbrev main_v25 : Ref sig .tc := ⟨.hbm, 34, rfl⟩
abbrev main_cst_2 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩

abbrev nD : Nat := 1
abbrev τ : Topo := Topo.v7x

variable {F : FTy → Type} [FloatOps F]

class Facts₀ : Prop where
  slices_S2x10000x10000_S1x10000x10000_0_0_0 : S2x10000x10000.Slices ![0, 0, 0] S1x10000x10000
  shapeCasts_S1x10000x10000_S10000x10000 : S1x10000x10000.ShapeCasts S10000x10000
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bcast_S_S10000x64 : S_.BroadcastsInDim S10000x64 (![] : Fin 0 → Fin S10000x64.rank)
  slices_S2x10000x10000_S1x10000x10000_1_0_0 : S2x10000x10000.Slices ![1, 0, 0] S1x10000x10000
  bcast_S10000x64_S1x10000x64_1_2 : S10000x64.BroadcastsInDim S1x10000x64 (![1, 2] : Fin 2 → Fin S1x10000x64.rank)
  concatenates_S1x10000x64_S1x10000x64_S2x10000x64_d0 : Shape.Concatenates [S1x10000x64, S1x10000x64] S2x10000x64 0
  dot_S10000x64_S64x64_S10000x64_1_0_0_1_n_n_wf : DotDims.WF S10000x64 S64x64 S10000x64 [1] [0] [0] [1] [] []
  dot_S10000x10000_S10000x64_S10000x64_1_0_0_1_n_n_wf : DotDims.WF S10000x10000 S10000x64 S10000x64 [1] [0] [0] [1] [] []

variable [Facts₀]

def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf

class Facts : Prop extends Facts₀ where

variable [Facts]
-- ==== Proof.Bits.Body0.lean ====
import proofs.«139597_g28621662060800_retrytranche2_548_2_alg».proof.Proof.Gen.Kernel.Launch
import proofs.«139597_g28621662060800_retrytranche2_548_2_alg».proof.Proof.Gen.Kernel.Skeleton
import proofs.«139597_g28621662060800_retrytranche2_548_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gcn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! Layer 1 of the network, one grid point of its kernel: the body run on whole staging buffers.

The grid is (batch element, row tile). At the first row tile of a batch element the body recomputes the
support matrix (features times weights) into the scratch buffer; at every row tile it multiplies the
adjacency row block by the support read back from scratch and adds the bias (the first layer then applies the leaky rectifier). -/

/-- The body's one branch: the row-tile coordinate is zero. -/
abbrev firstTile0 (i : grid0.Coords) : Prop :=
  (Scalar.cmpi .ne (Scalar.extui (Scalar.cmpi .eq (BitVec.ofNat 32 (i 1).val) 0#32)) 0#32) = 1#1

/-- Row tiles are the fast axis of 25: the branch is taken exactly at the points divisible by 25. -/
theorem firstTile0_iff : ∀ t : Fin cfg0.N, firstTile0 (grid0.coords t) ↔ t.val % 25 = 0 :=
  (by decide +kernel : ∀ t : Fin grid0.N, firstTile0 (grid0.coords t) ↔ t.val % 25 = 0)

set_option maxHeartbeats 1000000 in
/-- First row tile of a batch element: from the adjacency block `x0`, the features `x1`, the weights `x2`, the bias
    `x3`, the output block and the scratch at anything, the body ends with the inputs as they were, and the output
    block and the scratch each holding the pieces its stores wrote (found by running the body). -/
noncomputable def runFirst0 (c : Dev nD) (i : grid0.Coords) (arg2 : Memref sig .tc .vmem S1x400x10000 .f32) (harg2 : arg2.IsWhole) (arg3 : Memref sig .tc .vmem S10000x64/-feature block-/ .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S1x400x64 .f32) (harg6 : arg6.IsWhole) (arg7 : Memref sig .tc .vmem S10000x64 .f32) (harg7 : arg7.IsWhole) (hc : firstTile0 i)
    (x0 : Vec F S1x400x10000 .f32) (x1 : Vec F S10000x64/-feature block-/ .f32) (x2 : Vec F S64x64 .f32) (x3 : Vec F S1x64 .f32) :
    Σ' (L4 : List (View.Piece (Elt F) S1x400x64 .f32)), { LS : List (View.Piece (Elt F) S10000x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS)) -∗ K ⟨⟩))
          ⊢ wp frame (wpE (defs₀ (F := F)) Variants.none c none) E (cc0__gcn_layer_kernel i arg2 harg2 arg3 harg3 arg4 harg4 arg5 harg5 arg6 harg6 arg7 harg7) K } := by
  refine ⟨?_, ?_, fun E K => ?run⟩
  case run =>
    simp only [cc0__gcn_layer_kernel_eq_skeleton]; unfold cc0__gcn_layer_kernel_skel
    unfold owns
    iintro ⟨⟨%f0, %hf0, H0⟩, ⟨%f1, %hf1, H1⟩, ⟨%f2, %hf2, H2⟩, ⟨%f3, %hf3, H3⟩, ⟨%d4, %f4, -, H4⟩, ⟨%ds, %fs, -, HS⟩, Hk⟩
    obtain rfl := harg2.eq_unread hf0; obtain rfl := harg3.eq_unread hf1; obtain rfl := harg4.eq_unread hf2; obtain rfl := harg5.eq_unread hf3
    sl_exec (disch := exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS

set_option maxHeartbeats 1000000 in
/-- A later row tile: the scratch holds the support `xs` the batch element's first tile left; the body leaves the
    inputs and the scratch as they were and the output block holding the pieces its store wrote. -/
noncomputable def runLater0 (c : Dev nD) (i : grid0.Coords) (arg2 : Memref sig .tc .vmem S1x400x10000 .f32) (harg2 : arg2.IsWhole) (arg3 : Memref sig .tc .vmem S10000x64/-feature block-/ .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S1x400x64 .f32) (harg6 : arg6.IsWhole) (arg7 : Memref sig .tc .vmem S10000x64 .f32) (harg7 : arg7.IsWhole) (hc : ¬firstTile0 i)
    (x0 : Vec F S1x400x10000 .f32) (x3 : Vec F S1x64 .f32) (xs : Vec F S10000x64 .f32) :
    { L4 : List (View.Piece (Elt F) S1x400x64 .f32) //
      ∀ (x1 : Vec F S10000x64/-feature block-/ .f32) (x2 : Vec F S64x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ owns (c : Thread nD τ) arg7 fullShare xs) -∗ K ⟨⟩))
          ⊢ wp frame (wpE (defs₀ (F := F)) Variants.none c none) E (cc0__gcn_layer_kernel i arg2 harg2 arg3 harg3 arg4 harg4 arg5 harg5 arg6 harg6 arg7 harg7) K } := by
  refine ⟨?_, fun x1 x2 E K => ?run⟩
  case run =>
    simp only [cc0__gcn_layer_kernel_eq_skeleton]; unfold cc0__gcn_layer_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg2.eq_unread hf0; obtain rfl := harg3.eq_unread hf1; obtain rfl := harg4.eq_unread hf2; obtain rfl := harg5.eq_unread hf3; obtain rfl := harg7.eq_unread hfs
    sl_exec (disch := exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; isplitr; · ipureintro; exact harg7.read_unread _
    iexact HS

end Cert.Kernel.Gcn

end
-- ==== Proof.Bits.Scoped0.lean ====
import proofs.«139597_g28621662060800_retrytranche2_548_2_alg».proof.Proof.Gen.Kernel.Launch
import Idealize.ShloMosaic.Lib.Pipeline.Frame
import Idealize.ShloMosaic.Lib.Tactic

set_option maxRecDepth 16384

noncomputable section

namespace Cert.Kernel.Gcn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! Layer 1's kernel keeps the support matrix in a scratch buffer of its own across grid points. The region's
invariant starts as "every scoped buffer that is no staging buffer of this call, at some contents, and the generator
register at some state"; this module separates the scratch buffer from the rest of that list and puts it back. -/

/-- The kernel's scratch operand: a whole scoped buffer. -/
abbrev scM0 : Memref sig .tc .vmem S10000x64 .f32 := Memref.whole cc0_scratch0

/-- The scoped buffers the region's invariant holds besides that scratch (the other call's staging and scratch
    buffers), each at some contents: this body never touches them. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f))

/-- The region's starting invariant hands out the scratch at some contents, the other buffers and the generator register. -/
theorem PhiA0_open (c : Dev nD) :
    (Pipeline.ΦA spec0 c : sProp 𝕄) ⊢ iprop((∃ d, owns (c : Thread nD τ) scM0 fullShare d) ∗ others0 c ∗ (∃ r, prngReg c r)) := by
  unfold Pipeline.ΦA others0; rw [scopedRest0_eq]; simp only [scM0, owns_whole]
  iintro ⟨⟨HS, H0, H1, H2, H3, H4, H5, H6, H7, H8⟩, Hp⟩
  isplitl [HS]; · iexact HS
  isplitr [Hp]
  swap; · iexact Hp
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- And takes them back, the scratch at any contents. -/
theorem PhiA0_close (c : Dev nD) :
    iprop((∃ d, owns (c : Thread nD τ) scM0 fullShare d) ∗ others0 c ∗ (∃ r, prngReg c r)) ⊢ (Pipeline.ΦA spec0 c : sProp 𝕄) := by
  unfold Pipeline.ΦA others0; rw [scopedRest0_eq]; simp only [scM0, owns_whole]
  iintro ⟨HS, ⟨H0, H1, H2, H3, H4, H5, H6, H7, H8⟩, Hp⟩
  isplitr [Hp]
  swap; · iexact Hp
  isplitl [HS]; · iexact HS
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

end Cert.Kernel.Gcn

end
-- ==== Proof.Bits.Layer0.lean ====
import proofs.«139597_g28621662060800_retrytranche2_548_2_alg».proof.Proof.Bits.Body0
import proofs.«139597_g28621662060800_retrytranche2_548_2_alg».proof.Proof.Bits.Scoped0

set_option maxRecDepth 16384

noncomputable section

namespace Cert.Kernel.Gcn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! Layer 1 of the network as a pipeline region: what the output block and the scratch hold after every grid point,
the region's invariant (the scratch carries the batch element's support matrix from its first row tile on), the proof
data and the body obligation, all over the contents `V` the region finds in the arrays it reads. -/

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (an unfetched
    window's block index has not moved): adjacency, features, weights, bias. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The staging memrefs the pipeline passes at a point -/

abbrev ms0_0 (t : Fin cfg0.N) : Memref sig .tc .vmem S1x400x10000 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S10000x64/-feature block-/ .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x400x64 .f32 := win0_4.stage (cfg0.slots t 4)
abbrev hs0_4 (t : Fin cfg0.N) : (ms0_4 t).IsWhole := hstage0_4 ((cfg0.slots t 4).cast nbuf0_4)

/-- One staging buffer of the output window and the scratch, as views through which contents are stated. -/
abbrev VO0 : View sig .tc .vmem S1x400x64 .f32 := (Memref.whole cc0_stg4_0 : Memref sig .tc .vmem S1x400x64 .f32).view
abbrev VS0 : View sig .tc .vmem S10000x64 .f32 := scM0.view

/-! ## What a point leaves, by its case -/

/-- A first row tile (`t` divisible by 25): the output block and the scratch after the body, read back from the
    pieces the run found. -/
def firstAt0 (c : Dev nD) (t : Fin cfg0.N) (h : t.val % 25 = 0) : Vec F S1x400x64 .f32 × Vec F S10000x64 .f32 :=
  (VO0.read (Elt F) (VO0.writes (Elt F) VO0.junk (runFirst0 c (grid0.coords t) (ms0_0 t) (hs0_0 t) (ms0_1 t) (hs0_1 t) (ms0_2 t) (hs0_2 t) (ms0_3 t) (hs0_3 t) (ms0_4 t) (hs0_4 t) scM0 (Memref.isWhole_whole _) ((firstTile0_iff t).mpr h) (iblk0 V c 0 t) (iblk0 V c 1 t) (iblk0 V c 2 t) (iblk0 V c 3 t)).1),
   VS0.read (Elt F) (VS0.writes (Elt F) VS0.junk (runFirst0 c (grid0.coords t) (ms0_0 t) (hs0_0 t) (ms0_1 t) (hs0_1 t) (ms0_2 t) (hs0_2 t) (ms0_3 t) (hs0_3 t) (ms0_4 t) (hs0_4 t) scM0 (Memref.isWhole_whole _) ((firstTile0_iff t).mpr h) (iblk0 V c 0 t) (iblk0 V c 1 t) (iblk0 V c 2 t) (iblk0 V c 3 t)).2.1))

/-- A later row tile: the output block after the body over the support `xs` the scratch carries. -/
def laterAt0 (c : Dev nD) (t : Fin cfg0.N) (h : ¬t.val % 25 = 0) (xs : Vec F S10000x64 .f32) : Vec F S1x400x64 .f32 :=
  VO0.read (Elt F) (VO0.writes (Elt F) VO0.junk (runLater0 c (grid0.coords t) (ms0_0 t) (hs0_0 t) (ms0_1 t) (hs0_1 t) (ms0_2 t) (hs0_2 t) (ms0_3 t) (hs0_3 t) (ms0_4 t) (hs0_4 t) scM0 (Memref.isWhole_whole _) (fun hh => h ((firstTile0_iff t).mp hh)) (iblk0 V c 0 t) (iblk0 V c 3 t) xs).1)

/-- The found pieces tile what they were stored into, so they cover it. -/
theorem coverFirst0 (c : Dev nD) (t : Fin cfg0.N) (h : t.val % 25 = 0) (y : S1x400x64.Idx) :
    ∃ pc ∈ (runFirst0 c (grid0.coords t) (ms0_0 t) (hs0_0 t) (ms0_1 t) (hs0_1 t) (ms0_2 t) (hs0_2 t) (ms0_3 t) (hs0_3 t) (ms0_4 t) (hs0_4 t) scM0 (Memref.isWhole_whole _) ((firstTile0_iff t).mpr h) (iblk0 V c 0 t) (iblk0 V c 1 t) (iblk0 V c 2 t) (iblk0 V c 3 t)).1, y ∈ pc.1.set :=
  View.cover_of_tiledL _ S1x400x64.size (by sl_kernel_rfl) y
theorem scoverFirst0 (c : Dev nD) (t : Fin cfg0.N) (h : t.val % 25 = 0) (y : S10000x64.Idx) :
    ∃ pc ∈ (runFirst0 c (grid0.coords t) (ms0_0 t) (hs0_0 t) (ms0_1 t) (hs0_1 t) (ms0_2 t) (hs0_2 t) (ms0_3 t) (hs0_3 t) (ms0_4 t) (hs0_4 t) scM0 (Memref.isWhole_whole _) ((firstTile0_iff t).mpr h) (iblk0 V c 0 t) (iblk0 V c 1 t) (iblk0 V c 2 t) (iblk0 V c 3 t)).2.1, y ∈ pc.1.set :=
  View.cover_of_tiledL _ S10000x64.size (by sl_kernel_rfl) y
theorem coverLater0 (c : Dev nD) (t : Fin cfg0.N) (h : ¬t.val % 25 = 0) (xs : Vec F S10000x64 .f32) (y : S1x400x64.Idx) :
    ∃ pc ∈ (runLater0 c (grid0.coords t) (ms0_0 t) (hs0_0 t) (ms0_1 t) (hs0_1 t) (ms0_2 t) (hs0_2 t) (ms0_3 t) (hs0_3 t) (ms0_4 t) (hs0_4 t) scM0 (Memref.isWhole_whole _) (fun hh => h ((firstTile0_iff t).mp hh)) (iblk0 V c 0 t) (iblk0 V c 3 t) xs).1, y ∈ pc.1.set :=
  View.cover_of_tiledL _ S1x400x64.size (by sl_kernel_rfl) y

/-! ## What the output block and the scratch hold after each point -/

/-- After point `n`: a first row tile's own results; a later row tile's output over the scratch the point before
    left, the scratch unchanged. -/
def outsAt0 (c : Dev nD) : (n : ℕ) → n < cfg0.N → Vec F S1x400x64 .f32 × Vec F S10000x64 .f32
  | 0, hn => firstAt0 V c ⟨0, hn⟩ (Nat.zero_mod _)
  | n + 1, hn =>
    if h : (n + 1) % 25 = 0 then firstAt0 V c ⟨n + 1, hn⟩ h
    else (laterAt0 V c ⟨n + 1, hn⟩ h (outsAt0 c n (Nat.lt_of_succ_lt hn)).2, (outsAt0 c n (Nat.lt_of_succ_lt hn)).2)

theorem outsAt0_first (c : Dev nD) (t : Fin cfg0.N) (h : t.val % 25 = 0) : outsAt0 V c t.val t.isLt = firstAt0 V c t h := by
  obtain ⟨n, hn⟩ := t
  cases n with
  | zero => rfl
  | succ n => exact dif_pos h

theorem outsAt0_later (c : Dev nD) (t : Fin cfg0.N) (h : ¬t.val % 25 = 0) :
    outsAt0 V c t.val t.isLt = (laterAt0 V c t h (outsAt0 V c (t.val - 1) (Nat.lt_of_le_of_lt (Nat.sub_le _ _) t.isLt)).2,
      (outsAt0 V c (t.val - 1) (Nat.lt_of_le_of_lt (Nat.sub_le _ _) t.isLt)).2) := by
  obtain ⟨n, hn⟩ := t
  cases n with
  | zero => exact absurd (Nat.zero_mod _) h
  | succ n => exact dif_neg h

/-! ## The region's invariant -/

/-- Before point `n`: at the start the scoped buffers at anything; from then on the scratch at what the point before
    left in it, beside the other scoped buffers and the generator register. -/
def PhiS0 (c : Dev nD) : (n : ℕ) → n ≤ cfg0.N → sProp 𝕄
  | 0, _ => Pipeline.ΦA spec0 c
  | n + 1, hn => iprop(owns (c : Thread nD τ) scM0 fullShare ((outsAt0 V c n hn).2) ∗ others0 c ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(owns (c : Thread nD τ) scM0 fullShare ((outsAt0 V c n hn).2) ∗ others0 c ∗ (∃ r, prngReg c r)) := rfl

theorem PhiS0_pos (c : Dev nD) (n : ℕ) (h : n ≤ cfg0.N) (hz : n ≠ 0) :
    PhiS0 V c n h = iprop(owns (c : Thread nD τ) scM0 fullShare ((outsAt0 V c (n - 1) (by omega)).2) ∗ others0 c ∗ (∃ r, prngReg c r)) := by
  cases n with
  | zero => exact absurd rfl hz
  | succ n => rfl

/-! ## The proof data -/

/-- The arrays as the region finds them; after the body each input's buffer at its block and the output's at
    `outsAt0`; the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation -/

/-- What the body is called with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

set_option maxHeartbeats 4000000 in
/-- The body at any point. The input buffers hold their blocks. At a first row tile the scratch comes at anything (out
    of the starting invariant at the very first point, else out of the carried one, its contents forgotten) and goes
    back at the recomputed support; at a later row tile it comes at the carried support and goes back unchanged. The
    output buffer comes at anything and goes back at the case's result. Nothing is owed throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  rw [after0_0, after0_1, after0_2, after0_3, after0_4]
  by_cases h : t.val % 25 = 0
  · rw [outsAt0_first V c t h]
    unfold firstAt0; dsimp only
    have hopen : (dat0 V c).Φ t.castSucc ⊢ (iprop((∃ d, owns (c : Thread nD τ) scM0 fullShare d) ∗ others0 c ∗ (∃ r, prngReg c r)) : sProp 𝕄) := by
      by_cases hz : t.val = 0
      · rw [PhiS0_castSucc V c t, PhiS0_zero V c _ _ hz]; exact PhiA0_open c
      · rw [PhiS0_castSucc V c t, PhiS0_pos V c _ _ hz]
        iintro ⟨HS, Hoth, Hg⟩
        isplitl [HS]; · iexists _; iexact HS
        isplitl [Hoth]; · iexact Hoth
        iexact Hg
    iintro ⟨HΦ, Ho, ⟨%d0, H0⟩, ⟨%d1, H1⟩, ⟨%d2, H2⟩, ⟨%d3, H3⟩, ⟨%d4, H4⟩⟩
    ihave HΦ' := hopen $$ HΦ
    icases HΦ' with ⟨HS, Hoth, Hg⟩
    iapply ((runFirst0 c (grid0.coords t) (ms0_0 t) (hs0_0 t) (ms0_1 t) (hs0_1 t) (ms0_2 t) (hs0_2 t) (ms0_3 t) (hs0_3 t) (ms0_4 t) (hs0_4 t) scM0 (Memref.isWhole_whole _) ((firstTile0_iff t).mpr h) (iblk0 V c 0 t) (iblk0 V c 1 t) (iblk0 V c 2 t) (iblk0 V c 3 t)).2.2 Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, ⟨%e4, H4⟩, ⟨%es, HS⟩⟩
    isplitl [HS Hoth Hg]
    · isplitl [HS]
      · unfold owns; iexists _; isplitr
        swap; · iexact HS
        ipureintro; exact View.read_writes_of_cover _ _ _ _ _ (scoverFirst0 V c t h)
      isplitl [Hoth]; · iexact Hoth
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverFirst0 V c t h)
  · rw [outsAt0_later V c t h]
    unfold laterAt0; dsimp only
    have hz : t.val ≠ 0 := fun hz => h (by rw [hz])
    rw [PhiS0_castSucc V c t, PhiS0_pos V c _ _ hz]
    iintro ⟨⟨HS, Hoth, Hg⟩, Ho, ⟨%d0, H0⟩, ⟨%d1, H1⟩, ⟨%d2, H2⟩, ⟨%d3, H3⟩, ⟨%d4, H4⟩⟩
    iapply ((runLater0 c (grid0.coords t) (ms0_0 t) (hs0_0 t) (ms0_1 t) (hs0_1 t) (ms0_2 t) (hs0_2 t) (ms0_3 t) (hs0_3 t) (ms0_4 t) (hs0_4 t) scM0 (Memref.isWhole_whole _) (fun hh => h ((firstTile0_iff t).mp hh)) (iblk0 V c 0 t) (iblk0 V c 3 t) _).2 (iblk0 V c 1 t) (iblk0 V c 2 t) Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, ⟨%e4, H4⟩, HS⟩
    isplitl [HS Hoth Hg]
    · isplitl [HS]; · iexact HS
      isplitl [Hoth]; · iexact Hoth
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverLater0 V c t h _)

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- The region starts from the class's invariant, -/
theorem hin0 (c : Dev nD) : Pipeline.ΦA spec0 c ⊢ (dat0 V c).Φ 0 := by
  rw [show (dat0 V c).Φ 0 = PhiS0 V c 0 (Nat.zero_le _) from rfl, PhiS0_zero V c 0 _ rfl]

/-- and gives it back after the last point: the scratch's contents are forgotten. -/
theorem hout0 (c : Dev nD) : (dat0 V c).Φ (Fin.last cfg0.N) ⊢ Pipeline.ΦA spec0 c := by
  have hN : (Fin.last cfg0.N).val ≠ 0 := by rw [Fin.val_last]; have : cfg0.N = 50 := N_0; omega
  rw [show (dat0 V c).Φ (Fin.last cfg0.N) = PhiS0 V c (Fin.last cfg0.N).val (Nat.le_of_lt_succ (Fin.last cfg0.N).isLt) from rfl, PhiS0_pos V c _ _ hN]
  refine .trans ?_ (PhiA0_close c)
  iintro ⟨HS, Hoth, Hg⟩
  isplitl [HS]; · iexists _; iexact HS
  isplitl [Hoth]; · iexact Hoth
  iexact Hg

end

end Cert.Kernel.Gcn

end
-- ==== Proof.Bits.Body1.lean ====
import proofs.«139597_g28621662060800_retrytranche2_548_2_alg».proof.Proof.Gen.Kernel.Launch
import proofs.«139597_g28621662060800_retrytranche2_548_2_alg».proof.Proof.Gen.Kernel.Skeleton
import proofs.«139597_g28621662060800_retrytranche2_548_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gcn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! Layer 2 of the network, one grid point of its kernel: the body run on whole staging buffers.

The grid is (batch element, row tile). At the first row tile of a batch element the body recomputes the
support matrix (features times weights) into the scratch buffer; at every row tile it multiplies the
adjacency row block by the support read back from scratch and adds the bias (the first layer then applies the leaky rectifier). -/

/-- The body's one branch: the row-tile coordinate is zero. -/
abbrev firstTile1 (i : grid1.Coords) : Prop :=
  (Scalar.cmpi .ne (Scalar.extui (Scalar.cmpi .eq (BitVec.ofNat 32 (i 1).val) 0#32)) 0#32) = 1#1

/-- Row tiles are the fast axis of 25: the branch is taken exactly at the points divisible by 25. -/
theorem firstTile1_iff : ∀ t : Fin cfg1.N, firstTile1 (grid1.coords t) ↔ t.val % 25 = 0 :=
  (by decide +kernel : ∀ t : Fin grid1.N, firstTile1 (grid1.coords t) ↔ t.val % 25 = 0)

set_option maxHeartbeats 1000000 in
/-- First row tile of a batch element: from the adjacency block `x0`, the features `x1`, the weights `x2`, the bias
    `x3`, the output block and the scratch at anything, the body ends with the inputs as they were, and the output
    block and the scratch each holding the pieces its stores wrote (found by running the body). -/
noncomputable def runFirst1 (c : Dev nD) (i : grid1.Coords) (arg2 : Memref sig .tc .vmem S1x400x10000 .f32) (harg2 : arg2.IsWhole) (arg3 : Memref sig .tc .vmem S1x10000x64/-feature block-/ .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S1x400x64 .f32) (harg6 : arg6.IsWhole) (arg7 : Memref sig .tc .vmem S10000x64 .f32) (harg7 : arg7.IsWhole) (hc : firstTile1 i)
    (x0 : Vec F S1x400x10000 .f32) (x1 : Vec F S1x10000x64/-feature block-/ .f32) (x2 : Vec F S64x64 .f32) (x3 : Vec F S1x64 .f32) :
    Σ' (L4 : List (View.Piece (Elt F) S1x400x64 .f32)), { LS : List (View.Piece (Elt F) S10000x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS)) -∗ K ⟨⟩))
          ⊢ wp frame (wpE (defs₀ (F := F)) Variants.none c none) E (cc1__gcn_layer_kernel i arg2 harg2 arg3 harg3 arg4 harg4 arg5 harg5 arg6 harg6 arg7 harg7) K } := by
  refine ⟨?_, ?_, fun E K => ?run⟩
  case run =>
    simp only [cc1__gcn_layer_kernel_eq_skeleton]; unfold cc1__gcn_layer_kernel_skel
    unfold owns
    iintro ⟨⟨%f0, %hf0, H0⟩, ⟨%f1, %hf1, H1⟩, ⟨%f2, %hf2, H2⟩, ⟨%f3, %hf3, H3⟩, ⟨%d4, %f4, -, H4⟩, ⟨%ds, %fs, -, HS⟩, Hk⟩
    obtain rfl := harg2.eq_unread hf0; obtain rfl := harg3.eq_unread hf1; obtain rfl := harg4.eq_unread hf2; obtain rfl := harg5.eq_unread hf3
    sl_exec (disch := exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS

set_option maxHeartbeats 1000000 in
/-- A later row tile: the scratch holds the support `xs` the batch element's first tile left; the body leaves the
    inputs and the scratch as they were and the output block holding the pieces its store wrote. -/
noncomputable def runLater1 (c : Dev nD) (i : grid1.Coords) (arg2 : Memref sig .tc .vmem S1x400x10000 .f32) (harg2 : arg2.IsWhole) (arg3 : Memref sig .tc .vmem S1x10000x64/-feature block-/ .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S1x400x64 .f32) (harg6 : arg6.IsWhole) (arg7 : Memref sig .tc .vmem S10000x64 .f32) (harg7 : arg7.IsWhole) (hc : ¬firstTile1 i)
    (x0 : Vec F S1x400x10000 .f32) (x3 : Vec F S1x64 .f32) (xs : Vec F S10000x64 .f32) :
    { L4 : List (View.Piece (Elt F) S1x400x64 .f32) //
      ∀ (x1 : Vec F S1x10000x64/-feature block-/ .f32) (x2 : Vec F S64x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ owns (c : Thread nD τ) arg7 fullShare xs) -∗ K ⟨⟩))
          ⊢ wp frame (wpE (defs₀ (F := F)) Variants.none c none) E (cc1__gcn_layer_kernel i arg2 harg2 arg3 harg3 arg4 harg4 arg5 harg5 arg6 harg6 arg7 harg7) K } := by
  refine ⟨?_, fun x1 x2 E K => ?run⟩
  case run =>
    simp only [cc1__gcn_layer_kernel_eq_skeleton]; unfold cc1__gcn_layer_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg2.eq_unread hf0; obtain rfl := harg3.eq_unread hf1; obtain rfl := harg4.eq_unread hf2; obtain rfl := harg5.eq_unread hf3; obtain rfl := harg7.eq_unread hfs
    sl_exec (disch := exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; isplitr; · ipureintro; exact harg7.read_unread _
    iexact HS

end Cert.Kernel.Gcn

end
-- ==== Proof.Bits.Scoped1.lean ====
import proofs.«139597_g28621662060800_retrytranche2_548_2_alg».proof.Proof.Gen.Kernel.Launch
import Idealize.ShloMosaic.Lib.Pipeline.Frame
import Idealize.ShloMosaic.Lib.Tactic

set_option maxRecDepth 16384

noncomputable section

namespace Cert.Kernel.Gcn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! Layer 2's kernel keeps the support matrix in a scratch buffer of its own across grid points. The region's
invariant starts as "every scoped buffer that is no staging buffer of this call, at some contents, and the generator
register at some state"; this module separates the scratch buffer from the rest of that list and puts it back. -/

/-- The kernel's scratch operand: a whole scoped buffer. -/
abbrev scM1 : Memref sig .tc .vmem S10000x64 .f32 := Memref.whole cc1_scratch0

/-- The scoped buffers the region's invariant holds besides that scratch (the other call's staging and scratch
    buffers), each at some contents: this body never touches them. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f))

/-- The region's starting invariant hands out the scratch at some contents, the other buffers and the generator register. -/
theorem PhiA1_open (c : Dev nD) :
    (Pipeline.ΦA spec1 c : sProp 𝕄) ⊢ iprop((∃ d, owns (c : Thread nD τ) scM1 fullShare d) ∗ others1 c ∗ (∃ r, prngReg c r)) := by
  unfold Pipeline.ΦA others1; rw [scopedRest1_eq]; simp only [scM1, owns_whole]
  iintro ⟨⟨H0, H1, H2, H3, H4, H5, H6, H7, HS⟩, Hp⟩
  isplitl [HS]; · iexact HS
  isplitr [Hp]
  swap; · iexact Hp
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- And takes them back, the scratch at any contents. -/
theorem PhiA1_close (c : Dev nD) :
    iprop((∃ d, owns (c : Thread nD τ) scM1 fullShare d) ∗ others1 c ∗ (∃ r, prngReg c r)) ⊢ (Pipeline.ΦA spec1 c : sProp 𝕄) := by
  unfold Pipeline.ΦA others1; rw [scopedRest1_eq]; simp only [scM1, owns_whole]
  iintro ⟨HS, ⟨H0, H1, H2, H3, H4, H5, H6, H7⟩, Hp⟩
  isplitr [Hp]
  swap; · iexact Hp
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact HS

end Cert.Kernel.Gcn

end
-- ==== Proof.Bits.Layer1.lean ====
import proofs.«139597_g28621662060800_retrytranche2_548_2_alg».proof.Proof.Bits.Body1
import proofs.«139597_g28621662060800_retrytranche2_548_2_alg».proof.Proof.Bits.Scoped1

set_option maxRecDepth 16384

noncomputable section

namespace Cert.Kernel.Gcn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! Layer 2 of the network as a pipeline region: what the output block and the scratch hold after every grid point,
the region's invariant (the scratch carries the batch element's support matrix from its first row tile on), the proof
data and the body obligation, all over the contents `V` the region finds in the arrays it reads. -/

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (an unfetched
    window's block index has not moved): adjacency, features, weights, bias. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The staging memrefs the pipeline passes at a point -/

abbrev ms1_0 (t : Fin cfg1.N) : Memref sig .tc .vmem S1x400x10000 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x10000x64/-feature block-/ .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S64x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x400x64 .f32 := win1_4.stage (cfg1.slots t 4)
abbrev hs1_4 (t : Fin cfg1.N) : (ms1_4 t).IsWhole := hstage1_4 ((cfg1.slots t 4).cast nbuf1_4)

/-- One staging buffer of the output window and the scratch, as views through which contents are stated. -/
abbrev VO1 : View sig .tc .vmem S1x400x64 .f32 := (Memref.whole cc1_stg4_0 : Memref sig .tc .vmem S1x400x64 .f32).view
abbrev VS1 : View sig .tc .vmem S10000x64 .f32 := scM1.view

/-! ## What a point leaves, by its case -/

/-- A first row tile (`t` divisible by 25): the output block and the scratch after the body, read back from the
    pieces the run found. -/
def firstAt1 (c : Dev nD) (t : Fin cfg1.N) (h : t.val % 25 = 0) : Vec F S1x400x64 .f32 × Vec F S10000x64 .f32 :=
  (VO1.read (Elt F) (VO1.writes (Elt F) VO1.junk (runFirst1 c (grid1.coords t) (ms1_0 t) (hs1_0 t) (ms1_1 t) (hs1_1 t) (ms1_2 t) (hs1_2 t) (ms1_3 t) (hs1_3 t) (ms1_4 t) (hs1_4 t) scM1 (Memref.isWhole_whole _) ((firstTile1_iff t).mpr h) (iblk1 V c 0 t) (iblk1 V c 1 t) (iblk1 V c 2 t) (iblk1 V c 3 t)).1),
   VS1.read (Elt F) (VS1.writes (Elt F) VS1.junk (runFirst1 c (grid1.coords t) (ms1_0 t) (hs1_0 t) (ms1_1 t) (hs1_1 t) (ms1_2 t) (hs1_2 t) (ms1_3 t) (hs1_3 t) (ms1_4 t) (hs1_4 t) scM1 (Memref.isWhole_whole _) ((firstTile1_iff t).mpr h) (iblk1 V c 0 t) (iblk1 V c 1 t) (iblk1 V c 2 t) (iblk1 V c 3 t)).2.1))

/-- A later row tile: the output block after the body over the support `xs` the scratch carries. -/
def laterAt1 (c : Dev nD) (t : Fin cfg1.N) (h : ¬t.val % 25 = 0) (xs : Vec F S10000x64 .f32) : Vec F S1x400x64 .f32 :=
  VO1.read (Elt F) (VO1.writes (Elt F) VO1.junk (runLater1 c (grid1.coords t) (ms1_0 t) (hs1_0 t) (ms1_1 t) (hs1_1 t) (ms1_2 t) (hs1_2 t) (ms1_3 t) (hs1_3 t) (ms1_4 t) (hs1_4 t) scM1 (Memref.isWhole_whole _) (fun hh => h ((firstTile1_iff t).mp hh)) (iblk1 V c 0 t) (iblk1 V c 3 t) xs).1)

/-- The found pieces tile what they were stored into, so they cover it. -/
theorem coverFirst1 (c : Dev nD) (t : Fin cfg1.N) (h : t.val % 25 = 0) (y : S1x400x64.Idx) :
    ∃ pc ∈ (runFirst1 c (grid1.coords t) (ms1_0 t) (hs1_0 t) (ms1_1 t) (hs1_1 t) (ms1_2 t) (hs1_2 t) (ms1_3 t) (hs1_3 t) (ms1_4 t) (hs1_4 t) scM1 (Memref.isWhole_whole _) ((firstTile1_iff t).mpr h) (iblk1 V c 0 t) (iblk1 V c 1 t) (iblk1 V c 2 t) (iblk1 V c 3 t)).1, y ∈ pc.1.set :=
  View.cover_of_tiledL _ S1x400x64.size (by sl_kernel_rfl) y
theorem scoverFirst1 (c : Dev nD) (t : Fin cfg1.N) (h : t.val % 25 = 0) (y : S10000x64.Idx) :
    ∃ pc ∈ (runFirst1 c (grid1.coords t) (ms1_0 t) (hs1_0 t) (ms1_1 t) (hs1_1 t) (ms1_2 t) (hs1_2 t) (ms1_3 t) (hs1_3 t) (ms1_4 t) (hs1_4 t) scM1 (Memref.isWhole_whole _) ((firstTile1_iff t).mpr h) (iblk1 V c 0 t) (iblk1 V c 1 t) (iblk1 V c 2 t) (iblk1 V c 3 t)).2.1, y ∈ pc.1.set :=
  View.cover_of_tiledL _ S10000x64.size (by sl_kernel_rfl) y
theorem coverLater1 (c : Dev nD) (t : Fin cfg1.N) (h : ¬t.val % 25 = 0) (xs : Vec F S10000x64 .f32) (y : S1x400x64.Idx) :
    ∃ pc ∈ (runLater1 c (grid1.coords t) (ms1_0 t) (hs1_0 t) (ms1_1 t) (hs1_1 t) (ms1_2 t) (hs1_2 t) (ms1_3 t) (hs1_3 t) (ms1_4 t) (hs1_4 t) scM1 (Memref.isWhole_whole _) (fun hh => h ((firstTile1_iff t).mp hh)) (iblk1 V c 0 t) (iblk1 V c 3 t) xs).1, y ∈ pc.1.set :=
  View.cover_of_tiledL _ S1x400x64.size (by sl_kernel_rfl) y

/-! ## What the output block and the scratch hold after each point -/

/-- After point `n`: a first row tile's own results; a later row tile's output over the scratch the point before
    left, the scratch unchanged. -/
def outsAt1 (c : Dev nD) : (n : ℕ) → n < cfg1.N → Vec F S1x400x64 .f32 × Vec F S10000x64 .f32
  | 0, hn => firstAt1 V c ⟨0, hn⟩ (Nat.zero_mod _)
  | n + 1, hn =>
    if h : (n + 1) % 25 = 0 then firstAt1 V c ⟨n + 1, hn⟩ h
    else (laterAt1 V c ⟨n + 1, hn⟩ h (outsAt1 c n (Nat.lt_of_succ_lt hn)).2, (outsAt1 c n (Nat.lt_of_succ_lt hn)).2)

theorem outsAt1_first (c : Dev nD) (t : Fin cfg1.N) (h : t.val % 25 = 0) : outsAt1 V c t.val t.isLt = firstAt1 V c t h := by
  obtain ⟨n, hn⟩ := t
  cases n with
  | zero => rfl
  | succ n => exact dif_pos h

theorem outsAt1_later (c : Dev nD) (t : Fin cfg1.N) (h : ¬t.val % 25 = 0) :
    outsAt1 V c t.val t.isLt = (laterAt1 V c t h (outsAt1 V c (t.val - 1) (Nat.lt_of_le_of_lt (Nat.sub_le _ _) t.isLt)).2,
      (outsAt1 V c (t.val - 1) (Nat.lt_of_le_of_lt (Nat.sub_le _ _) t.isLt)).2) := by
  obtain ⟨n, hn⟩ := t
  cases n with
  | zero => exact absurd (Nat.zero_mod _) h
  | succ n => exact dif_neg h

/-! ## The region's invariant -/

/-- Before point `n`: at the start the scoped buffers at anything; from then on the scratch at what the point before
    left in it, beside the other scoped buffers and the generator register. -/
def PhiS1 (c : Dev nD) : (n : ℕ) → n ≤ cfg1.N → sProp 𝕄
  | 0, _ => Pipeline.ΦA spec1 c
  | n + 1, hn => iprop(owns (c : Thread nD τ) scM1 fullShare ((outsAt1 V c n hn).2) ∗ others1 c ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(owns (c : Thread nD τ) scM1 fullShare ((outsAt1 V c n hn).2) ∗ others1 c ∗ (∃ r, prngReg c r)) := rfl

theorem PhiS1_pos (c : Dev nD) (n : ℕ) (h : n ≤ cfg1.N) (hz : n ≠ 0) :
    PhiS1 V c n h = iprop(owns (c : Thread nD τ) scM1 fullShare ((outsAt1 V c (n - 1) (by omega)).2) ∗ others1 c ∗ (∃ r, prngReg c r)) := by
  cases n with
  | zero => exact absurd rfl hz
  | succ n => rfl

/-! ## The proof data -/

/-- The arrays as the region finds them; after the body each input's buffer at its block and the output's at
    `outsAt1`; the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

/-- What the body is called with at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

set_option maxHeartbeats 4000000 in
/-- The body at any point. The input buffers hold their blocks. At a first row tile the scratch comes at anything (out
    of the starting invariant at the very first point, else out of the carried one, its contents forgotten) and goes
    back at the recomputed support; at a later row tile it comes at the carried support and goes back unchanged. The
    output buffer comes at anything and goes back at the case's result. Nothing is owed throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [after1_0, after1_1, after1_2, after1_3, after1_4]
  by_cases h : t.val % 25 = 0
  · rw [outsAt1_first V c t h]
    unfold firstAt1; dsimp only
    have hopen : (dat1 V c).Φ t.castSucc ⊢ (iprop((∃ d, owns (c : Thread nD τ) scM1 fullShare d) ∗ others1 c ∗ (∃ r, prngReg c r)) : sProp 𝕄) := by
      by_cases hz : t.val = 0
      · rw [PhiS1_castSucc V c t, PhiS1_zero V c _ _ hz]; exact PhiA1_open c
      · rw [PhiS1_castSucc V c t, PhiS1_pos V c _ _ hz]
        iintro ⟨HS, Hoth, Hg⟩
        isplitl [HS]; · iexists _; iexact HS
        isplitl [Hoth]; · iexact Hoth
        iexact Hg
    iintro ⟨HΦ, Ho, ⟨%d0, H0⟩, ⟨%d1, H1⟩, ⟨%d2, H2⟩, ⟨%d3, H3⟩, ⟨%d4, H4⟩⟩
    ihave HΦ' := hopen $$ HΦ
    icases HΦ' with ⟨HS, Hoth, Hg⟩
    iapply ((runFirst1 c (grid1.coords t) (ms1_0 t) (hs1_0 t) (ms1_1 t) (hs1_1 t) (ms1_2 t) (hs1_2 t) (ms1_3 t) (hs1_3 t) (ms1_4 t) (hs1_4 t) scM1 (Memref.isWhole_whole _) ((firstTile1_iff t).mpr h) (iblk1 V c 0 t) (iblk1 V c 1 t) (iblk1 V c 2 t) (iblk1 V c 3 t)).2.2 Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, ⟨%e4, H4⟩, ⟨%es, HS⟩⟩
    isplitl [HS Hoth Hg]
    · isplitl [HS]
      · unfold owns; iexists _; isplitr
        swap; · iexact HS
        ipureintro; exact View.read_writes_of_cover _ _ _ _ _ (scoverFirst1 V c t h)
      isplitl [Hoth]; · iexact Hoth
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverFirst1 V c t h)
  · rw [outsAt1_later V c t h]
    unfold laterAt1; dsimp only
    have hz : t.val ≠ 0 := fun hz => h (by rw [hz])
    rw [PhiS1_castSucc V c t, PhiS1_pos V c _ _ hz]
    iintro ⟨⟨HS, Hoth, Hg⟩, Ho, ⟨%d0, H0⟩, ⟨%d1, H1⟩, ⟨%d2, H2⟩, ⟨%d3, H3⟩, ⟨%d4, H4⟩⟩
    iapply ((runLater1 c (grid1.coords t) (ms1_0 t) (hs1_0 t) (ms1_1 t) (hs1_1 t) (ms1_2 t) (hs1_2 t) (ms1_3 t) (hs1_3 t) (ms1_4 t) (hs1_4 t) scM1 (Memref.isWhole_whole _) (fun hh => h ((firstTile1_iff t).mp hh)) (iblk1 V c 0 t) (iblk1 V c 3 t) _).2 (iblk1 V c 1 t) (iblk1 V c 2 t) Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, ⟨%e4, H4⟩, HS⟩
    isplitl [HS Hoth Hg]
    · isplitl [HS]; · iexact HS
      isplitl [Hoth]; · iexact Hoth
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverLater1 V c t h _)

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- The region starts from the class's invariant, -/
theorem hin1 (c : Dev nD) : Pipeline.ΦA spec1 c ⊢ (dat1 V c).Φ 0 := by
  rw [show (dat1 V c).Φ 0 = PhiS1 V c 0 (Nat.zero_le _) from rfl, PhiS1_zero V c 0 _ rfl]

/-- and gives it back after the last point: the scratch's contents are forgotten. -/
theorem hout1 (c : Dev nD) : (dat1 V c).Φ (Fin.last cfg1.N) ⊢ Pipeline.ΦA spec1 c := by
  have hN : (Fin.last cfg1.N).val ≠ 0 := by rw [Fin.val_last]; have : cfg1.N = 50 := N_1; omega
  rw [show (dat1 V c).Φ (Fin.last cfg1.N) = PhiS1 V c (Fin.last cfg1.N).val (Nat.le_of_lt_succ (Fin.last cfg1.N).isLt) from rfl, PhiS1_pos V c _ _ hN]
  refine .trans ?_ (PhiA1_close c)
  iintro ⟨HS, Hoth, Hg⟩
  isplitl [HS]; · iexists _; iexact HS
  isplitl [Hoth]; · iexact Hoth
  iexact Hg

end

end Cert.Kernel.Gcn

end
-- ==== Proof.Bits.Run.lean ====
import proofs.«139597_g28621662060800_retrytranche2_548_2_alg».proof.Proof.Bits.Layer0
import proofs.«139597_g28621662060800_retrytranche2_548_2_alg».proof.Proof.Bits.Layer1

set_option maxRecDepth 16384

noncomputable section

namespace Cert.Kernel.Gcn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! The whole program: the two bias reshapes on the host, then layer 1's region, then layer 2's. The contents of every
unscoped buffer at each boundary are a fold from the launch memory: the host operations' results, then each region's
arrays at what its write-backs leave. The run ends with every unscoped buffer at the last boundary's contents; the
arguments there are the launch contents, and the result array is what layer 2's write-backs leave. -/

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m (c, b)
/-- After the two reshapes of the biases (layer 1's entry). -/
abbrev W1 : Dev nD → Valuation τ sig (Elt F) := fun c => StableHlo.after hostOps0 (W0 m c)
/-- The same read at the TensorCore's references. -/
abbrev V1 : (c : Dev nD) → (b : Ref sig .tc) → Buf (Elt F) ((c : Thread nD τ).loc b) := fun c b => W1 m c b

/-- No operation of the host stretch allocates a buffer. -/
theorem hostOps0_fresh : (hostOps0 : List (HloOp τ sig (Elt F))).Forall fun op => op.fresh = ∅ := by
  simp only [List.Forall]; repeat' constructor

/-- The host stretch writes only the two reshaped bias rows. -/
theorem W1_of_ne (c : Dev nD) (b : Ref sig .tc) (hb : b ≠ main_call0_v0 ∧ b ≠ main_call0_v1) :
    W1 m c (Proc.devRef .tc b) = W0 m c (Proc.devRef .tc b) :=
  StableHlo.after_of_forall_not_mem (b := Proc.devRef .tc b) _ _ (List.forall_iff_forall_mem.mp (by
    simp only [hostOps0, List.Forall, StableHlo.reshape_writes, Finset.mem_singleton]
    exact ⟨StableHlo.devRef_ne_of_ne hb.1, StableHlo.devRef_ne_of_ne hb.2⟩))

/-- At layer 1's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- At layer 2's exit, likewise. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-! ## The arguments end as launched -/

/-- `main_arg0` ends as launched: no host operation writes it and a region only reads it. -/
theorem W3_main_arg0 (c : Dev nD) : W3 m c (Proc.devRef .tc main_arg0) = m ((c : Thread nD τ).loc main_arg0) :=
  calc W3 m c (Proc.devRef .tc main_arg0)
    _ = W2 m c (Proc.devRef .tc main_arg0) := (W3_arr m c 0).trans (((dat1 (V2 m) c).arrAt_in 0 rfl _).trans (A_eq1 (V2 m) c 0))
    _ = W1 m c (Proc.devRef .tc main_arg0) := (W2_arr m c 0).trans (((dat0 (V1 m) c).arrAt_in 0 rfl _).trans (A_eq0 (V1 m) c 0))
    _ = W0 m c (Proc.devRef .tc main_arg0) := W1_of_ne m c main_arg0 (by decide)
    _ = m ((c : Thread nD τ).loc main_arg0) := rfl

/-- `main_arg1` ends as launched: no host operation writes it and a region only reads it. -/
theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = W1 m c (Proc.devRef .tc main_arg1) := (W2_arr m c 1).trans (((dat0 (V1 m) c).arrAt_in 1 rfl _).trans (A_eq0 (V1 m) c 1))
    _ = W0 m c (Proc.devRef .tc main_arg1) := W1_of_ne m c main_arg1 (by decide)
    _ = m ((c : Thread nD τ).loc main_arg1) := rfl

/-- `main_arg2` ends as launched: no host operation writes it and a region only reads it. -/
theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := (W2_arr m c 2).trans (((dat0 (V1 m) c).arrAt_in 2 rfl _).trans (A_eq0 (V1 m) c 2))
    _ = W0 m c (Proc.devRef .tc main_arg2) := W1_of_ne m c main_arg2 (by decide)
    _ = m ((c : Thread nD τ).loc main_arg2) := rfl

/-- `main_arg3` ends as launched: no host operation writes it and a region only reads it. -/
theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := W2_of_ne m c main_arg3 (by decide)
    _ = W0 m c (Proc.devRef .tc main_arg3) := W1_of_ne m c main_arg3 (by decide)
    _ = m ((c : Thread nD τ).loc main_arg3) := rfl

/-- `main_arg4` ends as launched: no host operation writes it and a region only reads it. -/
theorem W3_main_arg4 (c : Dev nD) : W3 m c (Proc.devRef .tc main_arg4) = m ((c : Thread nD τ).loc main_arg4) :=
  calc W3 m c (Proc.devRef .tc main_arg4)
    _ = W2 m c (Proc.devRef .tc main_arg4) := (W3_arr m c 2).trans (((dat1 (V2 m) c).arrAt_in 2 rfl _).trans (A_eq1 (V2 m) c 2))
    _ = W1 m c (Proc.devRef .tc main_arg4) := W2_of_ne m c main_arg4 (by decide)
    _ = W0 m c (Proc.devRef .tc main_arg4) := W1_of_ne m c main_arg4 (by decide)
    _ = m ((c : Thread nD τ).loc main_arg4) := rfl

/-- `main_arg5` ends as launched: no host operation writes it and a region only reads it. -/
theorem W3_main_arg5 (c : Dev nD) : W3 m c (Proc.devRef .tc main_arg5) = m ((c : Thread nD τ).loc main_arg5) :=
  calc W3 m c (Proc.devRef .tc main_arg5)
    _ = W2 m c (Proc.devRef .tc main_arg5) := W3_of_ne m c main_arg5 (by decide)
    _ = W1 m c (Proc.devRef .tc main_arg5) := W2_of_ne m c main_arg5 (by decide)
    _ = W0 m c (Proc.devRef .tc main_arg5) := W1_of_ne m c main_arg5 (by decide)
    _ = m ((c : Thread nD τ).loc main_arg5) := rfl

/-- The result array ends at what layer 2's write-backs leave. -/
theorem W3_main_v0 (c : Dev nD) : W3 m c (Proc.devRef .tc main_v0) = (dat1 (V2 m) c).arrAt 4 cfg1.N := W3_arr m c 4

/-! ## The proof data family and the thread state -/

/-- No pipeline has a prefetched table. -/
abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
/-- The host stretch as a segment over the unscoped references from the launch contents. -/
abbrev hseg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m) R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W3 m c) ∗ ∃ r, prngReg c r)

/-! ## The regions as segments -/

-- a library lemma stated over the pinned configuration unifies with the printed one only when unification may unfold
-- plain definitions in a metavariable's type
set_option backward.isDefEq.respectTransparency.types false in
/-- Layer 1's region over the thread state: entered with every unscoped buffer at `W1`, left with them at `W2`.
    Its arrays are split out of the unscoped buffers and put back at the exit contents; the generator register and the
    scoped rest go into the region's invariant and come back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (hout0 (V1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Layer 2's region over the thread state: entered with every unscoped buffer at `W2`, left with them at `W3`.
    Its arrays are split out of the unscoped buffers and put back at the exit contents; the generator register and the
    scoped rest go into the region's invariant and come back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (hout1 (V2 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg0 m), .region (reg0 m), .region (reg1 m) ]

theorem main_run (c : Dev nD) : main (F := F) c = Pipeline.Seg.run (segs m) := (main_chain c).trans (by chain_rfl)

set_option backward.isDefEq.respectTransparency.types false in
/-- From any memory with zero counters every weakly fair execution of the program terminates, nothing faulting, and in
    every final state each unscoped buffer holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c),
     (h c _ (mem_uc main_arg4 (by decide))).trans (W3_main_arg4 m c),
     (h c _ (mem_uc main_arg5 (by decide))).trans (W3_main_arg5 m c)⟩) (run_all m ρ)

end Cert.Kernel.Gcn

end
-- ==== Proof.Ideal.Body0.lean ====
import proofs.«139597_g28621662060800_retrytranche2_548_2_alg».proof.Proof.Gen.KernelIdeal.Launch
import proofs.«139597_g28621662060800_retrytranche2_548_2_alg».proof.Proof.Gen.KernelIdeal.Skeleton
import proofs.«139597_g28621662060800_retrytranche2_548_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gcn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! Layer 1 of the network, one grid point of its kernel: the body run on whole staging buffers.

The grid is (batch element, row tile). At the first row tile of a batch element the body recomputes the
support matrix (features times weights) into the scratch buffer; at every row tile it multiplies the
adjacency row block by the support read back from scratch and adds the bias (the first layer then applies the leaky rectifier). -/

/-- The body's one branch: the row-tile coordinate is zero. -/
abbrev firstTile0 (i : grid0.Coords) : Prop :=
  (Scalar.cmpi .ne (Scalar.extui (Scalar.cmpi .eq (BitVec.ofNat 32 (i 1).val) 0#32)) 0#32) = 1#1

/-- Row tiles are the fast axis of 25: the branch is taken exactly at the points divisible by 25. -/
theorem firstTile0_iff : ∀ t : Fin cfg0.N, firstTile0 (grid0.coords t) ↔ t.val % 25 = 0 :=
  (by decide +kernel : ∀ t : Fin grid0.N, firstTile0 (grid0.coords t) ↔ t.val % 25 = 0)

set_option maxHeartbeats 1000000 in
/-- First row tile of a batch element: from the adjacency block `x0`, the features `x1`, the weights `x2`, the bias
    `x3`, the output block and the scratch at anything, the body ends with the inputs as they were, and the output
    block and the scratch each holding the pieces its stores wrote (found by running the body). -/
noncomputable def runFirst0 (c : Dev nD) (i : grid0.Coords) (arg2 : Memref sig .tc .vmem S1x400x10000 .f32) (harg2 : arg2.IsWhole) (arg3 : Memref sig .tc .vmem S10000x64/-feature block-/ .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S1x400x64 .f32) (harg6 : arg6.IsWhole) (arg7 : Memref sig .tc .vmem S10000x64 .f32) (harg7 : arg7.IsWhole) (hc : firstTile0 i)
    (x0 : Vec F S1x400x10000 .f32) (x1 : Vec F S10000x64/-feature block-/ .f32) (x2 : Vec F S64x64 .f32) (x3 : Vec F S1x64 .f32) :
    Σ' (L4 : List (View.Piece (Elt F) S1x400x64 .f32)), { LS : List (View.Piece (Elt F) S10000x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS)) -∗ K ⟨⟩))
          ⊢ wp frame (wpE (defs₀ (F := F)) Variants.none c none) E (cc0__gcn_layer_kernel i arg2 harg2 arg3 harg3 arg4 harg4 arg5 harg5 arg6 harg6 arg7 harg7) K } := by
  refine ⟨?_, ?_, fun E K => ?run⟩
  case run =>
    simp only [cc0__gcn_layer_kernel_eq_skeleton]; unfold cc0__gcn_layer_kernel_skel
    unfold owns
    iintro ⟨⟨%f0, %hf0, H0⟩, ⟨%f1, %hf1, H1⟩, ⟨%f2, %hf2, H2⟩, ⟨%f3, %hf3, H3⟩, ⟨%d4, %f4, -, H4⟩, ⟨%ds, %fs, -, HS⟩, Hk⟩
    obtain rfl := harg2.eq_unread hf0; obtain rfl := harg3.eq_unread hf1; obtain rfl := harg4.eq_unread hf2; obtain rfl := harg5.eq_unread hf3
    sl_exec (disch := exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS

set_option maxHeartbeats 1000000 in
/-- A later row tile: the scratch holds the support `xs` the batch element's first tile left; the body leaves the
    inputs and the scratch as they were and the output block holding the pieces its store wrote. -/
noncomputable def runLater0 (c : Dev nD) (i : grid0.Coords) (arg2 : Memref sig .tc .vmem S1x400x10000 .f32) (harg2 : arg2.IsWhole) (arg3 : Memref sig .tc .vmem S10000x64/-feature block-/ .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S1x400x64 .f32) (harg6 : arg6.IsWhole) (arg7 : Memref sig .tc .vmem S10000x64 .f32) (harg7 : arg7.IsWhole) (hc : ¬firstTile0 i)
    (x0 : Vec F S1x400x10000 .f32) (x3 : Vec F S1x64 .f32) (xs : Vec F S10000x64 .f32) :
    { L4 : List (View.Piece (Elt F) S1x400x64 .f32) //
      ∀ (x1 : Vec F S10000x64/-feature block-/ .f32) (x2 : Vec F S64x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ owns (c : Thread nD τ) arg7 fullShare xs) -∗ K ⟨⟩))
          ⊢ wp frame (wpE (defs₀ (F := F)) Variants.none c none) E (cc0__gcn_layer_kernel i arg2 harg2 arg3 harg3 arg4 harg4 arg5 harg5 arg6 harg6 arg7 harg7) K } := by
  refine ⟨?_, fun x1 x2 E K => ?run⟩
  case run =>
    simp only [cc0__gcn_layer_kernel_eq_skeleton]; unfold cc0__gcn_layer_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg2.eq_unread hf0; obtain rfl := harg3.eq_unread hf1; obtain rfl := harg4.eq_unread hf2; obtain rfl := harg5.eq_unread hf3; obtain rfl := harg7.eq_unread hfs
    sl_exec (disch := exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; isplitr; · ipureintro; exact harg7.read_unread _
    iexact HS

end Cert.KernelIdeal.Gcn

end
-- ==== Proof.Ideal.Scoped0.lean ====
import proofs.«139597_g28621662060800_retrytranche2_548_2_alg».proof.Proof.Gen.KernelIdeal.Launch
import Idealize.ShloMosaic.Lib.Pipeline.Frame
import Idealize.ShloMosaic.Lib.Tactic

set_option maxRecDepth 16384

noncomputable section

namespace Cert.KernelIdeal.Gcn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! Layer 1's kernel keeps the support matrix in a scratch buffer of its own across grid points. The region's
invariant starts as "every scoped buffer that is no staging buffer of this call, at some contents, and the generator
register at some state"; this module separates the scratch buffer from the rest of that list and puts it back. -/

/-- The kernel's scratch operand: a whole scoped buffer. -/
abbrev scM0 : Memref sig .tc .vmem S10000x64 .f32 := Memref.whole cc0_scratch0

/-- The scoped buffers the region's invariant holds besides that scratch (the other call's staging and scratch
    buffers), each at some contents: this body never touches them. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f))

/-- The region's starting invariant hands out the scratch at some contents, the other buffers and the generator register. -/
theorem PhiA0_open (c : Dev nD) :
    (Pipeline.ΦA spec0 c : sProp 𝕄) ⊢ iprop((∃ d, owns (c : Thread nD τ) scM0 fullShare d) ∗ others0 c ∗ (∃ r, prngReg c r)) := by
  unfold Pipeline.ΦA others0; rw [scopedRest0_eq]; simp only [scM0, owns_whole]
  iintro ⟨⟨HS, H0, H1, H2, H3, H4, H5, H6, H7, H8⟩, Hp⟩
  isplitl [HS]; · iexact HS
  isplitr [Hp]
  swap; · iexact Hp
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- And takes them back, the scratch at any contents. -/
theorem PhiA0_close (c : Dev nD) :
    iprop((∃ d, owns (c : Thread nD τ) scM0 fullShare d) ∗ others0 c ∗ (∃ r, prngReg c r)) ⊢ (Pipeline.ΦA spec0 c : sProp 𝕄) := by
  unfold Pipeline.ΦA others0; rw [scopedRest0_eq]; simp only [scM0, owns_whole]
  iintro ⟨HS, ⟨H0, H1, H2, H3, H4, H5, H6, H7, H8⟩, Hp⟩
  isplitr [Hp]
  swap; · iexact Hp
  isplitl [HS]; · iexact HS
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

end Cert.KernelIdeal.Gcn

end
-- ==== Proof.Ideal.Layer0.lean ====
import proofs.«139597_g28621662060800_retrytranche2_548_2_alg».proof.Proof.Ideal.Body0
import proofs.«139597_g28621662060800_retrytranche2_548_2_alg».proof.Proof.Ideal.Scoped0

set_option maxRecDepth 16384

noncomputable section

namespace Cert.KernelIdeal.Gcn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! Layer 1 of the network as a pipeline region: what the output block and the scratch hold after every grid point,
the region's invariant (the scratch carries the batch element's support matrix from its first row tile on), the proof
data and the body obligation, all over the contents `V` the region finds in the arrays it reads. -/

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (an unfetched
    window's block index has not moved): adjacency, features, weights, bias. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The staging memrefs the pipeline passes at a point -/

abbrev ms0_0 (t : Fin cfg0.N) : Memref sig .tc .vmem S1x400x10000 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S10000x64/-feature block-/ .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x400x64 .f32 := win0_4.stage (cfg0.slots t 4)
abbrev hs0_4 (t : Fin cfg0.N) : (ms0_4 t).IsWhole := hstage0_4 ((cfg0.slots t 4).cast nbuf0_4)

/-- One staging buffer of the output window and the scratch, as views through which contents are stated. -/
abbrev VO0 : View sig .tc .vmem S1x400x64 .f32 := (Memref.whole cc0_stg4_0 : Memref sig .tc .vmem S1x400x64 .f32).view
abbrev VS0 : View sig .tc .vmem S10000x64 .f32 := scM0.view

/-! ## What a point leaves, by its case -/

/-- A first row tile (`t` divisible by 25): the output block and the scratch after the body, read back from the
    pieces the run found. -/
def firstAt0 (c : Dev nD) (t : Fin cfg0.N) (h : t.val % 25 = 0) : Vec F S1x400x64 .f32 × Vec F S10000x64 .f32 :=
  (VO0.read (Elt F) (VO0.writes (Elt F) VO0.junk (runFirst0 c (grid0.coords t) (ms0_0 t) (hs0_0 t) (ms0_1 t) (hs0_1 t) (ms0_2 t) (hs0_2 t) (ms0_3 t) (hs0_3 t) (ms0_4 t) (hs0_4 t) scM0 (Memref.isWhole_whole _) ((firstTile0_iff t).mpr h) (iblk0 V c 0 t) (iblk0 V c 1 t) (iblk0 V c 2 t) (iblk0 V c 3 t)).1),
   VS0.read (Elt F) (VS0.writes (Elt F) VS0.junk (runFirst0 c (grid0.coords t) (ms0_0 t) (hs0_0 t) (ms0_1 t) (hs0_1 t) (ms0_2 t) (hs0_2 t) (ms0_3 t) (hs0_3 t) (ms0_4 t) (hs0_4 t) scM0 (Memref.isWhole_whole _) ((firstTile0_iff t).mpr h) (iblk0 V c 0 t) (iblk0 V c 1 t) (iblk0 V c 2 t) (iblk0 V c 3 t)).2.1))

/-- A later row tile: the output block after the body over the support `xs` the scratch carries. -/
def laterAt0 (c : Dev nD) (t : Fin cfg0.N) (h : ¬t.val % 25 = 0) (xs : Vec F S10000x64 .f32) : Vec F S1x400x64 .f32 :=
  VO0.read (Elt F) (VO0.writes (Elt F) VO0.junk (runLater0 c (grid0.coords t) (ms0_0 t) (hs0_0 t) (ms0_1 t) (hs0_1 t) (ms0_2 t) (hs0_2 t) (ms0_3 t) (hs0_3 t) (ms0_4 t) (hs0_4 t) scM0 (Memref.isWhole_whole _) (fun hh => h ((firstTile0_iff t).mp hh)) (iblk0 V c 0 t) (iblk0 V c 3 t) xs).1)

/-- The found pieces tile what they were stored into, so they cover it. -/
theorem coverFirst0 (c : Dev nD) (t : Fin cfg0.N) (h : t.val % 25 = 0) (y : S1x400x64.Idx) :
    ∃ pc ∈ (runFirst0 c (grid0.coords t) (ms0_0 t) (hs0_0 t) (ms0_1 t) (hs0_1 t) (ms0_2 t) (hs0_2 t) (ms0_3 t) (hs0_3 t) (ms0_4 t) (hs0_4 t) scM0 (Memref.isWhole_whole _) ((firstTile0_iff t).mpr h) (iblk0 V c 0 t) (iblk0 V c 1 t) (iblk0 V c 2 t) (iblk0 V c 3 t)).1, y ∈ pc.1.set :=
  View.cover_of_tiledL _ S1x400x64.size (by sl_kernel_rfl) y
theorem scoverFirst0 (c : Dev nD) (t : Fin cfg0.N) (h : t.val % 25 = 0) (y : S10000x64.Idx) :
    ∃ pc ∈ (runFirst0 c (grid0.coords t) (ms0_0 t) (hs0_0 t) (ms0_1 t) (hs0_1 t) (ms0_2 t) (hs0_2 t) (ms0_3 t) (hs0_3 t) (ms0_4 t) (hs0_4 t) scM0 (Memref.isWhole_whole _) ((firstTile0_iff t).mpr h) (iblk0 V c 0 t) (iblk0 V c 1 t) (iblk0 V c 2 t) (iblk0 V c 3 t)).2.1, y ∈ pc.1.set :=
  View.cover_of_tiledL _ S10000x64.size (by sl_kernel_rfl) y
theorem coverLater0 (c : Dev nD) (t : Fin cfg0.N) (h : ¬t.val % 25 = 0) (xs : Vec F S10000x64 .f32) (y : S1x400x64.Idx) :
    ∃ pc ∈ (runLater0 c (grid0.coords t) (ms0_0 t) (hs0_0 t) (ms0_1 t) (hs0_1 t) (ms0_2 t) (hs0_2 t) (ms0_3 t) (hs0_3 t) (ms0_4 t) (hs0_4 t) scM0 (Memref.isWhole_whole _) (fun hh => h ((firstTile0_iff t).mp hh)) (iblk0 V c 0 t) (iblk0 V c 3 t) xs).1, y ∈ pc.1.set :=
  View.cover_of_tiledL _ S1x400x64.size (by sl_kernel_rfl) y

/-! ## What the output block and the scratch hold after each point -/

/-- After point `n`: a first row tile's own results; a later row tile's output over the scratch the point before
    left, the scratch unchanged. -/
def outsAt0 (c : Dev nD) : (n : ℕ) → n < cfg0.N → Vec F S1x400x64 .f32 × Vec F S10000x64 .f32
  | 0, hn => firstAt0 V c ⟨0, hn⟩ (Nat.zero_mod _)
  | n + 1, hn =>
    if h : (n + 1) % 25 = 0 then firstAt0 V c ⟨n + 1, hn⟩ h
    else (laterAt0 V c ⟨n + 1, hn⟩ h (outsAt0 c n (Nat.lt_of_succ_lt hn)).2, (outsAt0 c n (Nat.lt_of_succ_lt hn)).2)

theorem outsAt0_first (c : Dev nD) (t : Fin cfg0.N) (h : t.val % 25 = 0) : outsAt0 V c t.val t.isLt = firstAt0 V c t h := by
  obtain ⟨n, hn⟩ := t
  cases n with
  | zero => rfl
  | succ n => exact dif_pos h

theorem outsAt0_later (c : Dev nD) (t : Fin cfg0.N) (h : ¬t.val % 25 = 0) :
    outsAt0 V c t.val t.isLt = (laterAt0 V c t h (outsAt0 V c (t.val - 1) (Nat.lt_of_le_of_lt (Nat.sub_le _ _) t.isLt)).2,
      (outsAt0 V c (t.val - 1) (Nat.lt_of_le_of_lt (Nat.sub_le _ _) t.isLt)).2) := by
  obtain ⟨n, hn⟩ := t
  cases n with
  | zero => exact absurd (Nat.zero_mod _) h
  | succ n => exact dif_neg h

/-! ## The region's invariant -/

/-- Before point `n`: at the start the scoped buffers at anything; from then on the scratch at what the point before
    left in it, beside the other scoped buffers and the generator register. -/
def PhiS0 (c : Dev nD) : (n : ℕ) → n ≤ cfg0.N → sProp 𝕄
  | 0, _ => Pipeline.ΦA spec0 c
  | n + 1, hn => iprop(owns (c : Thread nD τ) scM0 fullShare ((outsAt0 V c n hn).2) ∗ others0 c ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(owns (c : Thread nD τ) scM0 fullShare ((outsAt0 V c n hn).2) ∗ others0 c ∗ (∃ r, prngReg c r)) := rfl

theorem PhiS0_pos (c : Dev nD) (n : ℕ) (h : n ≤ cfg0.N) (hz : n ≠ 0) :
    PhiS0 V c n h = iprop(owns (c : Thread nD τ) scM0 fullShare ((outsAt0 V c (n - 1) (by omega)).2) ∗ others0 c ∗ (∃ r, prngReg c r)) := by
  cases n with
  | zero => exact absurd rfl hz
  | succ n => rfl

/-! ## The proof data -/

/-- The arrays as the region finds them; after the body each input's buffer at its block and the output's at
    `outsAt0`; the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation -/

/-- What the body is called with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

set_option maxHeartbeats 4000000 in
/-- The body at any point. The input buffers hold their blocks. At a first row tile the scratch comes at anything (out
    of the starting invariant at the very first point, else out of the carried one, its contents forgotten) and goes
    back at the recomputed support; at a later row tile it comes at the carried support and goes back unchanged. The
    output buffer comes at anything and goes back at the case's result. Nothing is owed throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  rw [after0_0, after0_1, after0_2, after0_3, after0_4]
  by_cases h : t.val % 25 = 0
  · rw [outsAt0_first V c t h]
    unfold firstAt0; dsimp only
    have hopen : (dat0 V c).Φ t.castSucc ⊢ (iprop((∃ d, owns (c : Thread nD τ) scM0 fullShare d) ∗ others0 c ∗ (∃ r, prngReg c r)) : sProp 𝕄) := by
      by_cases hz : t.val = 0
      · rw [PhiS0_castSucc V c t, PhiS0_zero V c _ _ hz]; exact PhiA0_open c
      · rw [PhiS0_castSucc V c t, PhiS0_pos V c _ _ hz]
        iintro ⟨HS, Hoth, Hg⟩
        isplitl [HS]; · iexists _; iexact HS
        isplitl [Hoth]; · iexact Hoth
        iexact Hg
    iintro ⟨HΦ, Ho, ⟨%d0, H0⟩, ⟨%d1, H1⟩, ⟨%d2, H2⟩, ⟨%d3, H3⟩, ⟨%d4, H4⟩⟩
    ihave HΦ' := hopen $$ HΦ
    icases HΦ' with ⟨HS, Hoth, Hg⟩
    iapply ((runFirst0 c (grid0.coords t) (ms0_0 t) (hs0_0 t) (ms0_1 t) (hs0_1 t) (ms0_2 t) (hs0_2 t) (ms0_3 t) (hs0_3 t) (ms0_4 t) (hs0_4 t) scM0 (Memref.isWhole_whole _) ((firstTile0_iff t).mpr h) (iblk0 V c 0 t) (iblk0 V c 1 t) (iblk0 V c 2 t) (iblk0 V c 3 t)).2.2 Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, ⟨%e4, H4⟩, ⟨%es, HS⟩⟩
    isplitl [HS Hoth Hg]
    · isplitl [HS]
      · unfold owns; iexists _; isplitr
        swap; · iexact HS
        ipureintro; exact View.read_writes_of_cover _ _ _ _ _ (scoverFirst0 V c t h)
      isplitl [Hoth]; · iexact Hoth
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverFirst0 V c t h)
  · rw [outsAt0_later V c t h]
    unfold laterAt0; dsimp only
    have hz : t.val ≠ 0 := fun hz => h (by rw [hz])
    rw [PhiS0_castSucc V c t, PhiS0_pos V c _ _ hz]
    iintro ⟨⟨HS, Hoth, Hg⟩, Ho, ⟨%d0, H0⟩, ⟨%d1, H1⟩, ⟨%d2, H2⟩, ⟨%d3, H3⟩, ⟨%d4, H4⟩⟩
    iapply ((runLater0 c (grid0.coords t) (ms0_0 t) (hs0_0 t) (ms0_1 t) (hs0_1 t) (ms0_2 t) (hs0_2 t) (ms0_3 t) (hs0_3 t) (ms0_4 t) (hs0_4 t) scM0 (Memref.isWhole_whole _) (fun hh => h ((firstTile0_iff t).mp hh)) (iblk0 V c 0 t) (iblk0 V c 3 t) _).2 (iblk0 V c 1 t) (iblk0 V c 2 t) Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, ⟨%e4, H4⟩, HS⟩
    isplitl [HS Hoth Hg]
    · isplitl [HS]; · iexact HS
      isplitl [Hoth]; · iexact Hoth
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverLater0 V c t h _)

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- The region starts from the class's invariant, -/
theorem hin0 (c : Dev nD) : Pipeline.ΦA spec0 c ⊢ (dat0 V c).Φ 0 := by
  rw [show (dat0 V c).Φ 0 = PhiS0 V c 0 (Nat.zero_le _) from rfl, PhiS0_zero V c 0 _ rfl]

/-- and gives it back after the last point: the scratch's contents are forgotten. -/
theorem hout0 (c : Dev nD) : (dat0 V c).Φ (Fin.last cfg0.N) ⊢ Pipeline.ΦA spec0 c := by
  have hN : (Fin.last cfg0.N).val ≠ 0 := by rw [Fin.val_last]; have : cfg0.N = 50 := N_0; omega
  rw [show (dat0 V c).Φ (Fin.last cfg0.N) = PhiS0 V c (Fin.last cfg0.N).val (Nat.le_of_lt_succ (Fin.last cfg0.N).isLt) from rfl, PhiS0_pos V c _ _ hN]
  refine .trans ?_ (PhiA0_close c)
  iintro ⟨HS, Hoth, Hg⟩
  isplitl [HS]; · iexists _; iexact HS
  isplitl [Hoth]; · iexact Hoth
  iexact Hg

end

end Cert.KernelIdeal.Gcn

end
-- ==== Proof.Ideal.Body1.lean ====
import proofs.«139597_g28621662060800_retrytranche2_548_2_alg».proof.Proof.Gen.KernelIdeal.Launch
import proofs.«139597_g28621662060800_retrytranche2_548_2_alg».proof.Proof.Gen.KernelIdeal.Skeleton
import proofs.«139597_g28621662060800_retrytranche2_548_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gcn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! Layer 2 of the network, one grid point of its kernel: the body run on whole staging buffers.

The grid is (batch element, row tile). At the first row tile of a batch element the body recomputes the
support matrix (features times weights) into the scratch buffer; at every row tile it multiplies the
adjacency row block by the support read back from scratch and adds the bias (the first layer then applies the leaky rectifier). -/

/-- The body's one branch: the row-tile coordinate is zero. -/
abbrev firstTile1 (i : grid1.Coords) : Prop :=
  (Scalar.cmpi .ne (Scalar.extui (Scalar.cmpi .eq (BitVec.ofNat 32 (i 1).val) 0#32)) 0#32) = 1#1

/-- Row tiles are the fast axis of 25: the branch is taken exactly at the points divisible by 25. -/
theorem firstTile1_iff : ∀ t : Fin cfg1.N, firstTile1 (grid1.coords t) ↔ t.val % 25 = 0 :=
  (by decide +kernel : ∀ t : Fin grid1.N, firstTile1 (grid1.coords t) ↔ t.val % 25 = 0)

set_option maxHeartbeats 1000000 in
/-- First row tile of a batch element: from the adjacency block `x0`, the features `x1`, the weights `x2`, the bias
    `x3`, the output block and the scratch at anything, the body ends with the inputs as they were, and the output
    block and the scratch each holding the pieces its stores wrote (found by running the body). -/
noncomputable def runFirst1 (c : Dev nD) (i : grid1.Coords) (arg2 : Memref sig .tc .vmem S1x400x10000 .f32) (harg2 : arg2.IsWhole) (arg3 : Memref sig .tc .vmem S1x10000x64/-feature block-/ .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S1x400x64 .f32) (harg6 : arg6.IsWhole) (arg7 : Memref sig .tc .vmem S10000x64 .f32) (harg7 : arg7.IsWhole) (hc : firstTile1 i)
    (x0 : Vec F S1x400x10000 .f32) (x1 : Vec F S1x10000x64/-feature block-/ .f32) (x2 : Vec F S64x64 .f32) (x3 : Vec F S1x64 .f32) :
    Σ' (L4 : List (View.Piece (Elt F) S1x400x64 .f32)), { LS : List (View.Piece (Elt F) S10000x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS)) -∗ K ⟨⟩))
          ⊢ wp frame (wpE (defs₀ (F := F)) Variants.none c none) E (cc1__gcn_layer_kernel i arg2 harg2 arg3 harg3 arg4 harg4 arg5 harg5 arg6 harg6 arg7 harg7) K } := by
  refine ⟨?_, ?_, fun E K => ?run⟩
  case run =>
    simp only [cc1__gcn_layer_kernel_eq_skeleton]; unfold cc1__gcn_layer_kernel_skel
    unfold owns
    iintro ⟨⟨%f0, %hf0, H0⟩, ⟨%f1, %hf1, H1⟩, ⟨%f2, %hf2, H2⟩, ⟨%f3, %hf3, H3⟩, ⟨%d4, %f4, -, H4⟩, ⟨%ds, %fs, -, HS⟩, Hk⟩
    obtain rfl := harg2.eq_unread hf0; obtain rfl := harg3.eq_unread hf1; obtain rfl := harg4.eq_unread hf2; obtain rfl := harg5.eq_unread hf3
    sl_exec (disch := exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS

set_option maxHeartbeats 1000000 in
/-- A later row tile: the scratch holds the support `xs` the batch element's first tile left; the body leaves the
    inputs and the scratch as they were and the output block holding the pieces its store wrote. -/
noncomputable def runLater1 (c : Dev nD) (i : grid1.Coords) (arg2 : Memref sig .tc .vmem S1x400x10000 .f32) (harg2 : arg2.IsWhole) (arg3 : Memref sig .tc .vmem S1x10000x64/-feature block-/ .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S1x400x64 .f32) (harg6 : arg6.IsWhole) (arg7 : Memref sig .tc .vmem S10000x64 .f32) (harg7 : arg7.IsWhole) (hc : ¬firstTile1 i)
    (x0 : Vec F S1x400x10000 .f32) (x3 : Vec F S1x64 .f32) (xs : Vec F S10000x64 .f32) :
    { L4 : List (View.Piece (Elt F) S1x400x64 .f32) //
      ∀ (x1 : Vec F S1x10000x64/-feature block-/ .f32) (x2 : Vec F S64x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ owns (c : Thread nD τ) arg7 fullShare xs) -∗ K ⟨⟩))
          ⊢ wp frame (wpE (defs₀ (F := F)) Variants.none c none) E (cc1__gcn_layer_kernel i arg2 harg2 arg3 harg3 arg4 harg4 arg5 harg5 arg6 harg6 arg7 harg7) K } := by
  refine ⟨?_, fun x1 x2 E K => ?run⟩
  case run =>
    simp only [cc1__gcn_layer_kernel_eq_skeleton]; unfold cc1__gcn_layer_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg2.eq_unread hf0; obtain rfl := harg3.eq_unread hf1; obtain rfl := harg4.eq_unread hf2; obtain rfl := harg5.eq_unread hf3; obtain rfl := harg7.eq_unread hfs
    sl_exec (disch := exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; isplitr; · ipureintro; exact harg7.read_unread _
    iexact HS

end Cert.KernelIdeal.Gcn

end
-- ==== Proof.Ideal.Scoped1.lean ====
import proofs.«139597_g28621662060800_retrytranche2_548_2_alg».proof.Proof.Gen.KernelIdeal.Launch
import Idealize.ShloMosaic.Lib.Pipeline.Frame
import Idealize.ShloMosaic.Lib.Tactic

set_option maxRecDepth 16384

noncomputable section

namespace Cert.KernelIdeal.Gcn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! Layer 2's kernel keeps the support matrix in a scratch buffer of its own across grid points. The region's
invariant starts as "every scoped buffer that is no staging buffer of this call, at some contents, and the generator
register at some state"; this module separates the scratch buffer from the rest of that list and puts it back. -/

/-- The kernel's scratch operand: a whole scoped buffer. -/
abbrev scM1 : Memref sig .tc .vmem S10000x64 .f32 := Memref.whole cc1_scratch0

/-- The scoped buffers the region's invariant holds besides that scratch (the other call's staging and scratch
    buffers), each at some contents: this body never touches them. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f))

/-- The region's starting invariant hands out the scratch at some contents, the other buffers and the generator register. -/
theorem PhiA1_open (c : Dev nD) :
    (Pipeline.ΦA spec1 c : sProp 𝕄) ⊢ iprop((∃ d, owns (c : Thread nD τ) scM1 fullShare d) ∗ others1 c ∗ (∃ r, prngReg c r)) := by
  unfold Pipeline.ΦA others1; rw [scopedRest1_eq]; simp only [scM1, owns_whole]
  iintro ⟨⟨H0, H1, H2, H3, H4, H5, H6, H7, HS⟩, Hp⟩
  isplitl [HS]; · iexact HS
  isplitr [Hp]
  swap; · iexact Hp
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- And takes them back, the scratch at any contents. -/
theorem PhiA1_close (c : Dev nD) :
    iprop((∃ d, owns (c : Thread nD τ) scM1 fullShare d) ∗ others1 c ∗ (∃ r, prngReg c r)) ⊢ (Pipeline.ΦA spec1 c : sProp 𝕄) := by
  unfold Pipeline.ΦA others1; rw [scopedRest1_eq]; simp only [scM1, owns_whole]
  iintro ⟨HS, ⟨H0, H1, H2, H3, H4, H5, H6, H7⟩, Hp⟩
  isplitr [Hp]
  swap; · iexact Hp
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact HS

end Cert.KernelIdeal.Gcn

end
-- ==== Proof.Ideal.Layer1.lean ====
import proofs.«139597_g28621662060800_retrytranche2_548_2_alg».proof.Proof.Ideal.Body1
import proofs.«139597_g28621662060800_retrytranche2_548_2_alg».proof.Proof.Ideal.Scoped1

set_option maxRecDepth 16384

noncomputable section

namespace Cert.KernelIdeal.Gcn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! Layer 2 of the network as a pipeline region: what the output block and the scratch hold after every grid point,
the region's invariant (the scratch carries the batch element's support matrix from its first row tile on), the proof
data and the body obligation, all over the contents `V` the region finds in the arrays it reads. -/

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (an unfetched
    window's block index has not moved): adjacency, features, weights, bias. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The staging memrefs the pipeline passes at a point -/

abbrev ms1_0 (t : Fin cfg1.N) : Memref sig .tc .vmem S1x400x10000 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x10000x64/-feature block-/ .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S64x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x400x64 .f32 := win1_4.stage (cfg1.slots t 4)
abbrev hs1_4 (t : Fin cfg1.N) : (ms1_4 t).IsWhole := hstage1_4 ((cfg1.slots t 4).cast nbuf1_4)

/-- One staging buffer of the output window and the scratch, as views through which contents are stated. -/
abbrev VO1 : View sig .tc .vmem S1x400x64 .f32 := (Memref.whole cc1_stg4_0 : Memref sig .tc .vmem S1x400x64 .f32).view
abbrev VS1 : View sig .tc .vmem S10000x64 .f32 := scM1.view

/-! ## What a point leaves, by its case -/

/-- A first row tile (`t` divisible by 25): the output block and the scratch after the body, read back from the
    pieces the run found. -/
def firstAt1 (c : Dev nD) (t : Fin cfg1.N) (h : t.val % 25 = 0) : Vec F S1x400x64 .f32 × Vec F S10000x64 .f32 :=
  (VO1.read (Elt F) (VO1.writes (Elt F) VO1.junk (runFirst1 c (grid1.coords t) (ms1_0 t) (hs1_0 t) (ms1_1 t) (hs1_1 t) (ms1_2 t) (hs1_2 t) (ms1_3 t) (hs1_3 t) (ms1_4 t) (hs1_4 t) scM1 (Memref.isWhole_whole _) ((firstTile1_iff t).mpr h) (iblk1 V c 0 t) (iblk1 V c 1 t) (iblk1 V c 2 t) (iblk1 V c 3 t)).1),
   VS1.read (Elt F) (VS1.writes (Elt F) VS1.junk (runFirst1 c (grid1.coords t) (ms1_0 t) (hs1_0 t) (ms1_1 t) (hs1_1 t) (ms1_2 t) (hs1_2 t) (ms1_3 t) (hs1_3 t) (ms1_4 t) (hs1_4 t) scM1 (Memref.isWhole_whole _) ((firstTile1_iff t).mpr h) (iblk1 V c 0 t) (iblk1 V c 1 t) (iblk1 V c 2 t) (iblk1 V c 3 t)).2.1))

/-- A later row tile: the output block after the body over the support `xs` the scratch carries. -/
def laterAt1 (c : Dev nD) (t : Fin cfg1.N) (h : ¬t.val % 25 = 0) (xs : Vec F S10000x64 .f32) : Vec F S1x400x64 .f32 :=
  VO1.read (Elt F) (VO1.writes (Elt F) VO1.junk (runLater1 c (grid1.coords t) (ms1_0 t) (hs1_0 t) (ms1_1 t) (hs1_1 t) (ms1_2 t) (hs1_2 t) (ms1_3 t) (hs1_3 t) (ms1_4 t) (hs1_4 t) scM1 (Memref.isWhole_whole _) (fun hh => h ((firstTile1_iff t).mp hh)) (iblk1 V c 0 t) (iblk1 V c 3 t) xs).1)

/-- The found pieces tile what they were stored into, so they cover it. -/
theorem coverFirst1 (c : Dev nD) (t : Fin cfg1.N) (h : t.val % 25 = 0) (y : S1x400x64.Idx) :
    ∃ pc ∈ (runFirst1 c (grid1.coords t) (ms1_0 t) (hs1_0 t) (ms1_1 t) (hs1_1 t) (ms1_2 t) (hs1_2 t) (ms1_3 t) (hs1_3 t) (ms1_4 t) (hs1_4 t) scM1 (Memref.isWhole_whole _) ((firstTile1_iff t).mpr h) (iblk1 V c 0 t) (iblk1 V c 1 t) (iblk1 V c 2 t) (iblk1 V c 3 t)).1, y ∈ pc.1.set :=
  View.cover_of_tiledL _ S1x400x64.size (by sl_kernel_rfl) y
theorem scoverFirst1 (c : Dev nD) (t : Fin cfg1.N) (h : t.val % 25 = 0) (y : S10000x64.Idx) :
    ∃ pc ∈ (runFirst1 c (grid1.coords t) (ms1_0 t) (hs1_0 t) (ms1_1 t) (hs1_1 t) (ms1_2 t) (hs1_2 t) (ms1_3 t) (hs1_3 t) (ms1_4 t) (hs1_4 t) scM1 (Memref.isWhole_whole _) ((firstTile1_iff t).mpr h) (iblk1 V c 0 t) (iblk1 V c 1 t) (iblk1 V c 2 t) (iblk1 V c 3 t)).2.1, y ∈ pc.1.set :=
  View.cover_of_tiledL _ S10000x64.size (by sl_kernel_rfl) y
theorem coverLater1 (c : Dev nD) (t : Fin cfg1.N) (h : ¬t.val % 25 = 0) (xs : Vec F S10000x64 .f32) (y : S1x400x64.Idx) :
    ∃ pc ∈ (runLater1 c (grid1.coords t) (ms1_0 t) (hs1_0 t) (ms1_1 t) (hs1_1 t) (ms1_2 t) (hs1_2 t) (ms1_3 t) (hs1_3 t) (ms1_4 t) (hs1_4 t) scM1 (Memref.isWhole_whole _) (fun hh => h ((firstTile1_iff t).mp hh)) (iblk1 V c 0 t) (iblk1 V c 3 t) xs).1, y ∈ pc.1.set :=
  View.cover_of_tiledL _ S1x400x64.size (by sl_kernel_rfl) y

/-! ## What the output block and the scratch hold after each point -/

/-- After point `n`: a first row tile's own results; a later row tile's output over the scratch the point before
    left, the scratch unchanged. -/
def outsAt1 (c : Dev nD) : (n : ℕ) → n < cfg1.N → Vec F S1x400x64 .f32 × Vec F S10000x64 .f32
  | 0, hn => firstAt1 V c ⟨0, hn⟩ (Nat.zero_mod _)
  | n + 1, hn =>
    if h : (n + 1) % 25 = 0 then firstAt1 V c ⟨n + 1, hn⟩ h
    else (laterAt1 V c ⟨n + 1, hn⟩ h (outsAt1 c n (Nat.lt_of_succ_lt hn)).2, (outsAt1 c n (Nat.lt_of_succ_lt hn)).2)

theorem outsAt1_first (c : Dev nD) (t : Fin cfg1.N) (h : t.val % 25 = 0) : outsAt1 V c t.val t.isLt = firstAt1 V c t h := by
  obtain ⟨n, hn⟩ := t
  cases n with
  | zero => rfl
  | succ n => exact dif_pos h

theorem outsAt1_later (c : Dev nD) (t : Fin cfg1.N) (h : ¬t.val % 25 = 0) :
    outsAt1 V c t.val t.isLt = (laterAt1 V c t h (outsAt1 V c (t.val - 1) (Nat.lt_of_le_of_lt (Nat.sub_le _ _) t.isLt)).2,
      (outsAt1 V c (t.val - 1) (Nat.lt_of_le_of_lt (Nat.sub_le _ _) t.isLt)).2) := by
  obtain ⟨n, hn⟩ := t
  cases n with
  | zero => exact absurd (Nat.zero_mod _) h
  | succ n => exact dif_neg h

/-! ## The region's invariant -/

/-- Before point `n`: at the start the scoped buffers at anything; from then on the scratch at what the point before
    left in it, beside the other scoped buffers and the generator register. -/
def PhiS1 (c : Dev nD) : (n : ℕ) → n ≤ cfg1.N → sProp 𝕄
  | 0, _ => Pipeline.ΦA spec1 c
  | n + 1, hn => iprop(owns (c : Thread nD τ) scM1 fullShare ((outsAt1 V c n hn).2) ∗ others1 c ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(owns (c : Thread nD τ) scM1 fullShare ((outsAt1 V c n hn).2) ∗ others1 c ∗ (∃ r, prngReg c r)) := rfl

theorem PhiS1_pos (c : Dev nD) (n : ℕ) (h : n ≤ cfg1.N) (hz : n ≠ 0) :
    PhiS1 V c n h = iprop(owns (c : Thread nD τ) scM1 fullShare ((outsAt1 V c (n - 1) (by omega)).2) ∗ others1 c ∗ (∃ r, prngReg c r)) := by
  cases n with
  | zero => exact absurd rfl hz
  | succ n => rfl

/-! ## The proof data -/

/-- The arrays as the region finds them; after the body each input's buffer at its block and the output's at
    `outsAt1`; the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

/-- What the body is called with at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

set_option maxHeartbeats 4000000 in
/-- The body at any point. The input buffers hold their blocks. At a first row tile the scratch comes at anything (out
    of the starting invariant at the very first point, else out of the carried one, its contents forgotten) and goes
    back at the recomputed support; at a later row tile it comes at the carried support and goes back unchanged. The
    output buffer comes at anything and goes back at the case's result. Nothing is owed throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [after1_0, after1_1, after1_2, after1_3, after1_4]
  by_cases h : t.val % 25 = 0
  · rw [outsAt1_first V c t h]
    unfold firstAt1; dsimp only
    have hopen : (dat1 V c).Φ t.castSucc ⊢ (iprop((∃ d, owns (c : Thread nD τ) scM1 fullShare d) ∗ others1 c ∗ (∃ r, prngReg c r)) : sProp 𝕄) := by
      by_cases hz : t.val = 0
      · rw [PhiS1_castSucc V c t, PhiS1_zero V c _ _ hz]; exact PhiA1_open c
      · rw [PhiS1_castSucc V c t, PhiS1_pos V c _ _ hz]
        iintro ⟨HS, Hoth, Hg⟩
        isplitl [HS]; · iexists _; iexact HS
        isplitl [Hoth]; · iexact Hoth
        iexact Hg
    iintro ⟨HΦ, Ho, ⟨%d0, H0⟩, ⟨%d1, H1⟩, ⟨%d2, H2⟩, ⟨%d3, H3⟩, ⟨%d4, H4⟩⟩
    ihave HΦ' := hopen $$ HΦ
    icases HΦ' with ⟨HS, Hoth, Hg⟩
    iapply ((runFirst1 c (grid1.coords t) (ms1_0 t) (hs1_0 t) (ms1_1 t) (hs1_1 t) (ms1_2 t) (hs1_2 t) (ms1_3 t) (hs1_3 t) (ms1_4 t) (hs1_4 t) scM1 (Memref.isWhole_whole _) ((firstTile1_iff t).mpr h) (iblk1 V c 0 t) (iblk1 V c 1 t) (iblk1 V c 2 t) (iblk1 V c 3 t)).2.2 Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, ⟨%e4, H4⟩, ⟨%es, HS⟩⟩
    isplitl [HS Hoth Hg]
    · isplitl [HS]
      · unfold owns; iexists _; isplitr
        swap; · iexact HS
        ipureintro; exact View.read_writes_of_cover _ _ _ _ _ (scoverFirst1 V c t h)
      isplitl [Hoth]; · iexact Hoth
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverFirst1 V c t h)
  · rw [outsAt1_later V c t h]
    unfold laterAt1; dsimp only
    have hz : t.val ≠ 0 := fun hz => h (by rw [hz])
    rw [PhiS1_castSucc V c t, PhiS1_pos V c _ _ hz]
    iintro ⟨⟨HS, Hoth, Hg⟩, Ho, ⟨%d0, H0⟩, ⟨%d1, H1⟩, ⟨%d2, H2⟩, ⟨%d3, H3⟩, ⟨%d4, H4⟩⟩
    iapply ((runLater1 c (grid1.coords t) (ms1_0 t) (hs1_0 t) (ms1_1 t) (hs1_1 t) (ms1_2 t) (hs1_2 t) (ms1_3 t) (hs1_3 t) (ms1_4 t) (hs1_4 t) scM1 (Memref.isWhole_whole _) (fun hh => h ((firstTile1_iff t).mp hh)) (iblk1 V c 0 t) (iblk1 V c 3 t) _).2 (iblk1 V c 1 t) (iblk1 V c 2 t) Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, ⟨%e4, H4⟩, HS⟩
    isplitl [HS Hoth Hg]
    · isplitl [HS]; · iexact HS
      isplitl [Hoth]; · iexact Hoth
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverLater1 V c t h _)

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- The region starts from the class's invariant, -/
theorem hin1 (c : Dev nD) : Pipeline.ΦA spec1 c ⊢ (dat1 V c).Φ 0 := by
  rw [show (dat1 V c).Φ 0 = PhiS1 V c 0 (Nat.zero_le _) from rfl, PhiS1_zero V c 0 _ rfl]

/-- and gives it back after the last point: the scratch's contents are forgotten. -/
theorem hout1 (c : Dev nD) : (dat1 V c).Φ (Fin.last cfg1.N) ⊢ Pipeline.ΦA spec1 c := by
  have hN : (Fin.last cfg1.N).val ≠ 0 := by rw [Fin.val_last]; have : cfg1.N = 50 := N_1; omega
  rw [show (dat1 V c).Φ (Fin.last cfg1.N) = PhiS1 V c (Fin.last cfg1.N).val (Nat.le_of_lt_succ (Fin.last cfg1.N).isLt) from rfl, PhiS1_pos V c _ _ hN]
  refine .trans ?_ (PhiA1_close c)
  iintro ⟨HS, Hoth, Hg⟩
  isplitl [HS]; · iexists _; iexact HS
  isplitl [Hoth]; · iexact Hoth
  iexact Hg

end

end Cert.KernelIdeal.Gcn

end
-- ==== Proof.Ideal.Run.lean ====
import proofs.«139597_g28621662060800_retrytranche2_548_2_alg».proof.Proof.Ideal.Layer0
import proofs.«139597_g28621662060800_retrytranche2_548_2_alg».proof.Proof.Ideal.Layer1

set_option maxRecDepth 16384

noncomputable section

namespace Cert.KernelIdeal.Gcn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! The whole program: the two bias reshapes on the host, then layer 1's region, then layer 2's. The contents of every
unscoped buffer at each boundary are a fold from the launch memory: the host operations' results, then each region's
arrays at what its write-backs leave. The run ends with every unscoped buffer at the last boundary's contents; the
arguments there are the launch contents, and the result array is what layer 2's write-backs leave. -/

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m (c, b)
/-- After the two reshapes of the biases (layer 1's entry). -/
abbrev W1 : Dev nD → Valuation τ sig (Elt F) := fun c => StableHlo.after hostOps0 (W0 m c)
/-- The same read at the TensorCore's references. -/
abbrev V1 : (c : Dev nD) → (b : Ref sig .tc) → Buf (Elt F) ((c : Thread nD τ).loc b) := fun c b => W1 m c b

/-- No operation of the host stretch allocates a buffer. -/
theorem hostOps0_fresh : (hostOps0 : List (HloOp τ sig (Elt F))).Forall fun op => op.fresh = ∅ := by
  simp only [List.Forall]; repeat' constructor

/-- The host stretch writes only the two reshaped bias rows. -/
theorem W1_of_ne (c : Dev nD) (b : Ref sig .tc) (hb : b ≠ main_call0_v0 ∧ b ≠ main_call0_v1) :
    W1 m c (Proc.devRef .tc b) = W0 m c (Proc.devRef .tc b) :=
  StableHlo.after_of_forall_not_mem (b := Proc.devRef .tc b) _ _ (List.forall_iff_forall_mem.mp (by
    simp only [hostOps0, List.Forall, StableHlo.reshape_writes, Finset.mem_singleton]
    exact ⟨StableHlo.devRef_ne_of_ne hb.1, StableHlo.devRef_ne_of_ne hb.2⟩))

/-- At layer 1's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- At layer 2's exit, likewise. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-! ## The arguments end as launched -/

/-- `main_arg0` ends as launched: no host operation writes it and a region only reads it. -/
theorem W3_main_arg0 (c : Dev nD) : W3 m c (Proc.devRef .tc main_arg0) = m ((c : Thread nD τ).loc main_arg0) :=
  calc W3 m c (Proc.devRef .tc main_arg0)
    _ = W2 m c (Proc.devRef .tc main_arg0) := (W3_arr m c 0).trans (((dat1 (V2 m) c).arrAt_in 0 rfl _).trans (A_eq1 (V2 m) c 0))
    _ = W1 m c (Proc.devRef .tc main_arg0) := (W2_arr m c 0).trans (((dat0 (V1 m) c).arrAt_in 0 rfl _).trans (A_eq0 (V1 m) c 0))
    _ = W0 m c (Proc.devRef .tc main_arg0) := W1_of_ne m c main_arg0 (by decide)
    _ = m ((c : Thread nD τ).loc main_arg0) := rfl

/-- `main_arg1` ends as launched: no host operation writes it and a region only reads it. -/
theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = W1 m c (Proc.devRef .tc main_arg1) := (W2_arr m c 1).trans (((dat0 (V1 m) c).arrAt_in 1 rfl _).trans (A_eq0 (V1 m) c 1))
    _ = W0 m c (Proc.devRef .tc main_arg1) := W1_of_ne m c main_arg1 (by decide)
    _ = m ((c : Thread nD τ).loc main_arg1) := rfl

/-- `main_arg2` ends as launched: no host operation writes it and a region only reads it. -/
theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := (W2_arr m c 2).trans (((dat0 (V1 m) c).arrAt_in 2 rfl _).trans (A_eq0 (V1 m) c 2))
    _ = W0 m c (Proc.devRef .tc main_arg2) := W1_of_ne m c main_arg2 (by decide)
    _ = m ((c : Thread nD τ).loc main_arg2) := rfl

/-- `main_arg3` ends as launched: no host operation writes it and a region only reads it. -/
theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := W2_of_ne m c main_arg3 (by decide)
    _ = W0 m c (Proc.devRef .tc main_arg3) := W1_of_ne m c main_arg3 (by decide)
    _ = m ((c : Thread nD τ).loc main_arg3) := rfl

/-- `main_arg4` ends as launched: no host operation writes it and a region only reads it. -/
theorem W3_main_arg4 (c : Dev nD) : W3 m c (Proc.devRef .tc main_arg4) = m ((c : Thread nD τ).loc main_arg4) :=
  calc W3 m c (Proc.devRef .tc main_arg4)
    _ = W2 m c (Proc.devRef .tc main_arg4) := (W3_arr m c 2).trans (((dat1 (V2 m) c).arrAt_in 2 rfl _).trans (A_eq1 (V2 m) c 2))
    _ = W1 m c (Proc.devRef .tc main_arg4) := W2_of_ne m c main_arg4 (by decide)
    _ = W0 m c (Proc.devRef .tc main_arg4) := W1_of_ne m c main_arg4 (by decide)
    _ = m ((c : Thread nD τ).loc main_arg4) := rfl

/-- `main_arg5` ends as launched: no host operation writes it and a region only reads it. -/
theorem W3_main_arg5 (c : Dev nD) : W3 m c (Proc.devRef .tc main_arg5) = m ((c : Thread nD τ).loc main_arg5) :=
  calc W3 m c (Proc.devRef .tc main_arg5)
    _ = W2 m c (Proc.devRef .tc main_arg5) := W3_of_ne m c main_arg5 (by decide)
    _ = W1 m c (Proc.devRef .tc main_arg5) := W2_of_ne m c main_arg5 (by decide)
    _ = W0 m c (Proc.devRef .tc main_arg5) := W1_of_ne m c main_arg5 (by decide)
    _ = m ((c : Thread nD τ).loc main_arg5) := rfl

/-- The result array ends at what layer 2's write-backs leave. -/
theorem W3_main_v0 (c : Dev nD) : W3 m c (Proc.devRef .tc main_v0) = (dat1 (V2 m) c).arrAt 4 cfg1.N := W3_arr m c 4

/-! ## The proof data family and the thread state -/

/-- No pipeline has a prefetched table. -/
abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
/-- The host stretch as a segment over the unscoped references from the launch contents. -/
abbrev hseg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m) R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W3 m c) ∗ ∃ r, prngReg c r)

/-! ## The regions as segments -/

-- a library lemma stated over the pinned configuration unifies with the printed one only when unification may unfold
-- plain definitions in a metavariable's type
set_option backward.isDefEq.respectTransparency.types false in
/-- Layer 1's region over the thread state: entered with every unscoped buffer at `W1`, left with them at `W2`.
    Its arrays are split out of the unscoped buffers and put back at the exit contents; the generator register and the
    scoped rest go into the region's invariant and come back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (hout0 (V1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Layer 2's region over the thread state: entered with every unscoped buffer at `W2`, left with them at `W3`.
    Its arrays are split out of the unscoped buffers and put back at the exit contents; the generator register and the
    scoped rest go into the region's invariant and come back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (hout1 (V2 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg0 m), .region (reg0 m), .region (reg1 m) ]

theorem main_run (c : Dev nD) : main (F := F) c = Pipeline.Seg.run (segs m) := (main_chain c).trans (by chain_rfl)

set_option backward.isDefEq.respectTransparency.types false in
/-- From any memory with zero counters every weakly fair execution of the program terminates, nothing faulting, and in
    every final state each unscoped buffer holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c),
     (h c _ (mem_uc main_arg4 (by decide))).trans (W3_main_arg4 m c),
     (h c _ (mem_uc main_arg5 (by decide))).trans (W3_main_arg5 m c)⟩) (run_all m ρ)

end Cert.KernelIdeal.Gcn

end
-- ==== Proof.Spec.lean ====
import Idealize.ShloMosaic.PureOps.Ideal
import Idealize.ShloMosaic.Lib.ValueIdx

/-! The two-layer graph convolution over a batch of dense adjacency matrices, as one function of the six argument
arrays, entry by entry on the extended reals:

    support  = features · weights                              (10000 × 64, a sum over 64)
    hidden   = leaky (adjacency[b] · support(bx, W1) + b1)      (per batch element b; a sum over 10000)
    result   = adjacency[b] · support(hidden[b], W2) + b2

with `leaky z = z` where `z ≥ 0` and `0.2f · z` elsewhere (the comparison and the constant exactly as both programs
spell them). No law of arithmetic is used anywhere: both programs compute these sums with this grouping. -/

noncomputable section

open scoped BigOperators

namespace Cert.GcnSpec

open Idealize.ShloMosaic Idealize.ShloMosaic.ValueIdx

abbrev SAdj : Shape := ⟨3, ![2, 10000, 10000]⟩
abbrev SFeat : Shape := ⟨2, ![10000, 64]⟩
abbrev SWgt : Shape := ⟨2, ![64, 64]⟩
abbrev SBias : Shape := ⟨1, ![64]⟩
abbrev SOut : Shape := ⟨3, ![2, 10000, 64]⟩

/-- The leaky rectifier with slope the f32 nearest 0.2, on one extended real. -/
def leaky (z : EReal) : EReal :=
  Scalar.select (FloatOps.cmpf (F := Ideal) (φ := .f32) .oge z (Ideal.ofBits .f32 0x00000000#32)) z (Ideal.ofBits .f32 0x3E4CCCCD#32 * z)

/-- Features times weights at row `k`, column `j`. -/
def support (x : SFeat.Idx → EReal) (w : SWgt.Idx → EReal) (k : Fin 10000) (j : Fin 64) : EReal :=
  ∑ q : Fin 64, x (ix2 k q) * w (ix2 q j)

/-- Batch element `b`'s adjacency times a support matrix, plus the bias, at row `r`, column `j`. -/
def aggregate (adj : SAdj.Idx → EReal) (s : Fin 10000 → Fin 64 → EReal) (bias : SBias.Idx → EReal)
    (b : Fin 2) (r : Fin 10000) (j : Fin 64) : EReal :=
  (∑ k : Fin 10000, adj (ix3 b r k) * s k j) + bias (ix1 j)

/-- The first layer's output. -/
def hidden (adj : SAdj.Idx → EReal) (bx : SFeat.Idx → EReal) (w1 : SWgt.Idx → EReal) (b1 : SBias.Idx → EReal)
    (b : Fin 2) (r : Fin 10000) (j : Fin 64) : EReal :=
  leaky (aggregate adj (support bx w1) b1 b r j)

/-- The second layer's output from a first-layer output `h` (any array of that shape). -/
def second (adj : SAdj.Idx → EReal) (h : SOut.Idx → EReal) (w2 : SWgt.Idx → EReal) (b2 : SBias.Idx → EReal)
    (b : Fin 2) (r : Fin 10000) (j : Fin 64) : EReal :=
  aggregate adj (support (fun q => h (ix3 b (q 0) (q 1))) w2) b2 b r j

/-- The network's result array. -/
def gcn (adj : SAdj.Idx → EReal) (bx : SFeat.Idx → EReal) (w1 : SWgt.Idx → EReal) (b1 : SBias.Idx → EReal)
    (w2 : SWgt.Idx → EReal) (b2 : SBias.Idx → EReal) : SOut.Idx → EReal :=
  fun i => second adj (fun p => hidden adj bx w1 b1 (p 0) (p 1) (p 2)) w2 b2 (i 0) (i 1) (i 2)

end Cert.GcnSpec

end
-- ==== Proof.Ideal.Value0.lean ====
import proofs.«139597_g28621662060800_retrytranche2_548_2_alg».proof.Proof.Ideal.Layer0
import proofs.«139597_g28621662060800_retrytranche2_548_2_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Pipeline.FrameBody

set_option maxRecDepth 16384

noncomputable section

namespace Cert.KernelIdeal.Gcn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen
open scoped BigOperators

/-! Layer 1's kernel region, read as values on the extended reals: the array its output window is written back to ends
holding the specification's first-layer output `hidden` of the four arrays the region reads.

The grid is (batch element) × (25 row tiles of 400 rows). At every point the body multiplies the point's 400 × 10000
adjacency row block by the 10000 × 64 support matrix it reads from its scratch buffer, adds the bias row and applies
the leaky rectifier; the support matrix (features · weights, a sum over 64) is recomputed into the scratch at the first
row tile of each batch element and carried to the later ones. Since the features and the weights are the same whole
arrays at every point, the scratch holds one and the same support matrix after every point (by induction on the
point), so every output block is one function of the adjacency block and the bias row. Read at an index, that block
is the specification's entry: both are the rectifier of (a sum over 10000 of adjacency times support) plus bias, with
the same grouping, and row r of the block at point t is row (t mod 25)·400 + r of batch element t / 25. The 50 blocks
tile the output array, so the array is the specification's function. -/

namespace Value0

/-! ## What the body's stores leave, as values of the blocks it loads -/

section
variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A first row tile leaves in the scratch the product of the loaded features and weights. -/
theorem firstScratch0 (V : (c : Dev nD) → (b : Ref sig .tc) → Buf (Elt F) ((c : Thread nD τ).loc b)) (c : Dev nD) (t : Fin cfg0.N) (h : t.val % 25 = 0) :
    (firstAt0 V c t h).2 = k0_pay1 (iblk0 V c 1 t) (iblk0 V c 2 t) := by
  unfold firstAt0
  dsimp only
  rw [View.read_writes_eq_canon _ _ _ (scoverFirst0 V c t h)]
  unfold runFirst0
  dsimp only
  sl_unfold_words
  rw [View.canon_unit_zero hz2]
  simp only [View.readAt_eq_ld, (hs0_1 t).read_unread, (hs0_2 t).read_unread, View.ld_unit_zero (S := S10000x64) hz2, View.ld_unit_zero (S := S64x64) hz2]

/-- A first row tile leaves in the output block the rectified aggregate of the adjacency block over the support it
    has just stored and read back, plus the bias row. -/
theorem firstOut0 (V : (c : Dev nD) → (b : Ref sig .tc) → Buf (Elt F) ((c : Thread nD τ).loc b)) (c : Dev nD) (t : Fin cfg0.N) (h : t.val % 25 = 0) :
    (firstAt0 V c t h).1 = k0_pay2 (iblk0 V c 0 t) (k0_pay1 (iblk0 V c 1 t) (iblk0 V c 2 t)) (iblk0 V c 3 t) := by
  unfold firstAt0
  dsimp only
  rw [View.read_writes_eq_canon _ _ _ (coverFirst0 V c t h)]
  unfold runFirst0
  dsimp only
  sl_unfold_words
  rw [View.canon_unit_zero (S := S1x400x64) hz3]
  simp only [View.readAt_eq_ld, (hs0_0 t).read_unread, (hs0_1 t).read_unread, (hs0_2 t).read_unread, (hs0_3 t).read_unread,
    View.ld_unit_zero (S := S1x400x10000) hz3, View.ld_unit_zero (S := S10000x64) hz2, View.ld_unit_zero (S := S64x64) hz2,
    View.ld_unit_zero (S := S1x64) hz2, View.readCov_unit_zero (S := S10000x64) _ hz2]

/-- A later row tile leaves in the output block the same function of the adjacency block, the carried scratch
    contents and the bias row. -/
theorem laterOut0 (V : (c : Dev nD) → (b : Ref sig .tc) → Buf (Elt F) ((c : Thread nD τ).loc b)) (c : Dev nD) (t : Fin cfg0.N) (h : ¬t.val % 25 = 0) (xs : Vec F S10000x64 .f32) :
    laterAt0 V c t h xs = k0_pay2 (iblk0 V c 0 t) xs (iblk0 V c 3 t) := by
  unfold laterAt0
  rw [View.read_writes_eq_canon _ _ _ (coverLater0 V c t h xs)]
  unfold runLater0
  dsimp only
  sl_unfold_words
  rw [View.canon_unit_zero (S := S1x400x64) hz3]
  simp only [View.readAt_eq_ld, (hs0_0 t).read_unread, (hs0_3 t).read_unread, (Memref.isWhole_whole _ : (scM0).IsWhole).read_unread,
    View.ld_unit_zero (S := S1x400x10000) hz3, View.ld_unit_zero (S := S10000x64) hz2, View.ld_unit_zero (S := S1x64) hz2]

end

/-! ## The two payloads read at an index, on the extended reals -/

theorem supp_lhs_0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem supp_lhs_1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
theorem supp_rhs_0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
theorem supp_rhs_1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- The product into a zero accumulator: entry (k, j) of features times weights is the sum over the 64 shared
    coordinates. -/
theorem suppMM_apply (x : FVec Ideal S10000x64 .f32) (w : FVec Ideal S64x64 .f32) (k : Fin 10000) (j : Fin 64) :
    matmul (F := Ideal) dot_S10000x64_S64x64_S10000x64_1_0_0_1_n_n none x w (constant (F := Ideal) S10000x64 .f32 0x00000000#32) (ix2 k j)
      = ∑ q : Fin 64, x (ix2 k q) * w (ix2 q j) := by
  refine (Ideal.matmul_constant_zero_apply dot_S10000x64_S64x64_S10000x64_1_0_0_1_n_n none x w (ix2 k j)).trans ?_
  rw [← Equiv.sum_comp (contrEquiv1 dot_S10000x64_S64x64_S10000x64_1_0_0_1_n_n 64 rfl rfl).symm]
  refine Finset.sum_congr rfl fun q _ => ?_
  have hq := contrEquiv1_symm_val dot_S10000x64_S64x64_S10000x64_1_0_0_1_n_n 64 rfl rfl q
  have el : dot_S10000x64_S64x64_S10000x64_1_0_0_1_n_n.lhsIdx (ix2 k j) ((contrEquiv1 dot_S10000x64_S64x64_S10000x64_1_0_0_1_n_n 64 rfl rfl).symm q) = ix2 k q := funext fun a => Fin.ext (by
    match a with
    | ⟨0, _⟩ => exact supp_lhs_0 _ _
    | ⟨1, _⟩ => exact (supp_lhs_1 _ _).trans hq)
  have er : dot_S10000x64_S64x64_S10000x64_1_0_0_1_n_n.rhsIdx (ix2 k j) ((contrEquiv1 dot_S10000x64_S64x64_S10000x64_1_0_0_1_n_n 64 rfl rfl).symm q) = ix2 q j := funext fun a => Fin.ext (by
    match a with
    | ⟨0, _⟩ => exact (supp_rhs_0 _ _).trans hq
    | ⟨1, _⟩ => exact supp_rhs_1 _ _)
  rw [el, er]

/-- The scratch payload is the specification's support matrix. -/
theorem pay1_apply (x : Vec Ideal S10000x64 .f32) (w : Vec Ideal S64x64 .f32) (k : Fin 10000) (j : Fin 64) :
    k0_pay1 (F := Ideal) x w (ix2 k j) = Cert.GcnSpec.support x w k j := by
  unfold k0_pay1
  refine (congrFun (shapeCast_self _ shapeCasts_S10000x64_S10000x64) (ix2 k j)).trans ?_
  exact suppMM_apply x w k j

theorem agg_lhs_0 (i : S400x64.Idx) (q : dot_S400x10000_S10000x64_S400x64_1_0_0_1_n_n.contr.Idx) :
    (dot_S400x10000_S10000x64_S400x64_1_0_0_1_n_n.lhsIdx i q 0).val = (i 0).val := by
  unfold DotDims.lhsIdx
  rw [dif_neg (show ¬(0 : Fin S400x10000.rank) ∈ dot_S400x10000_S10000x64_S400x64_1_0_0_1_n_n.lhsBatch by decide), dif_pos (show (0 : Fin S400x10000.rank) ∈ dot_S400x10000_S10000x64_S400x64_1_0_0_1_n_n.lhsNonContracting by decide)]
  rfl
theorem agg_lhs_1 (i : S400x64.Idx) (q : dot_S400x10000_S10000x64_S400x64_1_0_0_1_n_n.contr.Idx) :
    (dot_S400x10000_S10000x64_S400x64_1_0_0_1_n_n.lhsIdx i q 1).val = (q ⟨0, by decide⟩).val :=
  dot_S400x10000_S10000x64_S400x64_1_0_0_1_n_n.lhsIdx_val_of_single rfl i q
theorem agg_rhs_0 (i : S400x64.Idx) (q : dot_S400x10000_S10000x64_S400x64_1_0_0_1_n_n.contr.Idx) :
    (dot_S400x10000_S10000x64_S400x64_1_0_0_1_n_n.rhsIdx i q 0).val = (q ⟨0, by decide⟩).val :=
  dot_S400x10000_S10000x64_S400x64_1_0_0_1_n_n.rhsIdx_val_of_single rfl i q
theorem agg_rhs_1 (i : S400x64.Idx) (q : dot_S400x10000_S10000x64_S400x64_1_0_0_1_n_n.contr.Idx) :
    (dot_S400x10000_S10000x64_S400x64_1_0_0_1_n_n.rhsIdx i q 1).val = (i 1).val := by
  unfold DotDims.rhsIdx
  rw [dif_neg (show ¬(1 : Fin S10000x64.rank) ∈ dot_S400x10000_S10000x64_S400x64_1_0_0_1_n_n.rhsBatch by decide), dif_pos (show (1 : Fin S10000x64.rank) ∈ dot_S400x10000_S10000x64_S400x64_1_0_0_1_n_n.rhsNonContracting by decide)]
  rfl

/-- The row block times the support, into a zero accumulator: entry (r, j) is the sum over the 10000 columns. -/
theorem aggMM_apply (a : FVec Ideal S400x10000 .f32) (s : FVec Ideal S10000x64 .f32) (r : Fin 400) (j : Fin 64) :
    matmul (F := Ideal) dot_S400x10000_S10000x64_S400x64_1_0_0_1_n_n none a s (constant (F := Ideal) S400x64 .f32 0x00000000#32) (ix2 r j)
      = ∑ k : Fin 10000, a (ix2 r k) * s (ix2 k j) := by
  refine (Ideal.matmul_constant_zero_apply dot_S400x10000_S10000x64_S400x64_1_0_0_1_n_n none a s (ix2 r j)).trans ?_
  rw [← Equiv.sum_comp (contrEquiv1 dot_S400x10000_S10000x64_S400x64_1_0_0_1_n_n 10000 rfl rfl).symm]
  refine Finset.sum_congr rfl fun k _ => ?_
  have hk := contrEquiv1_symm_val dot_S400x10000_S10000x64_S400x64_1_0_0_1_n_n 10000 rfl rfl k
  have el : dot_S400x10000_S10000x64_S400x64_1_0_0_1_n_n.lhsIdx (ix2 r j) ((contrEquiv1 dot_S400x10000_S10000x64_S400x64_1_0_0_1_n_n 10000 rfl rfl).symm k) = ix2 r k := funext fun a => Fin.ext (by
    match a with
    | ⟨0, _⟩ => exact agg_lhs_0 _ _
    | ⟨1, _⟩ => exact (agg_lhs_1 _ _).trans hk)
  have er : dot_S400x10000_S10000x64_S400x64_1_0_0_1_n_n.rhsIdx (ix2 r j) ((contrEquiv1 dot_S400x10000_S10000x64_S400x64_1_0_0_1_n_n 10000 rfl rfl).symm k) = ix2 k j := funext fun a => Fin.ext (by
    match a with
    | ⟨0, _⟩ => exact (agg_rhs_0 _ _).trans hk
    | ⟨1, _⟩ => exact agg_rhs_1 _ _)
  rw [el, er]

/-- The output payload at (u, r, j): the leaky rectifier of row r of the adjacency block times column j of the
    scratch contents, plus the bias row's entry j. -/
theorem pay2_apply (x0 : Vec Ideal S1x400x10000 .f32) (xs : Vec Ideal S10000x64 .f32) (b : Vec Ideal S1x64 .f32)
    (u : Fin 1) (r : Fin 400) (j : Fin 64) :
    k0_pay2 (F := Ideal) x0 xs b (ix3 u r j)
      = Cert.GcnSpec.leaky ((∑ k : Fin 10000, x0 (ix3 (0 : Fin 1) r k) * xs (ix2 k j)) + b (ix2 (0 : Fin 1) j)) := by
  unfold k0_pay2
  refine (shapeCast_ab_1ab_apply _ shapeCasts_S400x64_S1x400x64 u r j).trans ?_
  refine Eq.trans (b := Cert.GcnSpec.leaky
    (matmul (F := Ideal) dot_S400x10000_S10000x64_S400x64_1_0_0_1_n_n none (shapeCast S400x10000 x0 shapeCasts_S1x400x10000_S400x10000) xs (constant (F := Ideal) S400x64 .f32 0x00000000#32) (ix2 r j)
      + broadcastTo S400x64 (shapeCast S1x64 b shapeCasts_S1x64_S1x64) broadcasts_S1x64_S400x64 (ix2 r j))) rfl ?_
  refine congrArg Cert.GcnSpec.leaky ?_
  refine congrArg₂ (· + ·) ?_ ?_
  · refine (aggMM_apply _ xs r j).trans ?_
    refine Finset.sum_congr rfl fun k _ => ?_
    exact congrArg (· * xs (ix2 k j)) (shapeCast_1ab_ab_apply x0 shapeCasts_S1x400x10000_S400x10000 r k)
  · refine (broadcastTo_1b_ab_apply _ broadcasts_S1x64_S400x64 r j).trans ?_
    exact congrFun (shapeCast_self b shapeCasts_S1x64_S1x64) (ix2 (0 : Fin 1) j)

/-! ## From the blocks to the array -/

/-- The index maps, decided once over the 50 grid points: point t is row tile t mod 25 of batch element t / 25; the
    adjacency and output blocks sit there, the features, weights and bias row are whole arrays. -/
theorem idx_facts0 : ∀ t : Fin cfg0.N,
    win0_0.index t (0 : Fin 3) = t.val / 25 ∧ win0_0.index t (1 : Fin 3) = t.val % 25 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val / 25 ∧ win0_4.index t (1 : Fin 3) = t.val % 25 ∧ win0_4.index t (2 : Fin 3) = 0 :=
  (by decide +kernel : ∀ t : Fin grid0.N, _)

section
variable (V : (c : Dev nD) → (b : Ref sig .tc) → Buf (Elt Ideal) ((c : Thread nD τ).loc b))

/-- Row r of the adjacency block at point t is row (t mod 25)·400 + r of batch element t / 25. -/
theorem adj_blk (c : Dev nD) (t : Fin cfg0.N) (u : Fin 1) (r : Fin 400) (k : Fin 10000) (b : Fin 2) (R : Fin 10000)
    (hb : b.val = t.val / 25) (hR : R.val = t.val % 25 * 400 + r.val) :
    (iblk0 V c 0 t : Vec Ideal S1x400x10000 .f32) (ix3 u r k) = (V c main_arg0 : S2x10000x10000.Idx → EReal) (ix3 b R k) := by
  obtain ⟨e0, e1, e2, -⟩ := idx_facts0 t
  have hu : u.val = 0 := by omega
  unfold iblk0
  rw [View.read_apply]
  show V c main_arg0 _ = V c main_arg0 _
  congr 1
  funext a
  apply Fin.ext
  match a with
  | ⟨0, _⟩ => show win0_0.index t (0 : Fin 3) * 1 + 1 * u.val = b.val; rw [e0, hb, hu]; omega
  | ⟨1, _⟩ => show win0_0.index t (1 : Fin 3) * 400 + 1 * r.val = R.val; rw [e1, hR]; omega
  | ⟨2, _⟩ => show win0_0.index t (2 : Fin 3) * 10000 + 1 * k.val = k.val; rw [e2]; omega

/-- The features block is the whole features array at every point; -/
theorem feat_blk (c : Dev nD) (t : Fin cfg0.N) :
    (iblk0 V c 1 t : Vec Ideal S10000x64 .f32) = (V c main_arg1 : S10000x64.Idx → EReal) := by
  obtain ⟨-, -, -, e0, e1, -⟩ := idx_facts0 t
  funext y
  unfold iblk0
  rw [View.read_apply]
  show V c main_arg1 _ = V c main_arg1 y
  congr 1
  funext a
  apply Fin.ext
  match a with
  | ⟨0, _⟩ => show win0_1.index t (0 : Fin 2) * 10000 + 1 * (y 0).val = (y 0).val; rw [e0]; omega
  | ⟨1, _⟩ => show win0_1.index t (1 : Fin 2) * 64 + 1 * (y 1).val = (y 1).val; rw [e1]; omega

/-- the weights block the whole weights array; -/
theorem wgt_blk (c : Dev nD) (t : Fin cfg0.N) :
    (iblk0 V c 2 t : Vec Ideal S64x64 .f32) = (V c main_arg2 : S64x64.Idx → EReal) := by
  obtain ⟨-, -, -, -, -, e0, e1, -⟩ := idx_facts0 t
  funext y
  unfold iblk0
  rw [View.read_apply]
  show V c main_arg2 _ = V c main_arg2 y
  congr 1
  funext a
  apply Fin.ext
  match a with
  | ⟨0, _⟩ => show win0_2.index t (0 : Fin 2) * 64 + 1 * (y 0).val = (y 0).val; rw [e0]; omega
  | ⟨1, _⟩ => show win0_2.index t (1 : Fin 2) * 64 + 1 * (y 1).val = (y 1).val; rw [e1]; omega

/-- the bias block the whole bias row. -/
theorem bias_blk (c : Dev nD) (t : Fin cfg0.N) :
    (iblk0 V c 3 t : Vec Ideal S1x64 .f32) = (V c main_call0_v0 : S1x64.Idx → EReal) := by
  obtain ⟨-, -, -, -, -, -, -, e0, e1, -⟩ := idx_facts0 t
  funext y
  unfold iblk0
  rw [View.read_apply]
  show V c main_call0_v0 _ = V c main_call0_v0 y
  congr 1
  funext a
  apply Fin.ext
  match a with
  | ⟨0, _⟩ => show win0_3.index t (0 : Fin 2) * 1 + 1 * (y 0).val = (y 0).val; rw [e0]; omega
  | ⟨1, _⟩ => show win0_3.index t (1 : Fin 2) * 64 + 1 * (y 1).val = (y 1).val; rw [e1]; omega

/-- The four arrays the region reads, at their literal types. -/
abbrev adjA (c : Dev nD) : S2x10000x10000.Idx → EReal := V c main_arg0
abbrev featA (c : Dev nD) : S10000x64.Idx → EReal := V c main_arg1
abbrev wgtA (c : Dev nD) : S64x64.Idx → EReal := V c main_arg2
abbrev biasA (c : Dev nD) : S1x64.Idx → EReal := V c main_call0_v0

/-- The support matrix as the kernel computes it: the scratch payload of the whole features and weights arrays. -/
abbrev supp0 (c : Dev nD) : Vec Ideal S10000x64 .f32 :=
  k0_pay1 (F := Ideal) (V c main_arg1 : S10000x64.Idx → EReal) (V c main_arg2 : S64x64.Idx → EReal)

/-- After every point the scratch holds that support matrix: a first row tile recomputes it from the same two whole
    arrays, a later one carries it. -/
theorem scratch_inv (c : Dev nD) : ∀ (n : ℕ) (hn : n < cfg0.N), (outsAt0 V c n hn).2 = supp0 V c
  | 0, hn => by
    rw [show outsAt0 V c 0 hn = firstAt0 V c ⟨0, hn⟩ (Nat.zero_mod _) from rfl, firstScratch0 V c ⟨0, hn⟩ (Nat.zero_mod _),
      feat_blk V c ⟨0, hn⟩, wgt_blk V c ⟨0, hn⟩]
  | n + 1, hn => by
    by_cases h : (n + 1) % 25 = 0
    · rw [show outsAt0 V c (n + 1) hn = firstAt0 V c ⟨n + 1, hn⟩ h from dif_pos h, firstScratch0 V c ⟨n + 1, hn⟩ h,
        feat_blk V c ⟨n + 1, hn⟩, wgt_blk V c ⟨n + 1, hn⟩]
    · rw [show outsAt0 V c (n + 1) hn = (laterAt0 V c ⟨n + 1, hn⟩ h (outsAt0 V c n (Nat.lt_of_succ_lt hn)).2, (outsAt0 V c n (Nat.lt_of_succ_lt hn)).2) from dif_neg h]
      dsimp only
      exact scratch_inv c n (Nat.lt_of_succ_lt hn)

/-- So after every point the output block is the output payload of the adjacency block, that support matrix and the
    bias row. -/
theorem out_blk (c : Dev nD) (t : Fin cfg0.N) :
    (outsAt0 V c t.val t.isLt).1 = k0_pay2 (F := Ideal) (iblk0 V c 0 t) (supp0 V c) (iblk0 V c 3 t) := by
  by_cases h : t.val % 25 = 0
  · rw [outsAt0_first V c t h, firstOut0 V c t h, feat_blk V c t, wgt_blk V c t]
  · rw [outsAt0_later V c t h]
    dsimp only
    rw [laterOut0 V c t h, scratch_inv V c (t.val - 1) _]

/-- The specification's first-layer output over the arrays the region finds. -/
abbrev hid0 (c : Dev nD) : S2x10000x64.Idx → EReal := fun i =>
  Cert.GcnSpec.hidden (V c main_arg0) (V c main_arg1) (V c main_arg2) (fun j => (V c main_call0_v0 : S1x64.Idx → EReal) (ix2 (0 : Fin 1) (j 0 : Fin 64))) (i 0) (i 1) (i 2)

/-- The output block at point t, at block index j3, is the specification's entry at the array index i the block's
    rectangle sends j3 to: batch element t / 25, row (t mod 25)·400 + j3's row, j3's column. -/
theorem pay2_hidden (c : Dev nD) (t : Fin cfg0.N) (j3 : S1x400x64.Idx) (i : S2x10000x64.Idx)
    (h0 : (i 0).val = t.val / 25) (h1 : (i 1).val = t.val % 25 * 400 + (j3 1).val) (h2 : (i 2).val = (j3 2).val) :
    k0_pay2 (F := Ideal) (iblk0 V c 0 t) (supp0 V c) (iblk0 V c 3 t) j3 = hid0 V c i := by
  obtain ⟨u, r, j, rfl⟩ : ∃ (u : Fin 1) (r : Fin 400) (j : Fin 64), j3 = ix3 u r j := ⟨j3 0, j3 1, j3 2, eq_ix3 j3⟩
  obtain ⟨b, R, j', rfl⟩ : ∃ (b : Fin 2) (R : Fin 10000) (j' : Fin 64), i = ix3 b R j' := ⟨i 0, i 1, i 2, eq_ix3 i⟩
  obtain rfl : j = j' := (Fin.ext h2).symm
  refine (pay2_apply (iblk0 V c 0 t) (supp0 V c) (iblk0 V c 3 t) u r j).trans ?_
  show Cert.GcnSpec.leaky _ = Cert.GcnSpec.leaky ((∑ k : Fin 10000, adjA V c (ix3 b R k) * Cert.GcnSpec.support (featA V c) (wgtA V c) k j) + biasA V c (ix2 (0 : Fin 1) j))
  refine congrArg Cert.GcnSpec.leaky (congrArg₂ (· + ·) (Finset.sum_congr rfl fun k _ => congrArg₂ (· * ·) ?_ ?_) ?_)
  · exact adj_blk V c t 0 r k b R h0 h1
  · exact pay1_apply (featA V c) (wgtA V c) k j
  · exact congrFun (bias_blk V c t) (ix2 (0 : Fin 1) j)

/-- What point t writes back is block t of the specification's first-layer output. -/
theorem flushed4_eq (c : Dev nD) (t : Fin cfg0.N) :
    (dat0 (F := Ideal) V c).flushed 4 t = ((cfg0.win 4).blk t).view.read (Elt Ideal) (hid0 V c) := by
  show (cfg0.win 4).cut (grid0.coords t) ((dat0 (F := Ideal) V c).after 4 t) = _
  rw [after0_4, out_blk V c t]
  obtain ⟨-, -, -, -, -, -, -, -, -, e0, e1, e2⟩ := idx_facts0 t
  funext y
  rw [View.read_apply]
  refine pay2_hidden V c t ((cfg0.win 4).xinj (grid0.coords t) y) (((cfg0.win 4).blk t).view.emb y) ?_ ?_ ?_
  · show win0_4.index t (0 : Fin 3) * 1 + 1 * (y 0).val = t.val / 25
    have hy : (y 0).val < 1 := (y 0).isLt
    rw [e0]; omega
  · show win0_4.index t (1 : Fin 3) * 400 + 1 * (y 1).val = t.val % 25 * 400 + (y 1).val
    rw [e1]; omega
  · show win0_4.index t (2 : Fin 3) * 64 + 1 * (y 2).val = (y 2).val
    rw [e2]; omega

/-- An index of the output array is in point t's block iff each coordinate is in the block's range on its axis. -/
theorem mem_blk4 (t : Fin cfg0.N) (i : S2x10000x64.Idx) :
    i ∈ ((cfg0.win 4).blk t).view.set ↔ ∀ a : Fin 3, win0_4.index t a * S1x400x64.size a ≤ (i a).val ∧ (i a).val < win0_4.index t a * S1x400x64.size a + S1x400x64.size a := by
  show i ∈ ((View.whole main_call0_v2).slice (win0_4.rect t)).set ↔ _
  rw [View.set_slice_whole, Rect.mem_set_unit]
  exact Iff.rfl

/-- Row R of batch element b lies in the block of point b·25 + R / 400, and every point writes back. -/
theorem cover4 (i : S2x10000x64.Idx) : ∃ t : Fin cfg0.N, (cfg0.win 4).flush t = true ∧ i ∈ ((cfg0.win 4).blk t).view.set := by
  have h0 : (i 0).val < 2 := (i 0).isLt
  have h1 : (i 1).val < 10000 := (i 1).isLt
  have h2 : (i 2).val < 64 := (i 2).isLt
  have hN : cfg0.N = 50 := N_0
  have ht : (i 0).val * 25 + (i 1).val / 400 < cfg0.N := by omega
  obtain ⟨-, -, -, -, -, -, -, -, -, e0, e1, e2⟩ := idx_facts0 ⟨(i 0).val * 25 + (i 1).val / 400, ht⟩
  refine ⟨⟨(i 0).val * 25 + (i 1).val / 400, ht⟩, flush0_4 _, ?_⟩
  rw [mem_blk4]
  intro a
  match a with
  | ⟨0, _⟩ =>
    show win0_4.index ⟨(i 0).val * 25 + (i 1).val / 400, ht⟩ (0 : Fin 3) * 1 ≤ (i 0).val ∧ (i 0).val < win0_4.index ⟨(i 0).val * 25 + (i 1).val / 400, ht⟩ (0 : Fin 3) * 1 + 1
    rw [e0]; show ((i 0).val * 25 + (i 1).val / 400) / 25 * 1 ≤ (i 0).val ∧ (i 0).val < ((i 0).val * 25 + (i 1).val / 400) / 25 * 1 + 1; omega
  | ⟨1, _⟩ =>
    show win0_4.index ⟨(i 0).val * 25 + (i 1).val / 400, ht⟩ (1 : Fin 3) * 400 ≤ (i 1).val ∧ (i 1).val < win0_4.index ⟨(i 0).val * 25 + (i 1).val / 400, ht⟩ (1 : Fin 3) * 400 + 400
    rw [e1]; show ((i 0).val * 25 + (i 1).val / 400) % 25 * 400 ≤ (i 1).val ∧ (i 1).val < ((i 0).val * 25 + (i 1).val / 400) % 25 * 400 + 400; omega
  | ⟨2, _⟩ =>
    show win0_4.index ⟨(i 0).val * 25 + (i 1).val / 400, ht⟩ (2 : Fin 3) * 64 ≤ (i 2).val ∧ (i 2).val < win0_4.index ⟨(i 0).val * 25 + (i 1).val / 400, ht⟩ (2 : Fin 3) * 64 + 64
    rw [e2]; omega

end

end Value0

open Value0

/-- What layer 1's kernel region leaves in its output array is the specification's first-layer output of the arrays
    the region finds: the blocks tile the array, and each is the block of that one function. -/
theorem final0 (V : (c : Dev nD) → (b : Ref sig .tc) → Buf (Elt Ideal) ((c : Thread nD τ).loc b)) (c : Dev nD) :
      (dat0 (F := Ideal) V c).arrAt 4 cfg0.N
        = fun i => Cert.GcnSpec.hidden (V c main_arg0) (V c main_arg1) (V c main_arg2) (fun j => (V c main_call0_v0 : S1x64.Idx → EReal) (ix2 (0 : Fin 1) (j 0 : Fin 64))) (i 0) (i 1) (i 2) :=
  (dat0 (F := Ideal) V c).arrAt_eq_of_cover 4 (hid0 V c) (fun t _ => flushed4_eq V c t) cover4

end Cert.KernelIdeal.Gcn

end
-- ==== Proof.Ideal.Value1.lean ====
import proofs.«139597_g28621662060800_retrytranche2_548_2_alg».proof.Proof.Ideal.Layer1
import proofs.«139597_g28621662060800_retrytranche2_548_2_alg».proof.Proof.Spec
import Idealize.ShloMosaic.Lib.Pipeline.Value
import Idealize.ShloMosaic.Lib.Pipeline.FrameBody
import Idealize.ShloMosaic.Lib.ValueIdx
import Idealize.ShloMosaic.Lib.ValueLayout
import Idealize.ShloMosaic.PureOps.Ideal.Laws

/-! The second layer of the graph convolution, read off its kernel region on the extended reals.

The region's grid is (batch element, row tile): 2 × 25 points, point `t` working on batch element `t / 25` and on
rows `(t % 25) · 400 … + 399`. At the first row tile of a batch element the body stores into a scratch matrix

    support[k, j] = ∑ q < 64, hidden[b, k, q] · weights[q, j]

(the first layer's output of that batch element times the second layer's weights); at every row tile it stores into
its output block

    out[r, j] = (∑ k < 10000, adjacency[b, tile · 400 + r, k] · scratch[k, j]) + bias[j].

This module shows, by induction over the points, that the scratch holds `support` of the point's own batch element
whenever it is read, so that each output block is the matching block of `Cert.GcnSpec.second`; the blocks cover the
output array, hence the array the region leaves IS `Cert.GcnSpec.second` of the four arrays the region reads
(`final1`). The sums are the specification's own, in its own grouping; the one step that is not an unfolding is
re-indexing each product's sum along the bijection between its one-axis contraction index and that axis's coordinate
(nothing is distributed, regrouped or cancelled, so no finiteness is needed). -/

set_option maxRecDepth 16384

noncomputable section

namespace Cert.KernelIdeal.Gcn

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open scoped BigOperators

namespace Second

section
variable {F : FTy → Type} [FloatOps F]

/-- The two spellings of "every offset is zero". -/
theorem hz2 : (![0, 0] : Fin 2 → Nat) = fun _ => 0 := funext fun a => by fin_cases a <;> rfl
theorem hz3 : (![0, 0, 0] : Fin 3 → Nat) = fun _ => 0 := funext fun a => by fin_cases a <;> rfl

/-! ## What one grid point stores

At a first row tile the body stores, into the scratch, the features block times the weights (`k1_pay1`), and into
the output block, the adjacency rows times that very product read back from the scratch, plus the bias row
(`k1_pay2`). At a later row tile only the second store happens, over the scratch as the tile finds it. -/

/-- First row tile, the scratch: features times weights. -/
theorem runFirst1_scr (c : Dev nD) (i : grid1.Coords) (arg2 : Memref sig .tc .vmem S1x400x10000 .f32) (harg2 : arg2.IsWhole) (arg3 : Memref sig .tc .vmem S1x10000x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S1x400x64 .f32) (harg6 : arg6.IsWhole) (arg7 : Memref sig .tc .vmem S10000x64 .f32) (harg7 : arg7.IsWhole) (hc : firstTile1 i)
    (x0 : Vec F S1x400x10000 .f32) (x1 : Vec F S1x10000x64 .f32) (x2 : Vec F S64x64 .f32) (x3 : Vec F S1x64 .f32) :
    View.canon (runFirst1 c i arg2 harg2 arg3 harg3 arg4 harg4 arg5 harg5 arg6 harg6 arg7 harg7 hc x0 x1 x2 x3).2.1 = k1_pay1 x1 x2 := by
  unfold runFirst1
  dsimp only
  sl_unfold_words
  rw [View.canon_unit_zero hz2]
  simp only [View.readAt_eq_ld, harg3.read_unread, harg4.read_unread, View.ld_unit_zero (S := S1x10000x64) hz3, View.ld_unit_zero (S := S64x64) hz2]

/-- First row tile, the output block: the adjacency rows times the product just stored, plus the bias. -/
theorem runFirst1_out (c : Dev nD) (i : grid1.Coords) (arg2 : Memref sig .tc .vmem S1x400x10000 .f32) (harg2 : arg2.IsWhole) (arg3 : Memref sig .tc .vmem S1x10000x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S1x400x64 .f32) (harg6 : arg6.IsWhole) (arg7 : Memref sig .tc .vmem S10000x64 .f32) (harg7 : arg7.IsWhole) (hc : firstTile1 i)
    (x0 : Vec F S1x400x10000 .f32) (x1 : Vec F S1x10000x64 .f32) (x2 : Vec F S64x64 .f32) (x3 : Vec F S1x64 .f32) :
    View.canon (runFirst1 c i arg2 harg2 arg3 harg3 arg4 harg4 arg5 harg5 arg6 harg6 arg7 harg7 hc x0 x1 x2 x3).1 = k1_pay2 x0 (k1_pay1 x1 x2) x3 := by
  unfold runFirst1
  dsimp only
  sl_unfold_words
  rw [View.canon_unit_zero hz3]
  simp only [View.readAt_eq_ld, harg2.read_unread, harg3.read_unread, harg4.read_unread, harg5.read_unread, View.ld_unit_zero (S := S1x400x10000) hz3, View.ld_unit_zero (S := S1x10000x64) hz3, View.ld_unit_zero (S := S64x64) hz2, View.ld_unit_zero (S := S1x64) hz2, View.readCov_unit_zero (S := S10000x64) _ hz2]

/-- A later row tile, the output block: the adjacency rows times the scratch as found, plus the bias. -/
theorem runLater1_out (c : Dev nD) (i : grid1.Coords) (arg2 : Memref sig .tc .vmem S1x400x10000 .f32) (harg2 : arg2.IsWhole) (arg3 : Memref sig .tc .vmem S1x10000x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S1x400x64 .f32) (harg6 : arg6.IsWhole) (arg7 : Memref sig .tc .vmem S10000x64 .f32) (harg7 : arg7.IsWhole) (hc : ¬firstTile1 i)
    (x0 : Vec F S1x400x10000 .f32) (x3 : Vec F S1x64 .f32) (xs : Vec F S10000x64 .f32) :
    View.canon (runLater1 c i arg2 harg2 arg3 harg3 arg4 harg4 arg5 harg5 arg6 harg6 arg7 harg7 hc x0 x3 xs).1 = k1_pay2 x0 xs x3 := by
  unfold runLater1
  dsimp only
  sl_unfold_words
  rw [View.canon_unit_zero hz3]
  simp only [View.readAt_eq_ld, harg2.read_unread, harg5.read_unread, harg7.read_unread, View.ld_unit_zero (S := S1x400x10000) hz3, View.ld_unit_zero (S := S10000x64) hz2, View.ld_unit_zero (S := S1x64) hz2]

end

section
variable {F : FTy → Type} [FloatOps F]
variable (V : (c : Dev nD) → (b : Ref sig .tc) → Buf (Elt F) ((c : Thread nD τ).loc b))

/-! ## The blocks and the arrays, by their literal types -/

/-- The adjacency rows a point sees: 400 rows of one batch element, all 10000 columns. -/
abbrev adjBlk (c : Dev nD) (t : Fin cfg1.N) : Vec F S1x400x10000 .f32 := iblk1 V c 0 t
/-- The first layer's output for the point's batch element. -/
abbrev hidBlk (c : Dev nD) (t : Fin cfg1.N) : Vec F S1x10000x64 .f32 := iblk1 V c 1 t
/-- The second layer's weights. -/
abbrev wgtBlk (c : Dev nD) (t : Fin cfg1.N) : Vec F S64x64 .f32 := iblk1 V c 2 t
/-- The second layer's bias, as a row. -/
abbrev biasBlk (c : Dev nD) (t : Fin cfg1.N) : Vec F S1x64 .f32 := iblk1 V c 3 t

/-- The four arrays those blocks are cut from. -/
abbrev adjArr (c : Dev nD) : Vec F S2x10000x10000 .f32 := V c main_arg0
abbrev hidArr (c : Dev nD) : Vec F S2x10000x64 .f32 := V c main_call0_v2
abbrev wgtArr (c : Dev nD) : Vec F S64x64 .f32 := V c main_arg4
abbrev biasArr (c : Dev nD) : Vec F S1x64 .f32 := V c main_call0_v1

/-- What a first row tile leaves: the output block and the scratch as the two stored payloads. -/
theorem firstAt1_eq (c : Dev nD) (t : Fin cfg1.N) (h : t.val % 25 = 0) :
    firstAt1 V c t h = (k1_pay2 (adjBlk V c t) (k1_pay1 (hidBlk V c t) (wgtBlk V c t)) (biasBlk V c t), k1_pay1 (hidBlk V c t) (wgtBlk V c t)) := by
  unfold firstAt1
  dsimp only
  rw [View.read_writes_eq_canon _ _ _ (coverFirst1 V c t h), View.read_writes_eq_canon _ _ _ (scoverFirst1 V c t h)]
  refine congrArg₂ Prod.mk ?_ ?_
  · exact (runFirst1_out c (grid1.coords t) (ms1_0 t) (hs1_0 t) (ms1_1 t) (hs1_1 t) (ms1_2 t) (hs1_2 t) (ms1_3 t) (hs1_3 t) (ms1_4 t) (hs1_4 t) scM1 (Memref.isWhole_whole _) ((firstTile1_iff t).mpr h) (iblk1 V c 0 t) (iblk1 V c 1 t) (iblk1 V c 2 t) (iblk1 V c 3 t))
  · exact (runFirst1_scr c (grid1.coords t) (ms1_0 t) (hs1_0 t) (ms1_1 t) (hs1_1 t) (ms1_2 t) (hs1_2 t) (ms1_3 t) (hs1_3 t) (ms1_4 t) (hs1_4 t) scM1 (Memref.isWhole_whole _) ((firstTile1_iff t).mpr h) (iblk1 V c 0 t) (iblk1 V c 1 t) (iblk1 V c 2 t) (iblk1 V c 3 t))

/-- What a later row tile leaves in the output block, over the scratch `xs` it finds. -/
theorem laterAt1_eq (c : Dev nD) (t : Fin cfg1.N) (h : ¬t.val % 25 = 0) (xs : Vec F S10000x64 .f32) :
    laterAt1 V c t h xs = k1_pay2 (adjBlk V c t) xs (biasBlk V c t) := by
  unfold laterAt1
  rw [View.read_writes_eq_canon _ _ _ (coverLater1 V c t h xs)]
  exact runLater1_out c (grid1.coords t) (ms1_0 t) (hs1_0 t) (ms1_1 t) (hs1_1 t) (ms1_2 t) (hs1_2 t) (ms1_3 t) (hs1_3 t) (ms1_4 t) (hs1_4 t) scM1 (Memref.isWhole_whole _) (fun hh => h ((firstTile1_iff t).mp hh)) (iblk1 V c 0 t) (iblk1 V c 3 t) xs

end

/-! ## The two products and the two payloads, entry by entry on the extended reals

Each product contracts one axis: entry `(r, j)` of `l · r` is the sum over that axis of `l (r, k) * r (k, j)`, added to
a zero accumulator. The casts between `[1, a, b]` and `[a, b]` only drop or add the unit coordinate, and the bias row is
repeated on every row. -/

section AtIdeal

/-- The features-times-weights contraction: where it reads its left operand, -/
theorem lhsSupp_0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem lhsSupp_1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
/-- and its right operand. -/
theorem rhsSupp_0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
theorem rhsSupp_1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- Features times weights into a zero accumulator, at row `k`, column `j`: a sum over the 64 feature columns. -/
theorem suppMatmul_apply (l : FVec Ideal S10000x64 .f32) (r : FVec Ideal S64x64 .f32) (k : Fin 10000) (j : Fin 64) :
    matmul (F := Ideal) dot_S10000x64_S64x64_S10000x64_1_0_0_1_n_n none l r (constant (F := Ideal) S10000x64 .f32 0x00000000#32) (ix2 k j)
      = ∑ q : Fin 64, l (ix2 k q) * r (ix2 q j) := by
  refine (Ideal.matmul_constant_zero_apply dot_S10000x64_S64x64_S10000x64_1_0_0_1_n_n none l r (ix2 k j)).trans ?_
  rw [← Equiv.sum_comp (contrEquiv1 dot_S10000x64_S64x64_S10000x64_1_0_0_1_n_n 64 rfl rfl).symm]
  refine Finset.sum_congr rfl fun q _ => ?_
  have hq := contrEquiv1_symm_val dot_S10000x64_S64x64_S10000x64_1_0_0_1_n_n 64 rfl rfl q
  have el : dot_S10000x64_S64x64_S10000x64_1_0_0_1_n_n.lhsIdx (ix2 k j) ((contrEquiv1 dot_S10000x64_S64x64_S10000x64_1_0_0_1_n_n 64 rfl rfl).symm q) = ix2 k q := funext fun a => Fin.ext (by
    match a with
    | ⟨0, _⟩ => exact lhsSupp_0 _ _
    | ⟨1, _⟩ => exact (lhsSupp_1 _ _).trans hq)
  have er : dot_S10000x64_S64x64_S10000x64_1_0_0_1_n_n.rhsIdx (ix2 k j) ((contrEquiv1 dot_S10000x64_S64x64_S10000x64_1_0_0_1_n_n 64 rfl rfl).symm q) = ix2 q j := funext fun a => Fin.ext (by
    match a with
    | ⟨0, _⟩ => exact (rhsSupp_0 _ _).trans hq
    | ⟨1, _⟩ => exact rhsSupp_1 _ _)
  rw [el, er]

/-- The adjacency-times-support contraction: where it reads its left operand, -/
theorem lhsAgg_0 (i : S400x64.Idx) (q : dot_S400x10000_S10000x64_S400x64_1_0_0_1_n_n.contr.Idx) :
    (dot_S400x10000_S10000x64_S400x64_1_0_0_1_n_n.lhsIdx i q 0).val = (i 0).val := by
  unfold DotDims.lhsIdx
  rw [dif_neg (show ¬(0 : Fin S400x10000.rank) ∈ dot_S400x10000_S10000x64_S400x64_1_0_0_1_n_n.lhsBatch by decide), dif_pos (show (0 : Fin S400x10000.rank) ∈ dot_S400x10000_S10000x64_S400x64_1_0_0_1_n_n.lhsNonContracting by decide)]
  rfl
theorem lhsAgg_1 (i : S400x64.Idx) (q : dot_S400x10000_S10000x64_S400x64_1_0_0_1_n_n.contr.Idx) :
    (dot_S400x10000_S10000x64_S400x64_1_0_0_1_n_n.lhsIdx i q 1).val = (q ⟨0, by decide⟩).val :=
  dot_S400x10000_S10000x64_S400x64_1_0_0_1_n_n.lhsIdx_val_of_single rfl i q
/-- and its right operand. -/
theorem rhsAgg_0 (i : S400x64.Idx) (q : dot_S400x10000_S10000x64_S400x64_1_0_0_1_n_n.contr.Idx) :
    (dot_S400x10000_S10000x64_S400x64_1_0_0_1_n_n.rhsIdx i q 0).val = (q ⟨0, by decide⟩).val :=
  dot_S400x10000_S10000x64_S400x64_1_0_0_1_n_n.rhsIdx_val_of_single rfl i q
theorem rhsAgg_1 (i : S400x64.Idx) (q : dot_S400x10000_S10000x64_S400x64_1_0_0_1_n_n.contr.Idx) :
    (dot_S400x10000_S10000x64_S400x64_1_0_0_1_n_n.rhsIdx i q 1).val = (i 1).val := by
  unfold DotDims.rhsIdx
  rw [dif_neg (show ¬(1 : Fin S10000x64.rank) ∈ dot_S400x10000_S10000x64_S400x64_1_0_0_1_n_n.rhsBatch by decide), dif_pos (show (1 : Fin S10000x64.rank) ∈ dot_S400x10000_S10000x64_S400x64_1_0_0_1_n_n.rhsNonContracting by decide)]
  rfl

/-- Adjacency rows times a support matrix into a zero accumulator, at row `r`, column `j`: a sum over the 10000 nodes. -/
theorem aggMatmul_apply (l : FVec Ideal S400x10000 .f32) (s : FVec Ideal S10000x64 .f32) (r : Fin 400) (j : Fin 64) :
    matmul (F := Ideal) dot_S400x10000_S10000x64_S400x64_1_0_0_1_n_n none l s (constant (F := Ideal) S400x64 .f32 0x00000000#32) (ix2 r j)
      = ∑ k : Fin 10000, l (ix2 r k) * s (ix2 k j) := by
  refine (Ideal.matmul_constant_zero_apply dot_S400x10000_S10000x64_S400x64_1_0_0_1_n_n none l s (ix2 r j)).trans ?_
  rw [← Equiv.sum_comp (contrEquiv1 dot_S400x10000_S10000x64_S400x64_1_0_0_1_n_n 10000 rfl rfl).symm]
  refine Finset.sum_congr rfl fun k _ => ?_
  have hk := contrEquiv1_symm_val dot_S400x10000_S10000x64_S400x64_1_0_0_1_n_n 10000 rfl rfl k
  have el : dot_S400x10000_S10000x64_S400x64_1_0_0_1_n_n.lhsIdx (ix2 r j) ((contrEquiv1 dot_S400x10000_S10000x64_S400x64_1_0_0_1_n_n 10000 rfl rfl).symm k) = ix2 r k := funext fun a => Fin.ext (by
    match a with
    | ⟨0, _⟩ => exact lhsAgg_0 _ _
    | ⟨1, _⟩ => exact (lhsAgg_1 _ _).trans hk)
  have er : dot_S400x10000_S10000x64_S400x64_1_0_0_1_n_n.rhsIdx (ix2 r j) ((contrEquiv1 dot_S400x10000_S10000x64_S400x64_1_0_0_1_n_n 10000 rfl rfl).symm k) = ix2 k j := funext fun a => Fin.ext (by
    match a with
    | ⟨0, _⟩ => exact (rhsAgg_0 _ _).trans hk
    | ⟨1, _⟩ => exact rhsAgg_1 _ _)
  rw [el, er]

/-- The scratch payload at row `k`, column `j`: the features block (its unit axis dropped) times the weights. -/
theorem pay1_apply (x1 : Vec Ideal S1x10000x64 .f32) (x2 : Vec Ideal S64x64 .f32) (k : Fin 10000) (j : Fin 64) :
    k1_pay1 (F := Ideal) x1 x2 (ix2 k j) = ∑ q : Fin 64, x1 (ix3 (0 : Fin 1) k q) * x2 (ix2 q j) := by
  show shapeCast S10000x64 (matmul (F := Ideal) (φ₁ := .f32) (φ₂ := .f32) dot_S10000x64_S64x64_S10000x64_1_0_0_1_n_n none (shapeCast S10000x64 x1 shapeCasts_S1x10000x64_S10000x64) x2 (constant (F := Ideal) S10000x64 .f32 0x00000000#32)) shapeCasts_S10000x64_S10000x64 (ix2 k j) = _
  rw [shapeCast_self]
  refine (suppMatmul_apply _ x2 k j).trans ?_
  refine Finset.sum_congr rfl fun q _ => ?_
  rw [shapeCast_1ab_ab_apply]

/-- The output payload at row `r`, column `j`: the adjacency rows (unit axis dropped) times the support, plus the bias at `j`. -/
theorem pay2_apply (x0 : Vec Ideal S1x400x10000 .f32) (xs : Vec Ideal S10000x64 .f32) (x3 : Vec Ideal S1x64 .f32) (u : Fin 1) (r : Fin 400) (j : Fin 64) :
    k1_pay2 (F := Ideal) x0 xs x3 (ix3 u r j) = (∑ k : Fin 10000, x0 (ix3 (0 : Fin 1) r k) * xs (ix2 k j)) + x3 (ix2 (0 : Fin 1) j) := by
  show shapeCast S1x400x64 (addf (matmul (F := Ideal) (φ₁ := .f32) (φ₂ := .f32) dot_S400x10000_S10000x64_S400x64_1_0_0_1_n_n none (shapeCast S400x10000 x0 shapeCasts_S1x400x10000_S400x10000) xs (constant (F := Ideal) S400x64 .f32 0x00000000#32)) (broadcastTo S400x64 (shapeCast S1x64 x3 shapeCasts_S1x64_S1x64) broadcasts_S1x64_S400x64)) shapeCasts_S400x64_S1x400x64 (ix3 u r j) = _
  rw [shapeCast_ab_1ab_apply, addf_apply, broadcastTo_1b_ab_apply, shapeCast_self]
  refine congrArg (· + x3 (ix2 (0 : Fin 1) j)) ?_
  refine (aggMatmul_apply _ xs r j).trans ?_
  refine Finset.sum_congr rfl fun k _ => ?_
  rw [shapeCast_1ab_ab_apply]

end AtIdeal

/-! ## Where a point's blocks lie in their arrays

Point `t` of the 2 × 25 grid works on batch element `t / 25` and row tile `t % 25`. The adjacency block and the output
block are rows `(t % 25) · 400 …` of that batch element; the first layer's output block is the batch element's whole
matrix; the weights and the bias row are whole arrays. -/

/-- The five index maps at every grid point. -/
theorem idx_facts1 : ∀ t : Fin cfg1.N,
    win1_0.index t (0 : Fin 3) = t.val / 25 ∧ win1_0.index t (1 : Fin 3) = t.val % 25 ∧ win1_0.index t (2 : Fin 3) = 0
    ∧ win1_1.index t (0 : Fin 3) = t.val / 25 ∧ win1_1.index t (1 : Fin 3) = 0 ∧ win1_1.index t (2 : Fin 3) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 3) = t.val / 25 ∧ win1_4.index t (1 : Fin 3) = t.val % 25 ∧ win1_4.index t (2 : Fin 3) = 0 :=
  (by decide +kernel : ∀ t : Fin grid1.N, _)

section
variable {F : FTy → Type} [FloatOps F]
variable (V : (c : Dev nD) → (b : Ref sig .tc) → Buf (Elt F) ((c : Thread nD τ).loc b))

/-- The adjacency block at `(r, k)` is the adjacency of batch element `t / 25` at row `(t % 25) · 400 + r`, column `k`. -/
theorem adjBlk_apply (c : Dev nD) (t : Fin cfg1.N) (u : Fin 1) (r : Fin 400) (k : Fin 10000) (b : Fin 2) (r' : Fin 10000)
    (hb : b.val = t.val / 25) (hr : r'.val = t.val % 25 * 400 + r.val) :
    adjBlk V c t (ix3 u r k) = adjArr V c (ix3 b r' k) := by
  obtain ⟨e0, e1, e2, -⟩ := idx_facts1 t
  show V c main_arg0 (((cfg1.win 0).blk t).view.emb (ix3 u r k)) = V c main_arg0 (ix3 b r' k)
  refine congrArg _ (funext fun a => Fin.ext ?_)
  match a with
  | ⟨0, _⟩ => show win1_0.index t (0 : Fin 3) * 1 + 1 * u.val = b.val; omega
  | ⟨1, _⟩ => show win1_0.index t (1 : Fin 3) * 400 + 1 * r.val = r'.val; omega
  | ⟨2, _⟩ => show win1_0.index t (2 : Fin 3) * 10000 + 1 * k.val = k.val; omega

/-- The first layer's output block at `(k, q)` is that array at batch element `t / 25`, row `k`, column `q`. -/
theorem hidBlk_apply (c : Dev nD) (t : Fin cfg1.N) (u : Fin 1) (k : Fin 10000) (q : Fin 64) (b : Fin 2)
    (hb : b.val = t.val / 25) :
    hidBlk V c t (ix3 u k q) = hidArr V c (ix3 b k q) := by
  obtain ⟨-, -, -, e0, e1, e2, -⟩ := idx_facts1 t
  show V c main_call0_v2 (((cfg1.win 1).blk t).view.emb (ix3 u k q)) = V c main_call0_v2 (ix3 b k q)
  refine congrArg _ (funext fun a => Fin.ext ?_)
  match a with
  | ⟨0, _⟩ => show win1_1.index t (0 : Fin 3) * 1 + 1 * u.val = b.val; omega
  | ⟨1, _⟩ => show win1_1.index t (1 : Fin 3) * 10000 + 1 * k.val = k.val; omega
  | ⟨2, _⟩ => show win1_1.index t (2 : Fin 3) * 64 + 1 * q.val = q.val; omega

/-- The weights block is the weights. -/
theorem wgtBlk_apply (c : Dev nD) (t : Fin cfg1.N) (q : Fin 64) (j : Fin 64) :
    wgtBlk V c t (ix2 q j) = wgtArr V c (ix2 q j) := by
  obtain ⟨-, -, -, -, -, -, e0, e1, -⟩ := idx_facts1 t
  show V c main_arg4 (((cfg1.win 2).blk t).view.emb (ix2 q j)) = V c main_arg4 (ix2 q j)
  refine congrArg _ (funext fun a => Fin.ext ?_)
  match a with
  | ⟨0, _⟩ => show win1_2.index t (0 : Fin 2) * 64 + 1 * q.val = q.val; omega
  | ⟨1, _⟩ => show win1_2.index t (1 : Fin 2) * 64 + 1 * j.val = j.val; omega

/-- The bias block is the bias row. -/
theorem biasBlk_apply (c : Dev nD) (t : Fin cfg1.N) (u : Fin 1) (j : Fin 64) :
    biasBlk V c t (ix2 u j) = biasArr V c (ix2 (0 : Fin 1) j) := by
  obtain ⟨-, -, -, -, -, -, -, -, e0, e1, -⟩ := idx_facts1 t
  show V c main_call0_v1 (((cfg1.win 3).blk t).view.emb (ix2 u j)) = V c main_call0_v1 (ix2 (0 : Fin 1) j)
  refine congrArg _ (funext fun a => Fin.ext ?_)
  match a with
  | ⟨0, _⟩ => show win1_3.index t (0 : Fin 2) * 1 + 1 * u.val = 0; omega
  | ⟨1, _⟩ => show win1_3.index t (1 : Fin 2) * 64 + 1 * j.val = j.val; omega

end

/-! ## The scratch carries the batch element's support matrix; every output block is a block of the specification

Induction over the grid points: a first row tile recomputes the support of its batch element, a later one keeps what
the point before left, and `t` and `t - 1` lie in the same batch element unless `t` is a first row tile. -/

section AtIdeal
variable (V : (c : Dev nD) → (b : Ref sig .tc) → Buf (Elt Ideal) ((c : Thread nD τ).loc b))

/-- The first layer's output of batch element `b` times the second layer's weights. -/
def suppOf (c : Dev nD) (b : Fin 2) : Vec Ideal S10000x64 .f32 :=
  fun p => Cert.GcnSpec.support (fun q => hidArr V c (ix3 b (q 0) (q 1))) (wgtArr V c) (p 0) (p 1)

/-- The specification's second layer over the arrays the region finds. -/
abbrev secondOf (c : Dev nD) : Vec Ideal S2x10000x64 .f32 :=
  fun i => Cert.GcnSpec.second (V c main_arg0) (V c main_call0_v2) (V c main_arg4) (fun j => (V c main_call0_v1 : S1x64.Idx → EReal) (ix2 (0 : Fin 1) (j 0 : Fin 64))) (i 0) (i 1) (i 2)

/-- What a first row tile stores into the scratch is its batch element's support matrix. -/
theorem pay1_blocks (c : Dev nD) (t : Fin cfg1.N) (b : Fin 2) (hb : b.val = t.val / 25) :
    k1_pay1 (F := Ideal) (hidBlk V c t) (wgtBlk V c t) = suppOf V c b := by
  funext p
  obtain ⟨k, j, rfl⟩ : ∃ (k : Fin 10000) (j : Fin 64), p = ix2 k j := ⟨p 0, p 1, eq_ix2 p⟩
  refine (pay1_apply (hidBlk V c t) (wgtBlk V c t) k j).trans ?_
  show _ = ∑ q : Fin 64, hidArr V c (ix3 b k q) * wgtArr V c (ix2 q j)
  refine Finset.sum_congr rfl fun q _ => ?_
  rw [hidBlk_apply V c t 0 k q b hb, wgtBlk_apply V c t q j]

/-- After point `n` the scratch holds the support matrix of batch element `n / 25`. -/
theorem scratch_eq (c : Dev nD) : ∀ (n : ℕ) (hn : n < cfg1.N) (b : Fin 2), b.val = n / 25 → (outsAt1 V c n hn).2 = suppOf V c b
  | 0, hn, b, hb => by
    rw [outsAt1_first V c ⟨0, hn⟩ (Nat.zero_mod _), firstAt1_eq]
    exact pay1_blocks V c ⟨0, hn⟩ b hb
  | n + 1, hn, b, hb => by
    by_cases h : (n + 1) % 25 = 0
    · rw [outsAt1_first V c ⟨n + 1, hn⟩ h, firstAt1_eq]
      exact pay1_blocks V c ⟨n + 1, hn⟩ b hb
    · rw [outsAt1_later V c ⟨n + 1, hn⟩ h]
      dsimp only
      exact scratch_eq c n (Nat.lt_of_succ_lt hn) b (by omega)

/-- So at every point the output block is the adjacency rows times that support matrix, plus the bias. -/
theorem out_eq (c : Dev nD) (t : Fin cfg1.N) (b : Fin 2) (hb : b.val = t.val / 25) :
    (outsAt1 V c t.val t.isLt).1 = k1_pay2 (adjBlk V c t) (suppOf V c b) (biasBlk V c t) := by
  by_cases h : t.val % 25 = 0
  · rw [outsAt1_first V c t h, firstAt1_eq]
    dsimp only
    rw [pay1_blocks V c t b hb]
  · rw [outsAt1_later V c t h]
    dsimp only
    rw [laterAt1_eq, scratch_eq V c (t.val - 1) (Nat.lt_of_le_of_lt (Nat.sub_le _ _) t.isLt) b (by omega)]

/-- Entry `x` of point `t`'s output block is the specification at batch element `t / 25`, row `(t % 25) · 400 + x₁`, column `x₂`. -/
theorem outBlk_apply (c : Dev nD) (t : Fin cfg1.N) (x : S1x400x64.Idx) (i : S2x10000x64.Idx)
    (h0 : (i 0).val = t.val / 25) (h1 : (i 1).val = t.val % 25 * 400 + (x 1).val) (h2 : (i 2).val = (x 2).val) :
    (outsAt1 V c t.val t.isLt).1 x = secondOf V c i := by
  obtain ⟨u, r, j, rfl⟩ : ∃ (u : Fin 1) (r : Fin 400) (j : Fin 64), x = ix3 u r j := ⟨x 0, x 1, x 2, eq_ix3 x⟩
  obtain ⟨b, r', j', rfl⟩ : ∃ (b : Fin 2) (r' : Fin 10000) (j' : Fin 64), i = ix3 b r' j' := ⟨i 0, i 1, i 2, eq_ix3 i⟩
  obtain rfl : j' = j := Fin.ext h2
  rw [out_eq V c t b h0]
  refine (pay2_apply (adjBlk V c t) (suppOf V c b) (biasBlk V c t) u r j').trans ?_
  rw [biasBlk_apply V c t 0 j']
  have e : ∀ k : Fin 10000, adjBlk V c t (ix3 (0 : Fin 1) r k) = adjArr V c (ix3 b r' k) := fun k => adjBlk_apply V c t 0 r k b r' h0 h1
  simp only [e]
  rfl

end AtIdeal

/-! ## From the blocks to the array

Every point writes its output block back; point `t`'s block is rows `(t % 25) · 400 … + 399` of batch element `t / 25`,
so row `r` of batch element `b` is written by point `b · 25 + r / 400`, and the blocks cover the array. -/

section AtIdeal
variable (V : (c : Dev nD) → (b : Ref sig .tc) → Buf (Elt Ideal) ((c : Thread nD τ).loc b))

/-- What point `t` writes back is block `t` of the specification's second layer. -/
theorem flushed1_eq (c : Dev nD) (t : Fin cfg1.N) :
    (dat1 (F := Ideal) V c).flushed 4 t = ((cfg1.win 4).blk t).view.read (Elt Ideal) (secondOf V c) := by
  show (cfg1.win 4).cut (grid1.coords t) ((dat1 (F := Ideal) V c).after 4 t) = _
  rw [after1_4]
  obtain ⟨-, -, -, -, -, -, -, -, -, -, e0, e1, e2⟩ := idx_facts1 t
  funext y
  have hy0 : (y 0).val < 1 := (y 0).isLt
  show (outsAt1 V c t.val t.isLt).1 ((cfg1.win 4).xinj (grid1.coords t) y) = secondOf V c (((cfg1.win 4).blk t).view.emb y)
  refine outBlk_apply V c t ((cfg1.win 4).xinj (grid1.coords t) y) (((cfg1.win 4).blk t).view.emb y) ?_ ?_ ?_
  · show win1_4.index t (0 : Fin 3) * 1 + 1 * (y 0).val = t.val / 25
    omega
  · show win1_4.index t (1 : Fin 3) * 400 + 1 * (y 1).val = t.val % 25 * 400 + (y 1).val
    omega
  · show win1_4.index t (2 : Fin 3) * 64 + 1 * (y 2).val = (y 2).val
    omega

/-- An index of the output array lies in point `t`'s block iff each coordinate lies in the block's range on its axis. -/
theorem mem_blk1 (t : Fin cfg1.N) (i : S2x10000x64.Idx) :
    i ∈ ((cfg1.win 4).blk t).view.set ↔ ∀ a : Fin 3, win1_4.index t a * S1x400x64.size a ≤ (i a).val ∧ (i a).val < win1_4.index t a * S1x400x64.size a + S1x400x64.size a := by
  show i ∈ ((View.whole main_v0).slice (win1_4.rect t)).set ↔ _
  rw [View.set_slice_whole, Rect.mem_set_unit]
  exact Iff.rfl

/-- Every index of the output array is in the block of the point that works on its batch element and its row tile. -/
theorem cover1 (i : S2x10000x64.Idx) : ∃ t : Fin cfg1.N, (cfg1.win 4).flush t = true ∧ i ∈ ((cfg1.win 4).blk t).view.set := by
  have hN : cfg1.N = 50 := N_1
  have hi0 : (i 0).val < 2 := (i 0).isLt
  have hi1 : (i 1).val < 10000 := (i 1).isLt
  have hi2 : (i 2).val < 64 := (i 2).isLt
  obtain ⟨t, ht⟩ : ∃ t : Fin cfg1.N, t.val = (i 0).val * 25 + (i 1).val / 400 := ⟨⟨(i 0).val * 25 + (i 1).val / 400, by omega⟩, rfl⟩
  obtain ⟨-, -, -, -, -, -, -, -, -, -, e0, e1, e2⟩ := idx_facts1 t
  refine ⟨t, flush1_4 t, ?_⟩
  rw [mem_blk1]
  intro a
  match a with
  | ⟨0, _⟩ =>
    show win1_4.index t (0 : Fin 3) * 1 ≤ (i 0).val ∧ (i 0).val < win1_4.index t (0 : Fin 3) * 1 + 1
    omega
  | ⟨1, _⟩ =>
    show win1_4.index t (1 : Fin 3) * 400 ≤ (i 1).val ∧ (i 1).val < win1_4.index t (1 : Fin 3) * 400 + 400
    omega
  | ⟨2, _⟩ =>
    show win1_4.index t (2 : Fin 3) * 64 ≤ (i 2).val ∧ (i 2).val < win1_4.index t (2 : Fin 3) * 64 + 64
    omega

end AtIdeal

end Second

open Second in
/-- What the second layer's kernel region leaves in its output array is the specification's second layer of the adjacency, the
    first layer's output, the second layer's weights and its bias row, as the region finds them. -/
theorem final1 (V : (c : Dev nD) → (b : Ref sig .tc) → Buf (Elt Ideal) ((c : Thread nD τ).loc b)) (c : Dev nD) :
      (dat1 (F := Ideal) V c).arrAt 4 cfg1.N
        = fun i => Cert.GcnSpec.second (V c main_arg0) (V c main_call0_v2) (V c main_arg4) (fun j => (V c main_call0_v1 : S1x64.Idx → EReal) (ix2 (0 : Fin 1) (j 0 : Fin 64))) (i 0) (i 1) (i 2) :=
  (dat1 (F := Ideal) V c).arrAt_eq_of_cover 4 (secondOf V c) (fun t _ => flushed1_eq V c t) cover1

end Cert.KernelIdeal.Gcn

end
-- ==== Proof.Ideal.Result.lean ====
import proofs.«139597_g28621662060800_retrytranche2_548_2_alg».proof.Proof.Ideal.Run
import proofs.«139597_g28621662060800_retrytranche2_548_2_alg».proof.Proof.Ideal.Value0
import proofs.«139597_g28621662060800_retrytranche2_548_2_alg».proof.Proof.Ideal.Value1
import proofs.«139597_g28621662060800_retrytranche2_548_2_alg».proof.Proof.Spec
import Idealize.ShloMosaic.Lib.StableHlo.Run
import Idealize.ShloMosaic.Lib.Pipeline.Value
import Idealize.ShloMosaic.Lib.ValueIdx

/-! The idealized kernel program's result array, as the specification's function of the six argument arrays: layer 2's
region leaves `second` of what it finds, what it finds in the first-layer array is what layer 1's region left there,
`hidden` of what that one found; the arguments reach both regions as launched, and each bias row is its bias vector
reshaped to one row. -/

noncomputable section

namespace Cert.KernelIdeal.Gcn

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- Layer 1 finds an argument as launched. -/
theorem V1_arg (c : Dev nD) (b : Ref sig .tc) (hb : b ≠ main_call0_v0 ∧ b ≠ main_call0_v1) :
    V1 m c b = m ((c : Thread nD τ).loc b) := W1_of_ne m c b hb

/-- Layer 2 finds the adjacency and its weights as launched, its bias row as the host left it, and the first-layer
    array at what layer 1's write-backs left. -/
theorem V2_adj (c : Dev nD) : V2 m c main_arg0 = m ((c : Thread nD τ).loc main_arg0) :=
  ((W2_arr m c 0).trans (((dat0 (V1 m) c).arrAt_in 0 rfl _).trans (A_eq0 (V1 m) c 0))).trans (V1_arg m c main_arg0 (by decide))
theorem V2_wgt (c : Dev nD) : V2 m c main_arg4 = m ((c : Thread nD τ).loc main_arg4) :=
  (W2_of_ne m c main_arg4 (by decide)).trans (V1_arg m c main_arg4 (by decide))
theorem V2_bias (c : Dev nD) : V2 m c main_call0_v1 = V1 m c main_call0_v1 := W2_of_ne m c main_call0_v1 (by decide)
theorem V2_hidden (c : Dev nD) : V2 m c main_call0_v2 = (dat0 (V1 m) c).arrAt 4 cfg0.N := W2_arr m c 4

/-- The host's reshape of a bias vector to one row, read back at the row's entries, is the vector. -/
theorem bias_row0 (c : Dev nD) :
    (fun j : Cert.GcnSpec.SBias.Idx => (V1 m c main_call0_v0 : S1x64.Idx → EReal) (ix2 (0 : Fin 1) (j 0 : Fin 64)))
      = (m ((c : Thread nD τ).loc main_arg3) : S64.Idx → EReal) := by
  have e : (V1 m c main_call0_v0 : S1x64.Idx → EReal) = shapeCast S1x64 (m ((c : Thread nD τ).loc main_arg3)) shapeCasts_S64_S1x64 := by
    dsimp only [V1, W1, hostOps0]; after_results; rfl
  funext j
  rw [e]
  exact shapeCast_apply _ _ (ix2 (0 : Fin 1) (j 0 : Fin 64)) j (by
    rw [Shape.rowMajor_val_one, Shape.rowMajor_val_two]; show (j 0).val = 0 * 64 + (j 0).val; omega)
theorem bias_row1 (c : Dev nD) :
    (fun j : Cert.GcnSpec.SBias.Idx => (V1 m c main_call0_v1 : S1x64.Idx → EReal) (ix2 (0 : Fin 1) (j 0 : Fin 64)))
      = (m ((c : Thread nD τ).loc main_arg5) : S64.Idx → EReal) := by
  have e : (V1 m c main_call0_v1 : S1x64.Idx → EReal) = shapeCast S1x64 (m ((c : Thread nD τ).loc main_arg5)) shapeCasts_S64_S1x64 := by
    dsimp only [V1, W1, hostOps0]; after_results; rfl
  funext j
  rw [e]
  exact shapeCast_apply _ _ (ix2 (0 : Fin 1) (j 0 : Fin 64)) j (by
    rw [Shape.rowMajor_val_one, Shape.rowMajor_val_two]; show (j 0).val = 0 * 64 + (j 0).val; omega)

/-- The result array after the run is the specification's function of the launch contents of the six arguments. -/
theorem result_value (c : Dev nD) :
    W3 m c (Proc.devRef .tc main_v0)
      = Cert.GcnSpec.gcn (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  rw [W3_main_v0, final1 (V2 m) c, V2_adj, V2_wgt, V2_bias, V2_hidden, final0 (V1 m) c, bias_row1,
    V1_arg m c main_arg0 (by decide), V1_arg m c main_arg1 (by decide), V1_arg m c main_arg2 (by decide), bias_row0]
  rfl

end Cert.KernelIdeal.Gcn

end
-- ==== Proof.RefValue.lean ====
import proofs.«139597_g28621662060800_retrytranche2_548_2_alg».proof.Proof.Gen.ReferenceIdeal.Run
import proofs.«139597_g28621662060800_retrytranche2_548_2_alg».proof.Proof.Gen.ReferenceIdeal.Read
import proofs.«139597_g28621662060800_retrytranche2_548_2_alg».proof.Proof.Spec
import Idealize.ShloMosaic.Lib.ValueIdx
import Idealize.ShloMosaic.Lib.Pipeline.Value
import Idealize.ShloMosaic.PureOps.Ideal.Laws

/-! The reference program's result array is the two-layer graph convolution of the specification, entry by entry.

Each batch element's chain of operations is read at an index: the slice and reshape of the adjacency array pick the
batch element's matrix, each contraction is the sum the specification writes, the two broadcasts of a bias read the bias
at the column, and the comparison, product and select are the leaky rectifier. The final concatenation along the batch
axis reads the first chain at batch coordinate 0 and the second at batch coordinate 1. -/

noncomputable section

open scoped BigOperators

namespace Cert.ReferenceIdeal.RefValue

open Cert.ReferenceIdeal Cert.ReferenceIdeal.Gen Idealize.ShloMosaic Idealize.ShloMosaic.TcCoe Idealize.SL.Sem
open Idealize.ShloMosaic.ValueIdx Cert.ReferenceIdeal.Read Cert.GcnSpec

variable (x0 : (⟨S2x10000x10000, .f32⟩ : BufTy).Contents (Elt Ideal))
  (x1 : (⟨S10000x64, .f32⟩ : BufTy).Contents (Elt Ideal)) (x2 : (⟨S64x64, .f32⟩ : BufTy).Contents (Elt Ideal))
  (x3 : (⟨S64, .f32⟩ : BufTy).Contents (Elt Ideal)) (x4 : (⟨S64x64, .f32⟩ : BufTy).Contents (Elt Ideal))
  (x5 : (⟨S64, .f32⟩ : BufTy).Contents (Elt Ideal))

/-! ## Batch element 0 -/

/-- The sliced and reshaped adjacency array is batch element 0's matrix. -/
theorem adj0 (r k : Fin 10000) : val_main_v1 (F := Ideal) x0 (ix2 r k) = x0 (ix3 (0 : Fin 2) r k) := by
  rw [val_main_v1_apply, val_main_v0_apply]
  refine congrArg x0 (funext fun a => Fin.ext ?_)
  have hr := r.isLt; have hk := k.isLt
  match a with
  | ⟨0, _⟩ => rfl
  | ⟨1, _⟩ => show (r.val * 10000 + k.val) / 10000 % 10000 = r.val; omega
  | ⟨2, _⟩ => show (r.val * 10000 + k.val) % 10000 = k.val; omega

/-- Features times the first weights is the specification's support matrix. -/
theorem support0 (k : Fin 10000) (j : Fin 64) : val_main_v2 (F := Ideal) x1 x2 (ix2 k j) = support x1 x2 k j := by
  rw [val_main_v2_apply]
  refine Finset.sum_congr rfl fun q _ => ?_
  have el : lidx_main_v2 (ix2 k j) q = ix2 k q := funext fun a => Fin.ext (by
    match a with
    | ⟨0, _⟩ => rfl
    | ⟨1, _⟩ => rfl)
  have er : ridx_main_v2 (ix2 k j) q = ix2 q j := funext fun a => Fin.ext (by
    match a with
    | ⟨0, _⟩ => rfl
    | ⟨1, _⟩ => rfl)
  rw [el, er]

/-- The twice-broadcast first bias reads the bias at the column. -/
theorem bias0 (r : Fin 10000) (j : Fin 64) : val_main_v5 (F := Ideal) x3 (ix2 r j) = x3 (ix1 j) := by
  rw [val_main_v5_apply, val_main_v4_apply]
  exact congrArg x3 (funext fun a => Fin.ext (by
    match a with
    | ⟨0, _⟩ => rfl))

/-- The first layer before the rectifier. -/
theorem pre0 (r : Fin 10000) (j : Fin 64) :
    val_main_v6 (F := Ideal) x0 x1 x2 x3 (ix2 r j) = aggregate x0 (support x1 x2) x3 (0 : Fin 2) r j := by
  rw [val_main_v6_apply, val_main_v3_apply, bias0, Ideal.addf_def]
  refine congrArg (· + x3 (ix1 j)) (Finset.sum_congr rfl fun k _ => ?_)
  have el : lidx_main_v3 (ix2 r j) k = ix2 r k := funext fun a => Fin.ext (by
    match a with
    | ⟨0, _⟩ => rfl
    | ⟨1, _⟩ => rfl)
  have er : ridx_main_v3 (ix2 r j) k = ix2 k j := funext fun a => Fin.ext (by
    match a with
    | ⟨0, _⟩ => rfl
    | ⟨1, _⟩ => rfl)
  rw [el, er, adj0, support0]

/-- The comparison with the broadcast zero, the product with the broadcast slope and the select are the leaky rectifier. -/
theorem hidden0 (r : Fin 10000) (j : Fin 64) :
    val_main_v11 (F := Ideal) x0 x1 x2 x3 (ix2 r j) = hidden x0 x1 x2 x3 (0 : Fin 2) r j := by
  rw [val_main_v11_apply, val_main_v8_apply, val_main_v10_apply, val_main_v7_apply, val_main_cst_apply,
    val_main_v9_apply, val_main_cst_0_apply, pre0, Ideal.ofBits_def, Ideal.ofBits_def, Ideal.mulf_def]
  rfl

/-- The first layer's output times the second weights is the specification's second support matrix. -/
theorem support1_0 (k : Fin 10000) (j : Fin 64) :
    val_main_v12 (F := Ideal) x0 x1 x2 x3 x4 (ix2 k j)
      = support (fun q => hidden x0 x1 x2 x3 (0 : Fin 2) (q 0) (q 1)) x4 k j := by
  rw [val_main_v12_apply]
  refine Finset.sum_congr rfl fun q _ => ?_
  have el : lidx_main_v12 (ix2 k j) q = ix2 k q := funext fun a => Fin.ext (by
    match a with
    | ⟨0, _⟩ => rfl
    | ⟨1, _⟩ => rfl)
  have er : ridx_main_v12 (ix2 k j) q = ix2 q j := funext fun a => Fin.ext (by
    match a with
    | ⟨0, _⟩ => rfl
    | ⟨1, _⟩ => rfl)
  rw [el, er, hidden0]

/-- The twice-broadcast second bias reads the bias at the column. -/
theorem bias1_0 (r : Fin 10000) (j : Fin 64) : val_main_v15 (F := Ideal) x5 (ix2 r j) = x5 (ix1 j) := by
  rw [val_main_v15_apply, val_main_v14_apply]
  exact congrArg x5 (funext fun a => Fin.ext (by
    match a with
    | ⟨0, _⟩ => rfl))

/-- Batch element 0's chain is the specification's second layer over its first. -/
theorem out0 (r : Fin 10000) (j : Fin 64) :
    val_main_v16 (F := Ideal) x0 x1 x2 x3 x4 x5 (ix2 r j)
      = second x0 (fun p => hidden x0 x1 x2 x3 (p 0) (p 1) (p 2)) x4 x5 (0 : Fin 2) r j := by
  rw [val_main_v16_apply, val_main_v13_apply, bias1_0, Ideal.addf_def]
  refine congrArg (· + x5 (ix1 j)) (Finset.sum_congr rfl fun k _ => ?_)
  have el : lidx_main_v13 (ix2 r j) k = ix2 r k := funext fun a => Fin.ext (by
    match a with
    | ⟨0, _⟩ => rfl
    | ⟨1, _⟩ => rfl)
  have er : ridx_main_v13 (ix2 r j) k = ix2 k j := funext fun a => Fin.ext (by
    match a with
    | ⟨0, _⟩ => rfl
    | ⟨1, _⟩ => rfl)
  rw [el, er, adj0, support1_0]

/-! ## Batch element 1: the same chain over the other slice -/

/-- The sliced and reshaped adjacency array is batch element 1's matrix. -/
theorem adj1 (r k : Fin 10000) : val_main_v18 (F := Ideal) x0 (ix2 r k) = x0 (ix3 (1 : Fin 2) r k) := by
  rw [val_main_v18_apply, val_main_v17_apply]
  refine congrArg x0 (funext fun a => Fin.ext ?_)
  have hr := r.isLt; have hk := k.isLt
  match a with
  | ⟨0, _⟩ => rfl
  | ⟨1, _⟩ => show (r.val * 10000 + k.val) / 10000 % 10000 = r.val; omega
  | ⟨2, _⟩ => show (r.val * 10000 + k.val) % 10000 = k.val; omega

/-- Features times the first weights is the specification's support matrix. -/
theorem support_1 (k : Fin 10000) (j : Fin 64) : val_main_v19 (F := Ideal) x1 x2 (ix2 k j) = support x1 x2 k j := by
  rw [val_main_v19_apply]
  refine Finset.sum_congr rfl fun q _ => ?_
  have el : lidx_main_v19 (ix2 k j) q = ix2 k q := funext fun a => Fin.ext (by
    match a with
    | ⟨0, _⟩ => rfl
    | ⟨1, _⟩ => rfl)
  have er : ridx_main_v19 (ix2 k j) q = ix2 q j := funext fun a => Fin.ext (by
    match a with
    | ⟨0, _⟩ => rfl
    | ⟨1, _⟩ => rfl)
  rw [el, er]

/-- The twice-broadcast first bias reads the bias at the column. -/
theorem bias_1 (r : Fin 10000) (j : Fin 64) : val_main_v22 (F := Ideal) x3 (ix2 r j) = x3 (ix1 j) := by
  rw [val_main_v22_apply, val_main_v21_apply]
  exact congrArg x3 (funext fun a => Fin.ext (by
    match a with
    | ⟨0, _⟩ => rfl))

/-- The first layer before the rectifier. -/
theorem pre1 (r : Fin 10000) (j : Fin 64) :
    val_main_v23 (F := Ideal) x0 x1 x2 x3 (ix2 r j) = aggregate x0 (support x1 x2) x3 (1 : Fin 2) r j := by
  rw [val_main_v23_apply, val_main_v20_apply, bias_1, Ideal.addf_def]
  refine congrArg (· + x3 (ix1 j)) (Finset.sum_congr rfl fun k _ => ?_)
  have el : lidx_main_v20 (ix2 r j) k = ix2 r k := funext fun a => Fin.ext (by
    match a with
    | ⟨0, _⟩ => rfl
    | ⟨1, _⟩ => rfl)
  have er : ridx_main_v20 (ix2 r j) k = ix2 k j := funext fun a => Fin.ext (by
    match a with
    | ⟨0, _⟩ => rfl
    | ⟨1, _⟩ => rfl)
  rw [el, er, adj1, support_1]

/-- The comparison with the broadcast zero, the product with the broadcast slope and the select are the leaky rectifier. -/
theorem hidden1 (r : Fin 10000) (j : Fin 64) :
    val_main_v28 (F := Ideal) x0 x1 x2 x3 (ix2 r j) = hidden x0 x1 x2 x3 (1 : Fin 2) r j := by
  rw [val_main_v28_apply, val_main_v25_apply, val_main_v27_apply, val_main_v24_apply, val_main_cst_1_apply,
    val_main_v26_apply, val_main_cst_2_apply, pre1, Ideal.ofBits_def, Ideal.ofBits_def, Ideal.mulf_def]
  rfl

/-- The first layer's output times the second weights is the specification's second support matrix. -/
theorem support1_1 (k : Fin 10000) (j : Fin 64) :
    val_main_v29 (F := Ideal) x0 x1 x2 x3 x4 (ix2 k j)
      = support (fun q => hidden x0 x1 x2 x3 (1 : Fin 2) (q 0) (q 1)) x4 k j := by
  rw [val_main_v29_apply]
  refine Finset.sum_congr rfl fun q _ => ?_
  have el : lidx_main_v29 (ix2 k j) q = ix2 k q := funext fun a => Fin.ext (by
    match a with
    | ⟨0, _⟩ => rfl
    | ⟨1, _⟩ => rfl)
  have er : ridx_main_v29 (ix2 k j) q = ix2 q j := funext fun a => Fin.ext (by
    match a with
    | ⟨0, _⟩ => rfl
    | ⟨1, _⟩ => rfl)
  rw [el, er, hidden1]

/-- The twice-broadcast second bias reads the bias at the column. -/
theorem bias1_1 (r : Fin 10000) (j : Fin 64) : val_main_v32 (F := Ideal) x5 (ix2 r j) = x5 (ix1 j) := by
  rw [val_main_v32_apply, val_main_v31_apply]
  exact congrArg x5 (funext fun a => Fin.ext (by
    match a with
    | ⟨0, _⟩ => rfl))

/-- Batch element 1's chain is the specification's second layer over its first. -/
theorem out1 (r : Fin 10000) (j : Fin 64) :
    val_main_v33 (F := Ideal) x0 x1 x2 x3 x4 x5 (ix2 r j)
      = second x0 (fun p => hidden x0 x1 x2 x3 (p 0) (p 1) (p 2)) x4 x5 (1 : Fin 2) r j := by
  rw [val_main_v33_apply, val_main_v30_apply, bias1_1, Ideal.addf_def]
  refine congrArg (· + x5 (ix1 j)) (Finset.sum_congr rfl fun k _ => ?_)
  have el : lidx_main_v30 (ix2 r j) k = ix2 r k := funext fun a => Fin.ext (by
    match a with
    | ⟨0, _⟩ => rfl
    | ⟨1, _⟩ => rfl)
  have er : ridx_main_v30 (ix2 r j) k = ix2 k j := funext fun a => Fin.ext (by
    match a with
    | ⟨0, _⟩ => rfl
    | ⟨1, _⟩ => rfl)
  rw [el, er, adj1, support1_1]

/-! ## The concatenation along the batch axis -/

/-- At batch coordinate 0 the concatenation reads the first chain. -/
theorem cat0 (r : Fin 10000) (j : Fin 64) :
    val_main_v36 (F := Ideal) x0 x1 x2 x3 x4 x5 (ix3 (0 : Fin 2) r j) = val_main_v16 (F := Ideal) x0 x1 x2 x3 x4 x5 (ix2 r j) := by
  unfold val_main_v36
  refine (concatenate_pair_apply_left 0 (val_main_v34 (F := Ideal) x0 x1 x2 x3 x4 x5) (val_main_v35 (F := Ideal) x0 x1 x2 x3 x4 x5)
    concatenates_S1x10000x64_S1x10000x64_S2x10000x64_d0 (ix3 (0 : Fin 2) r j) rfl (ix3 (0 : Fin 1) r j) (fun b => by
      match b with
      | ⟨0, _⟩ => rfl
      | ⟨1, _⟩ => rfl
      | ⟨2, _⟩ => rfl)).trans ?_
  rw [val_main_v34_apply]
  exact congrArg (val_main_v16 (F := Ideal) x0 x1 x2 x3 x4 x5) (funext fun a => Fin.ext (by
    match a with
    | ⟨0, _⟩ => rfl
    | ⟨1, _⟩ => rfl))

/-- At batch coordinate 1 the concatenation reads the second chain. -/
theorem cat1 (r : Fin 10000) (j : Fin 64) :
    val_main_v36 (F := Ideal) x0 x1 x2 x3 x4 x5 (ix3 (1 : Fin 2) r j) = val_main_v33 (F := Ideal) x0 x1 x2 x3 x4 x5 (ix2 r j) := by
  unfold val_main_v36
  refine (concatenate_pair_apply_right 0 (val_main_v34 (F := Ideal) x0 x1 x2 x3 x4 x5) (val_main_v35 (F := Ideal) x0 x1 x2 x3 x4 x5)
    concatenates_S1x10000x64_S1x10000x64_S2x10000x64_d0 (ix3 (1 : Fin 2) r j) rfl rfl (ix3 (0 : Fin 1) r j) (fun b hb => by
      match b with
      | ⟨0, _⟩ => exact absurd rfl hb
      | ⟨1, _⟩ => rfl
      | ⟨2, _⟩ => rfl) rfl).trans ?_
  rw [val_main_v35_apply]
  exact congrArg (val_main_v33 (F := Ideal) x0 x1 x2 x3 x4 x5) (funext fun a => Fin.ext (by
    match a with
    | ⟨0, _⟩ => rfl
    | ⟨1, _⟩ => rfl))

/-- The whole result stage is the specification's network. -/
theorem stage_eq : val_main_v36 (F := Ideal) x0 x1 x2 x3 x4 x5 = gcn x0 x1 x2 x3 x4 x5 := by
  funext i
  obtain ⟨b, r, j, rfl⟩ : ∃ (b : Fin 2) (r : Fin 10000) (j : Fin 64), i = ix3 b r j := ⟨i 0, i 1, i 2, eq_ix3 i⟩
  have hb : b = 0 ∨ b = 1 := by
    have := b.isLt
    rcases Nat.lt_or_ge b.val 1 with h | h
    · exact Or.inl (Fin.ext (by show b.val = 0; omega))
    · exact Or.inr (Fin.ext (by show b.val = 1; omega))
  rcases hb with rfl | rfl
  · rw [cat0, out0]; rfl
  · rw [cat1, out1]; rfl

/-- The reference program's result buffer holds the specification's network of its six argument buffers. -/
theorem result_eq (m : (ℓ : Loc nD τ sig) → Buf (Elt Ideal) ℓ) (c : Dev nD) :
    Cert.ReferenceIdeal.Value.res_main_v36 (F := Ideal) m c
      = Cert.GcnSpec.gcn (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  rw [val_main_v36_eq]
  exact stage_eq _ _ _ _ _ _

end Cert.ReferenceIdeal.RefValue

end
-- ==== Proof.lean ====
/- A two-layer graph convolution over a batch of two dense 10000 × 10000 adjacency matrices,

      hidden = leaky (adjacency · (features · W1) + b1),      result = adjacency · (hidden · W2) + b2,

   as two kernel launches (one per layer, each a grid of batch element × row tile of 400 rows, the support matrix
   features · weights kept in a scratch buffer from a batch element's first row tile to its last) against the same
   formula written with whole-array products per batch element. On the extended reals both programs compute the same
   sums with the same grouping, the same comparison against zero and the same f32 slope 0.2, so the two result arrays
   are one function of the six arguments (Proof/Spec.lean) and no law of arithmetic, hence no finiteness, is used.

   The frames of the two kernel programs come from one run of the three items of the program (the reshapes of the two
   biases, layer 1's region, layer 2's region), each region's invariant carrying the scratch buffer's contents from
   point to point (Proof/Ideal/*.lean; Proof/Bits/*.lean is the same text over the word-level program). The idealized
   kernel's result is read off that run (Proof/Ideal/Value0.lean, Value1.lean, Result.lean), the reference's off its
   own run (Proof/RefValue.lean). Nothing was rewritten by the ideal pass, so `preserves` is trivial. -/
import proofs.«139597_g28621662060800_retrytranche2_548_2_alg».proof.Defs
import proofs.«139597_g28621662060800_retrytranche2_548_2_alg».proof.Proof.Gen.Kernel
import proofs.«139597_g28621662060800_retrytranche2_548_2_alg».proof.Proof.Gen.KernelIdeal
import proofs.«139597_g28621662060800_retrytranche2_548_2_alg».proof.Proof.Gen.ReferenceIdeal
import proofs.«139597_g28621662060800_retrytranche2_548_2_alg».proof.Proof.Gen.Pre_finite_inputs
import proofs.«139597_g28621662060800_retrytranche2_548_2_alg».proof.Proof.Gen.ReferenceIdeal.Run
import proofs.«139597_g28621662060800_retrytranche2_548_2_alg».proof.Proof.Gen.ReferenceIdeal.Read
import proofs.«139597_g28621662060800_retrytranche2_548_2_alg».proof.Proof.Bits.Run
import proofs.«139597_g28621662060800_retrytranche2_548_2_alg».proof.Proof.Ideal.Run
import proofs.«139597_g28621662060800_retrytranche2_548_2_alg».proof.Proof.Ideal.Result
import proofs.«139597_g28621662060800_retrytranche2_548_2_alg».proof.Proof.RefValue
import Idealize.ShloMosaic.Adequacy
import Idealize.ShloMosaic.Init

noncomputable section

namespace Cert.Proof

open Idealize.ShloMosaic Idealize.SL.Sem

/-- The word-level kernel program runs to the end, faults nowhere and leaves its arguments as launched. -/
theorem frame_k : Cert.frame_Kernel := fun m ρ _ => Cert.Kernel.Gcn.frame m ρ

/-- So does its idealization. -/
theorem frame_ki : Cert.frame_KernelIdeal := fun m ρ _ => Cert.KernelIdeal.Gcn.frame m ρ

/-- The reference is host operations only: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the result array at the specification's function of the (agreeing) arguments. -/
theorem algebraic : Cert.algebraic_KernelIdeal_ReferenceIdeal := by
  intro m ρ m' ρ' _ hagree
  refine ⟨fun c => Cert.GcnSpec.gcn
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono (fun r h c =>
      ⟨(h c _ (Cert.KernelIdeal.Gcn.mem_uc Cert.KernelIdeal.main_v0 (by decide))).trans (Cert.KernelIdeal.Gcn.result_value m c),
       (h c _ (Cert.KernelIdeal.Gcn.mem_uc Cert.KernelIdeal.main_arg0 (by decide))).trans (Cert.KernelIdeal.Gcn.W3_main_arg0 m c),
       (h c _ (Cert.KernelIdeal.Gcn.mem_uc Cert.KernelIdeal.main_arg1 (by decide))).trans (Cert.KernelIdeal.Gcn.W3_main_arg1 m c),
       (h c _ (Cert.KernelIdeal.Gcn.mem_uc Cert.KernelIdeal.main_arg2 (by decide))).trans (Cert.KernelIdeal.Gcn.W3_main_arg2 m c),
       (h c _ (Cert.KernelIdeal.Gcn.mem_uc Cert.KernelIdeal.main_arg3 (by decide))).trans (Cert.KernelIdeal.Gcn.W3_main_arg3 m c),
       (h c _ (Cert.KernelIdeal.Gcn.mem_uc Cert.KernelIdeal.main_arg4 (by decide))).trans (Cert.KernelIdeal.Gcn.W3_main_arg4 m c),
       (h c _ (Cert.KernelIdeal.Gcn.mem_uc Cert.KernelIdeal.main_arg5 (by decide))).trans (Cert.KernelIdeal.Gcn.W3_main_arg5 m c)⟩)
      (Cert.KernelIdeal.Gcn.run_all m ρ)
  · refine (θ_run Cert.ReferenceIdeal.defs _ _).mono (fun _ h c => ⟨(h c).1.trans ?_, (h c).2⟩)
      (Cert.ReferenceIdeal.Value.run (F := Ideal) m' ρ')
    rw [Cert.ReferenceIdeal.RefValue.result_eq m' c, (hagree c).1, (hagree c).2.1, (hagree c).2.2.1, (hagree c).2.2.2.1,
      (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
